-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S16384x16384 : Shape := ⟨2, ![16384, 16384]⟩
abbrev S128x128 : Shape := ⟨2, ![128, 128]⟩
abbrev S128 : Shape := ⟨1, ![128]⟩
abbrev S128x256 : Shape := ⟨2, ![128, 256]⟩
abbrev S256x128 : Shape := ⟨2, ![256, 128]⟩
abbrev S128x40 : Shape := ⟨2, ![128, 40]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256x128 : S_.BroadcastsInDim S256x128 (![] : Fin 0 → Fin S256x128.rank)
  reducesTo_S256x128_S_d0_1 : S256x128.ReducesTo [0, 1] S_
  bcast_S_S128x40 : S_.BroadcastsInDim S128x40 (![] : Fin 0 → Fin S128x40.rank)
  reducesTo_S128x40_S_d0_1 : S128x40.ReducesTo [0, 1] S_

variable [Facts]

def fn_part3 {F : FTy → Type} [FloatOps F] (main_v48 : IVec S_ 1) (main_v49 : FVec F S128x40 .f32) (main_v50 : FVec F S128x40 .f32) : IVec S_ 1 :=
  let main_v51 : IVec S128x40 1 := cmpf .olt main_v49 main_v50
  let main_c_19 : IVec S_ 1 := constantI S_ 1 1#1
  let main_v52 : IVec S_ 1 := (fun x v => Host.reduce IntOp.andi x v reducesTo_S128x40_S_d0_1 h_S_) main_v51 main_c_19
  let main_v53 : IVec S_ 1 := andi main_v48 main_v52
  main_v53

def fn_part2 {F : FTy → Type} [FloatOps F] (main_arg7 : FVec F S128x256 .f32) (main_arg8 : FVec F S256x128 .f32) (main_arg9 : FVec F S128 .f32) (main_arg10 : FVec F S128x40 .f32) (main_v33 : IVec S_ 1) : IVec S_ 1 :=
  let main_v34 : FVec F S128x256 .f32 := Host.absf main_arg7
  let main_cst_12 : FVec F S_ .f32 := constant S_ .f32 0x7F800000#32
  let main_v35 : FVec F S128x256 .f32 := broadcastInDim S128x256 ![] bcast_S_S128x256 main_cst_12
  let main_v36 : IVec S128x256 1 := cmpf .olt main_v34 main_v35
  let main_c_13 : IVec S_ 1 := constantI S_ 1 1#1
  let main_v37 : IVec S_ 1 := (fun x v => Host.reduce IntOp.andi x v reducesTo_S128x256_S_d0_1 h_S_) main_v36 main_c_13
  let main_v38 : IVec S_ 1 := andi main_v33 main_v37
  let main_v39 : FVec F S256x128 .f32 := Host.absf main_arg8
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x40 .f32 := Host.absf main_arg10
  let main_cst_18 : FVec F S_ .f32 := constant S_ .f32 0x7F800000#32
  let main_v50 : FVec F S128x40 .f32 := broadcastInDim S128x40 ![] bcast_S_S128x40 main_cst_18
  fn_part3 (F := F) main_v48 main_v49 main_v50

def fn_part1 {F : FTy → Type} [FloatOps F] (main_arg4 : FVec F S128x128 .f32) (main_arg5 : FVec F S128x128 .f32) (main_arg6 : FVec F S128 .f32) (main_arg7 : FVec F S128x256 .f32) (main_arg8 : FVec F S256x128 .f32) (main_arg9 : FVec F S128 .f32) (main_arg10 : FVec F S128x40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S16384x128 .f32) (main_arg1 : FVec F S16384x16384 .f32) (main_arg2 : FVec F S128x128 .f32) (main_arg3 : FVec F S128x128 .f32) (main_arg4 : FVec F S128x128 .f32) (main_arg5 : FVec F S128x128 .f32) (main_arg6 : FVec F S128 .f32) (main_arg7 : FVec F S128x256 .f32) (main_arg8 : FVec F S256x128 .f32) (main_arg9 : FVec F S128 .f32) (main_arg10 : FVec F S128x40 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_v13 main_v16
-- ==== Kernel.lean ====
abbrev S16384x128 : Shape := ⟨2, ![16384, 128]⟩
abbrev S16384x16384 : Shape := ⟨2, ![16384, 16384]⟩
abbrev S128x128 : Shape := ⟨2, ![128, 128]⟩
abbrev S128 : Shape := ⟨1, ![128]⟩
abbrev S128x256 : Shape := ⟨2, ![128, 256]⟩
abbrev S256x128 : Shape := ⟨2, ![256, 128]⟩
abbrev S128x40 : Shape := ⟨2, ![128, 40]⟩
abbrev S128x16384 : Shape := ⟨2, ![128, 16384]⟩
abbrev S16384x40 : Shape := ⟨2, ![16384, 40]⟩
abbrev S1024x128 : Shape := ⟨2, ![1024, 128]⟩
abbrev S1024x40 : Shape := ⟨2, ![1024, 40]⟩
abbrev S1024x8 : Shape := ⟨2, ![1024, 8]⟩
abbrev S1024 : Shape := ⟨1, ![1024]⟩
abbrev S1024x1 : Shape := ⟨2, ![1024, 1]⟩
abbrev S1x128 : Shape := ⟨2, ![1, 128]⟩
abbrev S1024x256 : Shape := ⟨2, ![1024, 256]⟩

abbrev nBuf : Space → Nat
  | .hbm => 21
  | .vmem => 19
  | .smem => 0
  | _ => 0

abbrev bufTy : (tb : Table) → Fin (tcTables nBuf tb) → BufTy
  | .hbm, ⟨0, _⟩ => ⟨S16384x128, .f32⟩
  | .hbm, ⟨1, _⟩ => ⟨S16384x16384, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x256, .f32⟩
  | .hbm, ⟨8, _⟩ => ⟨S256x128, .f32⟩
  | .hbm, ⟨9, _⟩ => ⟨S128, .f32⟩
  | .hbm, ⟨10, _⟩ => ⟨S128x40, .f32⟩
  | .hbm, ⟨11, _⟩ => ⟨S16384x128, .bf16⟩
  | .hbm, ⟨12, _⟩ => ⟨S16384x128, .f32⟩
  | .hbm, ⟨13, _⟩ => ⟨S128x128, .bf16⟩
  | .hbm, ⟨14, _⟩ => ⟨S128x128, .bf16⟩
  | .hbm, ⟨15, _⟩ => ⟨S128x128, .bf16⟩
  | .hbm, ⟨16, _⟩ => ⟨S128x128, .bf16⟩
  | .hbm, ⟨17, _⟩ => ⟨S128x256, .bf16⟩
  | .hbm, ⟨18, _⟩ => ⟨S256x128, .bf16⟩
  | .hbm, ⟨19, _⟩ => ⟨S128x40, .bf16⟩
  | .hbm, ⟨20, _⟩ => ⟨S16384x40, .f32⟩
  | .local _ .vmem, ⟨0, _⟩ => ⟨S128x16384, .f32⟩
  | .local _ .vmem, ⟨1, _⟩ => ⟨S128x16384, .f32⟩
  | .local _ .vmem, ⟨2, _⟩ => ⟨S16384x128, .bf16⟩
  | .local _ .vmem, ⟨3, _⟩ => ⟨S128x128, .f32⟩
  | .local _ .vmem, ⟨4, _⟩ => ⟨S128x128, .f32⟩
  | .local _ .vmem, ⟨5, _⟩ => ⟨S1024x128, .f32⟩
  | .local _ .vmem, ⟨6, _⟩ => ⟨S1024x128, .f32⟩
  | .local _ .vmem, ⟨7, _⟩ => ⟨S128x128, .bf16⟩
  | .local _ .vmem, ⟨8, _⟩ => ⟨S128x128, .bf16⟩
  | .local _ .vmem, ⟨9, _⟩ => ⟨S128x128, .bf16⟩
  | .local _ .vmem, ⟨10, _⟩ => ⟨S128x128, .bf16⟩
  | .local _ .vmem, ⟨11, _⟩ => ⟨S128, .f32⟩
  | .local _ .vmem, ⟨12, _⟩ => ⟨S128x256, .bf16⟩
  | .local _ .vmem, ⟨13, _⟩ => ⟨S256x128, .bf16⟩
  | .local _ .vmem, ⟨14, _⟩ => ⟨S128, .f32⟩
  | .local _ .vmem, ⟨15, _⟩ => ⟨S128x40, .bf16⟩
  | .local _ .vmem, ⟨16, _⟩ => ⟨S1024x40, .f32⟩
  | .local _ .vmem, ⟨17, _⟩ => ⟨S1024x40, .f32⟩
  | .local _ .vmem, ⟨18, _⟩ => ⟨S1024x128, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg7_0 : Ref sig .tc := ⟨.vmem, 13, rfl⟩
abbrev cc1_stg8_0 : Ref sig .tc := ⟨.vmem, 14, rfl⟩
abbrev cc1_stg9_0 : Ref sig .tc := ⟨.vmem, 15, rfl⟩
abbrev cc1_stg10_0 : Ref sig .tc := ⟨.vmem, 16, rfl⟩
abbrev cc1_stg10_1 : Ref sig .tc := ⟨.vmem, 17, rfl⟩
abbrev cc1_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem7_0 : DmaSem sig := 13
abbrev cc1_sem8_0 : DmaSem sig := 14
abbrev cc1_sem9_0 : DmaSem sig := 15
abbrev cc1_sem10_0 : DmaSem sig := 16
abbrev cc1_sem10_1 : DmaSem sig := 17

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16384x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x256 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S256x128 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128x40 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S1024x40 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

class Facts₀ : Prop where
  bitsLt_bf16_f32 : FTy.bits .bf16 < FTy.bits .f32
  inb_S128x16384_S128x16384_0_0 : ∀ a, (![0, 0] : Fin 2 → Nat) a + S128x16384.size a ≤ S128x16384.size a
  h_S128x16384 : 0 < S128x16384.numel
  inb_S16384x128_S16384x128_0_0 : ∀ a, (![0, 0] : Fin 2 → Nat) a + S16384x128.size a ≤ S16384x128.size a
  h_S16384x128 : 0 < S16384x128.numel
  shapeCasts_S16384x128_S16384x128 : S16384x128.ShapeCasts S16384x128
  inb_S128x128_S128x128_0_0 : ∀ a, (![0, 0] : Fin 2 → Nat) a + S128x128.size a ≤ S128x128.size a
  h_S128x128 : 0 < S128x128.numel
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  shapeCasts_S128x128_S128x128 : S128x128.ShapeCasts S128x128
  slices_S1024x128_o0_0_S1024x8 : S1024x128.Slices ![0, 0] S1024x8
  reduces_S1024x8_S1024 : S1024x8.Reduces [1] S1024
  shapeCasts_S1024_S1024x1 : S1024.ShapeCasts S1024x1
  broadcasts_S1024x1_S1024x8 : S1024x1.Broadcasts S1024x8
  inb_S1024x128_S1024x8_0_0 : ∀ a, (![0, 0] : Fin 2 → Nat) a + S1024x8.size a ≤ S1024x128.size a
  h_S1024x8 : 0 < S1024x8.numel
  shapeCasts_S1024x8_S1024x8 : S1024x8.ShapeCasts S1024x8
  slices_S1024x128_o0_8_S1024x8 : S1024x128.Slices ![0, 8] S1024x8
  inb_S1024x128_S1024x8_0_8 : ∀ a, (![0, 8] : Fin 2 → Nat) a + S1024x8.size a ≤ S1024x128.size a
  slices_S1024x128_o0_16_S1024x8 : S1024x128.Slices ![0, 16] S1024x8
  inb_S1024x128_S1024x8_0_16 : ∀ a, (![0, 16] : Fin 2 → Nat) a + S1024x8.size a ≤ S1024x128.size a
  slices_S1024x128_o0_24_S1024x8 : S1024x128.Slices ![0, 24] S1024x8
  inb_S1024x128_S1024x8_0_24 : ∀ a, (![0, 24] : Fin 2 → Nat) a + S1024x8.size a ≤ S1024x128.size a
  slices_S1024x128_o0_32_S1024x8 : S1024x128.Slices ![0, 32] S1024x8
  inb_S1024x128_S1024x8_0_32 : ∀ a, (![0, 32] : Fin 2 → Nat) a + S1024x8.size a ≤ S1024x128.size a
  slices_S1024x128_o0_40_S1024x8 : S1024x128.Slices ![0, 40] S1024x8
  inb_S1024x128_S1024x8_0_40 : ∀ a, (![0, 40] : Fin 2 → Nat) a + S1024x8.size a ≤ S1024x128.size a
  slices_S1024x128_o0_48_S1024x8 : S1024x128.Slices ![0, 48] S1024x8
  inb_S1024x128_S1024x8_0_48 : ∀ a, (![0, 48] : Fin 2 → Nat) a + S1024x8.size a ≤ S1024x128.size a
  slices_S1024x128_o0_56_S1024x8 : S1024x128.Slices ![0, 56] S1024x8
  inb_S1024x128_S1024x8_0_56 : ∀ a, (![0, 56] : Fin 2 → Nat) a + S1024x8.size a ≤ S1024x128.size a
  slices_S1024x128_o0_64_S1024x8 : S1024x128.Slices ![0, 64] S1024x8
  inb_S1024x128_S1024x8_0_64 : ∀ a, (![0, 64] : Fin 2 → Nat) a + S1024x8.size a ≤ S1024x128.size a
  slices_S1024x128_o0_72_S1024x8 : S1024x128.Slices ![0, 72] S1024x8
  inb_S1024x128_S1024x8_0_72 : ∀ a, (![0, 72] : Fin 2 → Nat) a + S1024x8.size a ≤ S1024x128.size a
  slices_S1024x128_o0_80_S1024x8 : S1024x128.Slices ![0, 80] S1024x8
  inb_S1024x128_S1024x8_0_80 : ∀ a, (![0, 80] : Fin 2 → Nat) a + S1024x8.size a ≤ S1024x128.size a
  slices_S1024x128_o0_88_S1024x8 : S1024x128.Slices ![0, 88] S1024x8
  inb_S1024x128_S1024x8_0_88 : ∀ a, (![0, 88] : Fin 2 → Nat) a + S1024x8.size a ≤ S1024x128.size a
  slices_S1024x128_o0_96_S1024x8 : S1024x128.Slices ![0, 96] S1024x8
  inb_S1024x128_S1024x8_0_96 : ∀ a, (![0, 96] : Fin 2 → Nat) a + S1024x8.size a ≤ S1024x128.size a
  slices_S1024x128_o0_104_S1024x8 : S1024x128.Slices ![0, 104] S1024x8
  inb_S1024x128_S1024x8_0_104 : ∀ a, (![0, 104] : Fin 2 → Nat) a + S1024x8.size a ≤ S1024x128.size a
  slices_S1024x128_o0_112_S1024x8 : S1024x128.Slices ![0, 112] S1024x8
  inb_S1024x128_S1024x8_0_112 : ∀ a, (![0, 112] : Fin 2 → Nat) a + S1024x8.size a ≤ S1024x128.size a
  slices_S1024x128_o0_120_S1024x8 : S1024x128.Slices ![0, 120] S1024x8
  inb_S1024x128_S1024x8_0_120 : ∀ a, (![0, 120] : Fin 2 → Nat) a + S1024x8.size a ≤ S1024x128.size a
  inb_S128_S128_0 : ∀ a, (![0] : Fin 1 → Nat) a + S128.size a ≤ S128.size a
  h_S128 : 0 < S128.numel
  reduces_S1024x128_S1024 : S1024x128.Reduces [1] S1024
  broadcasts_S1024x1_S1024x128 : S1024x1.Broadcasts S1024x128
  shapeCasts_S128_S1x128 : S128.ShapeCasts S1x128
  broadcasts_S1x128_S1024x128 : S1x128.Broadcasts S1024x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128x40_S128x40_0_0 : ∀ a, (![0, 0] : Fin 2 → Nat) a + S128x40.size a ≤ S128x40.size a
  h_S128x40 : 0 < S128x40.numel
  shapeCasts_S128x40_S128x40 : S128x40.ShapeCasts S128x40
  inb_S1024x40_S1024x40_0_0 : ∀ a, (![0, 0] : Fin 2 → Nat) a + S1024x40.size a ≤ S1024x40.size a
  h_S1024x40 : 0 < S1024x40.numel
  dot_S128x16384_S16384x128_S128x128_1_0_0_1_n_n_wf : DotDims.WF S128x16384 S16384x128 S128x128 [1] [0] [0] [1] [] []
  dot_S1024x128_S128x128_S1024x128_1_0_0_1_n_n_wf : DotDims.WF S1024x128 S128x128 S1024x128 [1] [0] [0] [1] [] []
  dot_S1024x128_S128x256_S1024x256_1_0_0_1_n_n_wf : DotDims.WF S1024x128 S128x256 S1024x256 [1] [0] [0] [1] [] []
  dot_S1024x256_S256x128_S1024x128_1_0_0_1_n_n_wf : DotDims.WF S1024x256 S256x128 S1024x128 [1] [0] [0] [1] [] []
  dot_S1024x128_S128x40_S1024x40_1_0_0_1_n_n_wf : DotDims.WF S1024x128 S128x40 S1024x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x16384.size a ≤ S16384x16384.size a
  hwx0_0 : ∀ i : grid0.Coords, EltTy.bits .f32 = 32 ∨ (Rect.block (s := S16384x16384) S128x16384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16384x128.size a ≤ S16384x128.size a
  hwx0_1 : ∀ i : grid0.Coords, EltTy.bits .bf16 = 32 ∨ (Rect.block (s := S16384x128) S16384x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S16384x128.size a
  hwx0_2 : ∀ i : grid0.Coords, EltTy.bits .f32 = 32 ∨ (Rect.block (s := S16384x128) S128x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S16384x128.size a
  hwx1_0 : ∀ i : grid1.Coords, EltTy.bits .f32 = 32 ∨ (Rect.block (s := S16384x128) S1024x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .bf16 = 32 ∨ (Rect.block (s := S128x128) S128x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .bf16 = 32 ∨ (Rect.block (s := S128x128) S128x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x256.size a ≤ S128x256.size a
  hwx1_6 : ∀ i : grid1.Coords, EltTy.bits .bf16 = 32 ∨ (Rect.block (s := S128x256) S128x256.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S256x128.size a ≤ S256x128.size a
  hwx1_7 : ∀ i : grid1.Coords, EltTy.bits .bf16 = 32 ∨ (Rect.block (s := S256x128) S256x128.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128.size a ≤ S128.size a
  hwx1_8 : ∀ i : grid1.Coords, EltTy.bits .f32 = 32 ∨ (Rect.block (s := S128) S128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S128x40.size a ≤ S128x40.size a
  hwx1_9 : ∀ i : grid1.Coords, EltTy.bits .bf16 = 32 ∨ (Rect.block (s := S128x40) S128x40.size (cc1_transform_9 i) (hinb1_9 i)).WholeWords (EltTy.packing .bf16)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S1024x40.size a ≤ S16384x40.size a
  hwx1_10 : ∀ i : grid1.Coords, EltTy.bits .f32 = 32 ∨ (Rect.block (s := S16384x40) S1024x40.size (cc1_transform_10 i) (hinb1_10 i)).WholeWords (EltTy.packing .f32)

variable [Facts₀]

def dot_S128x16384_S16384x128_S128x128_1_0_0_1_n_n : DotDims S128x16384 S16384x128 S128x128 where
  lhsContracting := [1]
  rhsContracting := [0]
  lhsNonContracting := [0]
  rhsNonContracting := [1]
  lhsBatch := []
  rhsBatch := []
  wf := dot_S128x16384_S16384x128_S128x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x128_S128x256_S1024x256_1_0_0_1_n_n : DotDims S1024x128 S128x256 S1024x256 where
  lhsContracting := [1]
  rhsContracting := [0]
  lhsNonContracting := [0]
  rhsNonContracting := [1]
  lhsBatch := []
  rhsBatch := []
  wf := dot_S1024x128_S128x256_S1024x256_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S1024x128_S128x40_S1024x40_1_0_0_1_n_n : DotDims S1024x128 S128x40 S1024x40 where
  lhsContracting := [1]
  rhsContracting := [0]
  lhsNonContracting := [0]
  rhsNonContracting := [1]
  lhsBatch := []
  rhsBatch := []
  wf := dot_S1024x128_S128x40_S1024x40_1_0_0_1_n_n_wf

abbrev win0_0 : Pipeline.Window sig grid0 :=
  Pipeline.Window.ofSpec (Memref.whole main_arg1) S128x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S16384x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v1) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v6) S128x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v7) S256x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg9) S128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v8) S128x40.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v9) S1024x40.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S16384x128 : Shape := ⟨2, ![16384, 128]⟩
abbrev S16384x16384 : Shape := ⟨2, ![16384, 16384]⟩
abbrev S128x128 : Shape := ⟨2, ![128, 128]⟩
abbrev S128 : Shape := ⟨1, ![128]⟩
abbrev S128x256 : Shape := ⟨2, ![128, 256]⟩
abbrev S256x128 : Shape := ⟨2, ![256, 128]⟩
abbrev S128x40 : Shape := ⟨2, ![128, 40]⟩
abbrev S16384x16x8 : Shape := ⟨3, ![16384, 16, 8]⟩
abbrev S_ : Shape := ⟨0, ![]⟩
abbrev S16384x16 : Shape := ⟨2, ![16384, 16]⟩
abbrev S16384x16x1 : Shape := ⟨3, ![16384, 16, 1]⟩
abbrev S16384 : Shape := ⟨1, ![16384]⟩
abbrev S16384x1 : Shape := ⟨2, ![16384, 1]⟩
abbrev S1x128 : Shape := ⟨2, ![1, 128]⟩
abbrev S16384x256 : Shape := ⟨2, ![16384, 256]⟩
abbrev S16384x40 : Shape := ⟨2, ![16384, 40]⟩

abbrev nBuf : Space → Nat
  | .hbm => 100
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384x16384, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x256, .f32⟩
  | .hbm, ⟨8, _⟩ => ⟨S256x128, .f32⟩
  | .hbm, ⟨9, _⟩ => ⟨S128, .f32⟩
  | .hbm, ⟨10, _⟩ => ⟨S128x40, .f32⟩
  | .hbm, ⟨11, _⟩ => ⟨S16384x128, .f32⟩
  | .hbm, ⟨12, _⟩ => ⟨S16384x128, .f32⟩
  | .hbm, ⟨13, _⟩ => ⟨S16384x16x8, .f32⟩
  | .hbm, ⟨14, _⟩ => ⟨S16384x128, .f32⟩
  | .hbm, ⟨15, _⟩ => ⟨S16384x16x8, .f32⟩
  | .hbm, ⟨16, _⟩ => ⟨S16384x128, .f32⟩
  | .hbm, ⟨17, _⟩ => ⟨S16384x16x8, .f32⟩
  | .hbm, ⟨18, _⟩ => ⟨S16384x16x8, .f32⟩
  | .hbm, ⟨19, _⟩ => ⟨S_, .f32⟩
  | .hbm, ⟨20, _⟩ => ⟨S_, .f32⟩
  | .hbm, ⟨21, _⟩ => ⟨S16384x16x8, .f32⟩
  | .hbm, ⟨22, _⟩ => ⟨S16384x16x8, .f32⟩
  | .hbm, ⟨23, _⟩ => ⟨S_, .f32⟩
  | .hbm, ⟨24, _⟩ => ⟨S16384x16, .f32⟩
  | .hbm, ⟨25, _⟩ => ⟨S_, .f32⟩
  | .hbm, ⟨26, _⟩ => ⟨S16384x16, .f32⟩
  | .hbm, ⟨27, _⟩ => ⟨S16384x16, .f32⟩
  | .hbm, ⟨28, _⟩ => ⟨S16384x16x1, .f32⟩
  | .hbm, ⟨29, _⟩ => ⟨S16384x16x8, .f32⟩
  | .hbm, ⟨30, _⟩ => ⟨S16384x16x8, .f32⟩
  | .hbm, ⟨31, _⟩ => ⟨S16384x16x8, .f32⟩
  | .hbm, ⟨32, _⟩ => ⟨S_, .f32⟩
  | .hbm, ⟨33, _⟩ => ⟨S16384x16, .f32⟩
  | .hbm, ⟨34, _⟩ => ⟨S16384x16x1, .f32⟩
  | .hbm, ⟨35, _⟩ => ⟨S16384x16x8, .f32⟩
  | .hbm, ⟨36, _⟩ => ⟨S16384x16x8, .f32⟩
  | .hbm, ⟨37, _⟩ => ⟨S16384x16x8, .f32⟩
  | .hbm, ⟨38, _⟩ => ⟨S16384x128, .f32⟩
  | .hbm, ⟨39, _⟩ => ⟨S16384x128, .f32⟩
  | .hbm, ⟨40, _⟩ => ⟨S16384x128, .f32⟩
  | .hbm, ⟨41, _⟩ => ⟨S_, .f32⟩
  | .hbm, ⟨42, _⟩ => ⟨S16384, .f32⟩
  | .hbm, ⟨43, _⟩ => ⟨S16384x1, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S16384x128, .f32⟩
  | .hbm, ⟨48, _⟩ => ⟨S16384x128, .f32⟩
  | .hbm, ⟨49, _⟩ => ⟨S16384x128, .f32⟩
  | .hbm, ⟨50, _⟩ => ⟨S_, .f32⟩
  | .hbm, ⟨51, _⟩ => ⟨S16384, .f32⟩
  | .hbm, ⟨52, _⟩ => ⟨S16384x1, .f32⟩
  | .hbm, ⟨53, _⟩ => ⟨S_, .f32⟩
  | .hbm, ⟨54, _⟩ => ⟨S16384x1, .f32⟩
  | .hbm, ⟨55, _⟩ => ⟨S16384x1, .f32⟩
  | .hbm, ⟨56, _⟩ => ⟨S16384x128, .f32⟩
  | .hbm, ⟨57, _⟩ => ⟨S16384x128, .f32⟩
  | .hbm, ⟨58, _⟩ => ⟨S_, .f32⟩
  | .hbm, ⟨59, _⟩ => ⟨S16384x1, .f32⟩
  | .hbm, ⟨60, _⟩ => ⟨S16384x1, .f32⟩
  | .hbm, ⟨61, _⟩ => ⟨S16384x1, .f32⟩
  | .hbm, ⟨62, _⟩ => ⟨S16384x128, .f32⟩
  | .hbm, ⟨63, _⟩ => ⟨S16384x128, .f32⟩
  | .hbm, ⟨64, _⟩ => ⟨S1x128, .f32⟩
  | .hbm, ⟨65, _⟩ => ⟨S16384x128, .f32⟩
  | .hbm, ⟨66, _⟩ => ⟨S16384x128, .f32⟩
  | .hbm, ⟨67, _⟩ => ⟨S16384x256, .f32⟩
  | .hbm, ⟨68, _⟩ => ⟨S_, .f32⟩
  | .hbm, ⟨69, _⟩ => ⟨S16384x256, .f32⟩
  | .hbm, ⟨70, _⟩ => ⟨S16384x256, .f32⟩
  | .hbm, ⟨71, _⟩ => ⟨S16384x128, .f32⟩
  | .hbm, ⟨72, _⟩ => ⟨S16384x128, .f32⟩
  | .hbm, ⟨73, _⟩ => ⟨S_, .f32⟩
  | .hbm, ⟨74, _⟩ => ⟨S16384, .f32⟩
  | .hbm, ⟨75, _⟩ => ⟨S16384x1, .f32⟩
  | .hbm, ⟨76, _⟩ => ⟨S_, .f32⟩
  | .hbm, ⟨77, _⟩ => ⟨S16384x1, .f32⟩
  | .hbm, ⟨78, _⟩ => ⟨S16384x1, .f32⟩
  | .hbm, ⟨79, _⟩ => ⟨S16384x128, .f32⟩
  | .hbm, ⟨80, _⟩ => ⟨S16384x128, .f32⟩
  | .hbm, ⟨81, _⟩ => ⟨S16384x128, .f32⟩
  | .hbm, ⟨82, _⟩ => ⟨S_, .f32⟩
  | .hbm, ⟨83, _⟩ => ⟨S16384, .f32⟩
  | .hbm, ⟨84, _⟩ => ⟨S16384x1, .f32⟩
  | .hbm, ⟨85, _⟩ => ⟨S_, .f32⟩
  | .hbm, ⟨86, _⟩ => ⟨S16384x1, .f32⟩
  | .hbm, ⟨87, _⟩ => ⟨S16384x1, .f32⟩
  | .hbm, ⟨88, _⟩ => ⟨S16384x128, .f32⟩
  | .hbm, ⟨89, _⟩ => ⟨S16384x128, .f32⟩
  | .hbm, ⟨90, _⟩ => ⟨S_, .f32⟩
  | .hbm, ⟨91, _⟩ => ⟨S16384x1, .f32⟩
  | .hbm, ⟨92, _⟩ => ⟨S16384x1, .f32⟩
  | .hbm, ⟨93, _⟩ => ⟨S16384x1, .f32⟩
  | .hbm, ⟨94, _⟩ => ⟨S16384x128, .f32⟩
  | .hbm, ⟨95, _⟩ => ⟨S16384x128, .f32⟩
  | .hbm, ⟨96, _⟩ => ⟨S1x128, .f32⟩
  | .hbm, ⟨97, _⟩ => ⟨S16384x128, .f32⟩
  | .hbm, ⟨98, _⟩ => ⟨S16384x128, .f32⟩
  | .hbm, ⟨99, _⟩ => ⟨S16384x40, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_0 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_5 : Ref sig .tc := ⟨.hbm, 50, rfl⟩
abbrev main_v33 : Ref sig .tc := ⟨.hbm, 51, rfl⟩
abbrev main_v34 : Ref sig .tc := ⟨.hbm, 52, rfl⟩
abbrev main_cst_6 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_call0_cst : Ref sig .tc := ⟨.hbm, 68, rfl⟩
abbrev main_call0_v0 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_8 : Ref sig .tc := ⟨.hbm, 73, rfl⟩
abbrev main_v51 : Ref sig .tc := ⟨.hbm, 74, rfl⟩
abbrev main_v52 : Ref sig .tc := ⟨.hbm, 75, rfl⟩
abbrev main_cst_9 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_10 : Ref sig .tc := ⟨.hbm, 82, rfl⟩
abbrev main_v58 : Ref sig .tc := ⟨.hbm, 83, rfl⟩
abbrev main_v59 : Ref sig .tc := ⟨.hbm, 84, rfl⟩
abbrev main_cst_11 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_12 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩

abbrev nD : Nat := 1
abbrev τ : Topo := Topo.v7x

variable {F : FTy → Type} [FloatOps F]

class Facts₀ : Prop where
  shapeCasts_S16384x128_S16384x16x8 : S16384x128.ShapeCasts S16384x16x8
  bcast_S_S16384x16x8 : S_.BroadcastsInDim S16384x16x8 (![] : Fin 0 → Fin S16384x16x8.rank)
  reducesTo_S16384x16x8_S16384x16_d2 : S16384x16x8.ReducesTo [2] S16384x16
  h_S_ : 0 < S_.numel
  bcast_S_S16384x16 : S_.BroadcastsInDim S16384x16 (![] : Fin 0 → Fin S16384x16.rank)
  bcast_S16384x16_S16384x16x1_0_1 : S16384x16.BroadcastsInDim S16384x16x1 (![0, 1] : Fin 2 → Fin S16384x16x1.rank)
  bcast_S16384x16x1_S16384x16x8_0_1_2 : S16384x16x1.BroadcastsInDim S16384x16x8 (![0, 1, 2] : Fin 3 → Fin S16384x16x8.rank)
  shapeCasts_S16384x16x8_S16384x128 : S16384x16x8.ShapeCasts S16384x128
  reducesTo_S16384x128_S16384_d1 : S16384x128.ReducesTo [1] S16384
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x128_0_1 : S16384x1.BroadcastsInDim S16384x128 (![0, 1] : Fin 2 → Fin S16384x128.rank)
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  bcast_S_S16384x256 : S_.BroadcastsInDim S16384x256 (![] : Fin 0 → Fin S16384x256.rank)
  dot_S16384x16384_S16384x128_S16384x128_1_0_0_1_n_n_wf : DotDims.WF S16384x16384 S16384x128 S16384x128 [1] [0] [0] [1] [] []
  dot_S16384x128_S128x128_S16384x128_1_0_0_1_n_n_wf : DotDims.WF S16384x128 S128x128 S16384x128 [1] [0] [0] [1] [] []
  dot_S16384x128_S128x256_S16384x256_1_0_0_1_n_n_wf : DotDims.WF S16384x128 S128x256 S16384x256 [1] [0] [0] [1] [] []
  dot_S16384x256_S256x128_S16384x128_1_0_0_1_n_n_wf : DotDims.WF S16384x256 S256x128 S16384x128 [1] [0] [0] [1] [] []
  dot_S16384x128_S128x40_S16384x40_1_0_0_1_n_n_wf : DotDims.WF S16384x128 S128x40 S16384x40 [1] [0] [0] [1] [] []

variable [Facts₀]

def dot_S16384x16384_S16384x128_S16384x128_1_0_0_1_n_n : DotDims S16384x16384 S16384x128 S16384x128 where
  lhsContracting := [1]
  rhsContracting := [0]
  lhsNonContracting := [0]
  rhsNonContracting := [1]
  lhsBatch := []
  rhsBatch := []
  wf := dot_S16384x16384_S16384x128_S16384x128_1_0_0_1_n_n_wf
def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf
def dot_S16384x128_S128x256_S16384x256_1_0_0_1_n_n : DotDims S16384x128 S128x256 S16384x256 where
  lhsContracting := [1]
  rhsContracting := [0]
  lhsNonContracting := [0]
  rhsNonContracting := [1]
  lhsBatch := []
  rhsBatch := []
  wf := dot_S16384x128_S128x256_S16384x256_1_0_0_1_n_n_wf
def dot_S16384x256_S256x128_S16384x128_1_0_0_1_n_n : DotDims S16384x256 S256x128 S16384x128 where
  lhsContracting := [1]
  rhsContracting := [0]
  lhsNonContracting := [0]
  rhsNonContracting := [1]
  lhsBatch := []
  rhsBatch := []
  wf := dot_S16384x256_S256x128_S16384x128_1_0_0_1_n_n_wf
def dot_S16384x128_S128x40_S16384x40_1_0_0_1_n_n : DotDims S16384x128 S128x40 S16384x40 where
  lhsContracting := [1]
  rhsContracting := [0]
  lhsNonContracting := [0]
  rhsNonContracting := [1]
  lhsBatch := []
  rhsBatch := []
  wf := dot_S16384x128_S128x40_S16384x40_1_0_0_1_n_n_wf

class Facts : Prop extends Facts₀ where

variable [Facts]
-- ==== Proof.Glue.lean ====
/-
  What each kernel region finds in the arrays it reads, walked back to the launch memory.

  The host operations between the launch and the regions only change float formats: before the
  first region the features are converted to the narrower format; between the regions each weight
  matrix is. No host operation and no region writes an argument, the first region writes only its
  output array, and that array is what the second region reads as its aggregated features.
-/
import proofs.«165487_j24223615549762_1_alg».proof.Proof.Gen.KernelIdeal.Frame
import Idealize.ShloMosaic.Lib.StableHlo.Run

set_option maxRecDepth 16384

noncomputable section

namespace Cert.KernelIdeal.Glue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo

variable {F : FTy → Type} [FloatOps F]
variable (m : (ℓ : Loc nD τ sig) → Buf (Elt F) ℓ) (ρ : Dev nD → PrngReg)

/-- A buffer that no operation of a host stretch writes keeps its contents across the stretch. -/
macro "host_skip" : tactic => `(tactic| (
  refine StableHlo.after_of_forall_not_mem _ _ (List.forall_iff_forall_mem.mp ?_)
  simp only [hostOps0, hostOps1, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

/-! ## The first region's entry -/

/-- The adjacency array is as launched. -/
theorem V1_main_arg1 (c : Dev nD) : V1 m ρ c main_arg1 = m ((c : Thread nD τ).loc main_arg1) :=
  calc W1 m ρ c (Proc.devRef .tc main_arg1)
    _ = W0 m ρ c (Proc.devRef .tc main_arg1) := by host_skip
    _ = m ((c : Thread nD τ).loc main_arg1) := rfl

/-- The features array is the launched one in the narrower format. -/
theorem V1_main_v0 (c : Dev nD) :
    V1 m ρ c main_v0 = (truncf .bf16 (m ((c : Thread nD τ).loc main_arg0)) bitsLt_bf16_f32 : (⟨S16384x128, .bf16⟩ : BufTy).Contents (Elt F)) := by
  show StableHlo.after hostOps0 (W0 m ρ c) (Proc.devRef .tc main_v0) = _
  after_results

/-! ## After the first region: the arguments are as launched -/

theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := by host_skip
    _ = m ((c : Thread nD τ).loc main_arg2) := rfl
theorem W2_main_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := by host_skip
    _ = m ((c : Thread nD τ).loc main_arg3) := rfl
theorem W2_main_arg4 (c : Dev nD) : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := by host_skip
    _ = m ((c : Thread nD τ).loc main_arg4) := rfl
theorem W2_main_arg5 (c : Dev nD) : W2 m ρ c (Proc.devRef .tc main_arg5) = m ((c : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := by host_skip
    _ = m ((c : Thread nD τ).loc main_arg5) := rfl
theorem W2_main_arg6 (c : Dev nD) : W2 m ρ c (Proc.devRef .tc main_arg6) = m ((c : Thread nD τ).loc main_arg6) :=
  calc W2 m ρ c (Proc.devRef .tc main_arg6)
    _ = W1 m ρ c (Proc.devRef .tc main_arg6) := W2_of_ne m ρ c main_arg6 (by decide)
    _ = W0 m ρ c (Proc.devRef .tc main_arg6) := by host_skip
    _ = m ((c : Thread nD τ).loc main_arg6) := rfl
theorem W2_main_arg7 (c : Dev nD) : W2 m ρ c (Proc.devRef .tc main_arg7) = m ((c : Thread nD τ).loc main_arg7) :=
  calc W2 m ρ c (Proc.devRef .tc main_arg7)
    _ = W1 m ρ c (Proc.devRef .tc main_arg7) := W2_of_ne m ρ c main_arg7 (by decide)
    _ = W0 m ρ c (Proc.devRef .tc main_arg7) := by host_skip
    _ = m ((c : Thread nD τ).loc main_arg7) := rfl
theorem W2_main_arg8 (c : Dev nD) : W2 m ρ c (Proc.devRef .tc main_arg8) = m ((c : Thread nD τ).loc main_arg8) :=
  calc W2 m ρ c (Proc.devRef .tc main_arg8)
    _ = W1 m ρ c (Proc.devRef .tc main_arg8) := W2_of_ne m ρ c main_arg8 (by decide)
    _ = W0 m ρ c (Proc.devRef .tc main_arg8) := by host_skip
    _ = m ((c : Thread nD τ).loc main_arg8) := rfl
theorem W2_main_arg9 (c : Dev nD) : W2 m ρ c (Proc.devRef .tc main_arg9) = m ((c : Thread nD τ).loc main_arg9) :=
  calc W2 m ρ c (Proc.devRef .tc main_arg9)
    _ = W1 m ρ c (Proc.devRef .tc main_arg9) := W2_of_ne m ρ c main_arg9 (by decide)
    _ = W0 m ρ c (Proc.devRef .tc main_arg9) := by host_skip
    _ = m ((c : Thread nD τ).loc main_arg9) := rfl
theorem W2_main_arg10 (c : Dev nD) : W2 m ρ c (Proc.devRef .tc main_arg10) = m ((c : Thread nD τ).loc main_arg10) :=
  calc W2 m ρ c (Proc.devRef .tc main_arg10)
    _ = W1 m ρ c (Proc.devRef .tc main_arg10) := W2_of_ne m ρ c main_arg10 (by decide)
    _ = W0 m ρ c (Proc.devRef .tc main_arg10) := by host_skip
    _ = m ((c : Thread nD τ).loc main_arg10) := rfl

/-! ## The second region's entry -/

/-- The aggregated features are what the first region left in its output array. -/
theorem V3_main_v1 (c : Dev nD) : V3 m ρ c main_v1 = (dat0 (V1 m ρ) c).arrAt 2 cfg0.N :=
  calc W3 m ρ c (Proc.devRef .tc main_v1)
    _ = W2 m ρ c (Proc.devRef .tc main_v1) := by host_skip
    _ = (dat0 (V1 m ρ) c).arrAt 2 cfg0.N := W2_arr m ρ c 2

/-- `main_v2` is `main_arg2` in the narrower format. -/
theorem V3_main_v2 (c : Dev nD) :
    V3 m ρ c main_v2 = (truncf .bf16 (m ((c : Thread nD τ).loc main_arg2)) bitsLt_bf16_f32 : (⟨S128x128, .bf16⟩ : BufTy).Contents (Elt F)) := by
  rw [← W2_main_arg2 m ρ c]
  show StableHlo.after hostOps1 (W2 m ρ c) (Proc.devRef .tc main_v2) = _
  after_results
/-- `main_v3` is `main_arg3` in the narrower format. -/
theorem V3_main_v3 (c : Dev nD) :
    V3 m ρ c main_v3 = (truncf .bf16 (m ((c : Thread nD τ).loc main_arg3)) bitsLt_bf16_f32 : (⟨S128x128, .bf16⟩ : BufTy).Contents (Elt F)) := by
  rw [← W2_main_arg3 m ρ c]
  show StableHlo.after hostOps1 (W2 m ρ c) (Proc.devRef .tc main_v3) = _
  after_results
/-- `main_v4` is `main_arg4` in the narrower format. -/
theorem V3_main_v4 (c : Dev nD) :
    V3 m ρ c main_v4 = (truncf .bf16 (m ((c : Thread nD τ).loc main_arg4)) bitsLt_bf16_f32 : (⟨S128x128, .bf16⟩ : BufTy).Contents (Elt F)) := by
  rw [← W2_main_arg4 m ρ c]
  show StableHlo.after hostOps1 (W2 m ρ c) (Proc.devRef .tc main_v4) = _
  after_results
/-- `main_v5` is `main_arg5` in the narrower format. -/
theorem V3_main_v5 (c : Dev nD) :
    V3 m ρ c main_v5 = (truncf .bf16 (m ((c : Thread nD τ).loc main_arg5)) bitsLt_bf16_f32 : (⟨S128x128, .bf16⟩ : BufTy).Contents (Elt F)) := by
  rw [← W2_main_arg5 m ρ c]
  show StableHlo.after hostOps1 (W2 m ρ c) (Proc.devRef .tc main_v5) = _
  after_results
/-- `main_v6` is `main_arg7` in the narrower format. -/
theorem V3_main_v6 (c : Dev nD) :
    V3 m ρ c main_v6 = (truncf .bf16 (m ((c : Thread nD τ).loc main_arg7)) bitsLt_bf16_f32 : (⟨S128x256, .bf16⟩ : BufTy).Contents (Elt F)) := by
  rw [← W2_main_arg7 m ρ c]
  show StableHlo.after hostOps1 (W2 m ρ c) (Proc.devRef .tc main_v6) = _
  after_results
/-- `main_v7` is `main_arg8` in the narrower format. -/
theorem V3_main_v7 (c : Dev nD) :
    V3 m ρ c main_v7 = (truncf .bf16 (m ((c : Thread nD τ).loc main_arg8)) bitsLt_bf16_f32 : (⟨S256x128, .bf16⟩ : BufTy).Contents (Elt F)) := by
  rw [← W2_main_arg8 m ρ c]
  show StableHlo.after hostOps1 (W2 m ρ c) (Proc.devRef .tc main_v7) = _
  after_results
/-- `main_v8` is `main_arg10` in the narrower format. -/
theorem V3_main_v8 (c : Dev nD) :
    V3 m ρ c main_v8 = (truncf .bf16 (m ((c : Thread nD τ).loc main_arg10)) bitsLt_bf16_f32 : (⟨S128x40, .bf16⟩ : BufTy).Contents (Elt F)) := by
  rw [← W2_main_arg10 m ρ c]
  show StableHlo.after hostOps1 (W2 m ρ c) (Proc.devRef .tc main_v8) = _
  after_results

/-- The two scale vectors are as launched. -/
theorem V3_main_arg6 (c : Dev nD) : V3 m ρ c main_arg6 = m ((c : Thread nD τ).loc main_arg6) :=
  calc W3 m ρ c (Proc.devRef .tc main_arg6)
    _ = W2 m ρ c (Proc.devRef .tc main_arg6) := by host_skip
    _ = m ((c : Thread nD τ).loc main_arg6) := W2_main_arg6 m ρ c
theorem V3_main_arg9 (c : Dev nD) : V3 m ρ c main_arg9 = m ((c : Thread nD τ).loc main_arg9) :=
  calc W3 m ρ c (Proc.devRef .tc main_arg9)
    _ = W2 m ρ c (Proc.devRef .tc main_arg9) := by host_skip
    _ = m ((c : Thread nD τ).loc main_arg9) := W2_main_arg9 m ρ c

end Cert.KernelIdeal.Glue

end
-- ==== Proof.KBlock.lean ====
/-
  The second kernel's block computation as pure terms.

  At one grid point the body reads a 1024-row block `x0` of the aggregated features and the
  resident weights. It writes the 16 eight-lane softmax slices of the scaled scores into a
  1024 × 128 scratch, one slice per store at column offsets 0, 8, …, 120 (`smPieces`, last store
  first), reads the scratch back whole, and from that and the value projection computes the block
  of 40 logits per row that it stores (`blockOut`, with the scratch contents as a parameter).
-/
import proofs.«165487_j24223615549762_1_alg».proof.Proof.Gen.KernelIdeal.Skeleton
import Idealize.ShloMosaic.Lib.Pipeline.Value

noncomputable section

namespace Cert.KernelIdeal.Block

open Cert.KernelIdeal Cert.KernelIdeal.Gen Idealize.ShloMosaic Idealize.ShloMosaic.TcCoe

variable {F : FTy → Type} [FloatOps F]

/-- The sixteen slice stores into the scratch, last store first: slice `g` covers columns
    `8g … 8g+7` and holds the softmax of the scores' lanes in that group. -/
def smPieces (x0 : Vec F S1024x128 .f32) (x1 x2 : Vec F S128x128 .bf16) :
    List (View.Piece (Elt F) S1024x128 .f32) :=
  [
    ⟨Rect.unit ![0, 120] S1024x8.size inb_S1024x128_S1024x8_0_120, k1_pay26 (k1_pay25 (k1_pay5 x0 x1 x2))⟩,
    ⟨Rect.unit ![0, 112] S1024x8.size inb_S1024x128_S1024x8_0_112, k1_pay24 (k1_pay5 x0 x1 x2)⟩,
    ⟨Rect.unit ![0, 104] S1024x8.size inb_S1024x128_S1024x8_0_104, k1_pay23 (k1_pay5 x0 x1 x2)⟩,
    ⟨Rect.unit ![0, 96] S1024x8.size inb_S1024x128_S1024x8_0_96, k1_pay22 (k1_pay5 x0 x1 x2)⟩,
    ⟨Rect.unit ![0, 88] S1024x8.size inb_S1024x128_S1024x8_0_88, k1_pay21 (k1_pay20 (k1_pay5 x0 x1 x2))⟩,
    ⟨Rect.unit ![0, 80] S1024x8.size inb_S1024x128_S1024x8_0_80, k1_pay19 (k1_pay5 x0 x1 x2)⟩,
    ⟨Rect.unit ![0, 72] S1024x8.size inb_S1024x128_S1024x8_0_72, k1_pay18 (k1_pay5 x0 x1 x2)⟩,
    ⟨Rect.unit ![0, 64] S1024x8.size inb_S1024x128_S1024x8_0_64, k1_pay17 (k1_pay16 (k1_pay5 x0 x1 x2))⟩,
    ⟨Rect.unit ![0, 56] S1024x8.size inb_S1024x128_S1024x8_0_56, k1_pay15 (k1_pay5 x0 x1 x2)⟩,
    ⟨Rect.unit ![0, 48] S1024x8.size inb_S1024x128_S1024x8_0_48, k1_pay14 (k1_pay5 x0 x1 x2)⟩,
    ⟨Rect.unit ![0, 40] S1024x8.size inb_S1024x128_S1024x8_0_40, k1_pay13 (k1_pay12 (k1_pay5 x0 x1 x2))⟩,
    ⟨Rect.unit ![0, 32] S1024x8.size inb_S1024x128_S1024x8_0_32, k1_pay11 (k1_pay5 x0 x1 x2)⟩,
    ⟨Rect.unit ![0, 24] S1024x8.size inb_S1024x128_S1024x8_0_24, k1_pay10 (k1_pay5 x0 x1 x2)⟩,
    ⟨Rect.unit ![0, 16] S1024x8.size inb_S1024x128_S1024x8_0_16, k1_pay9 (k1_pay5 x0 x1 x2)⟩,
    ⟨Rect.unit ![0, 8] S1024x8.size inb_S1024x128_S1024x8_0_8, k1_pay8 (k1_pay7 x0 x1 x2)⟩,
    ⟨Rect.unit ![0, 0] S1024x8.size inb_S1024x128_S1024x8_0_0, k1_pay6 x0 x1 x2⟩ ]

/-- The block of logits the body stores, given the scratch contents `W` it read back: attention
    output and first normalisation (`k1_pay27`, and the same value handed on in the narrower
    format, `k1_pay28`), then feed-forward, second normalisation and projection (`k1_pay1`). -/
def blockOut (W : Vec F S1024x128 .f32) (x0 : Vec F S1024x128 .f32) (x3 x4 : Vec F S128x128 .bf16)
    (x5 : Vec F S128 .f32) (x6 : Vec F S128x256 .bf16) (x7 : Vec F S256x128 .bf16) (x8 : Vec F S128 .f32)
    (x9 : Vec F S128x40 .bf16) : FVec F S1024x40 .f32 :=
  k1_pay1 (k1_pay27 (k1_pay2 x0) (k1_pay4 x0 x3) W x4 x5) (k1_pay28 (k1_pay2 x0) (k1_pay4 x0 x3) W x4 x5) x6 x7 x8 x9

end Cert.KernelIdeal.Block

end
-- ==== Proof.Piece.lean ====
/-
  What the second kernel leaves in its output block at one grid point, as a pure term.

  The body's only store into the output block covers it whole, so the block afterwards is that
  store's payload. The payload is the block function `blockOut` of the loaded input blocks, with
  the scratch contents it read back being what the sixteen slice stores left: the canonical
  contents of the piece list `smPieces`, whatever the scratch held before.
-/
import proofs.«165487_j24223615549762_1_alg».proof.Proof.Gen.KernelIdeal.Frame
import proofs.«165487_j24223615549762_1_alg».proof.Proof.KBlock

set_option maxRecDepth 16384

noncomputable section

namespace Cert.KernelIdeal.BlockPiece

open Cert.KernelIdeal Cert.KernelIdeal.Gen Cert.KernelIdeal.Block
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem hz2 : (![0, 0] : Fin 2 → Nat) = fun _ => 0 := funext fun a => by fin_cases a <;> rfl
theorem hz1 : (![0] : Fin 1 → Nat) = fun _ => 0 := funext fun a => by fin_cases a; rfl

/-- The scratch as the body reads it back after its sixteen slice stores: at every index the
    canonical contents of the pieces. -/
def scratchAfter (x0 : Vec F S1024x128 .f32) (x1 x2 : Vec F S128x128 .bf16) : Vec F S1024x128 .f32 :=
  fun j => View.canon (smPieces x0 x1 x2) ((Rect.unit ![0, 0] S1024x128.size inb_S1024x128_S1024x128_0_0).toLoadRect.idx j)

set_option maxHeartbeats 1000000 in
/-- The output block after the body at a point whose input blocks are `x0 … x9`. -/
theorem out_eq (c : Dev nD) (i : grid1.Coords) (arg1 : Memref sig .tc .vmem S1024x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S128 .f32) (harg6 : arg6.IsWhole) (arg7 : Memref sig .tc .vmem S128x256 .bf16) (harg7 : arg7.IsWhole) (arg8 : Memref sig .tc .vmem S256x128 .bf16) (harg8 : arg8.IsWhole) (arg9 : Memref sig .tc .vmem S128 .f32) (harg9 : arg9.IsWhole) (arg10 : Memref sig .tc .vmem S128x40 .bf16) (harg10 : arg10.IsWhole) (arg11 : Memref sig .tc .vmem S1024x40 .f32) (harg11 : arg11.IsWhole) (arg12 : Memref sig .tc .vmem S1024x128 .f32) (harg12 : arg12.IsWhole)
    (x0 : Vec F S1024x128 .f32) (x1 : Vec F S128x128 .bf16) (x2 : Vec F S128x128 .bf16) (x3 : Vec F S128x128 .bf16) (x4 : Vec F S128x128 .bf16) (x5 : Vec F S128 .f32) (x6 : Vec F S128x256 .bf16) (x7 : Vec F S256x128 .bf16) (x8 : Vec F S128 .f32) (x9 : Vec F S128x40 .bf16) :
    out1_A_10 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9
      = blockOut (scratchAfter x0 x1 x2) x0 x3 x4 x5 x6 x7 x8 x9 := by
  unfold out1_A_10
  rw [View.read_writes_eq_canon _ _ _ (cover1_A_10 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9)]
  unfold kernelRun1_A
  dsimp only
  sl_unfold_words
  rw [View.canon_unit_zero (S := S1024x40) hz2]
  simp only [View.readAt_eq_ld, harg1.read_unread, harg2.read_unread, harg3.read_unread, harg4.read_unread,
    harg5.read_unread, harg6.read_unread, harg7.read_unread, harg8.read_unread, harg9.read_unread, harg10.read_unread,
    View.ld_unit_zero (S := S1024x128) hz2, View.ld_unit_zero (S := S128x128) hz2, View.ld_unit_zero (S := S128x256) hz2,
    View.ld_unit_zero (S := S256x128) hz2, View.ld_unit_zero (S := S128x40) hz2, View.ld_unit_zero (S := S128) hz1,
    View.readCov_eq_canon']
  rfl

end Cert.KernelIdeal.BlockPiece

end
-- ==== Proof.RowSpec.lean ====
/-
  One row of the graph-transformer block, as a function on the extended reals.

  After the aggregation `h = (adj · x)[r, ·]` every later operation acts on row `r` alone, so the
  whole network is one function of that row and of the weight matrices:
    q = h·Wq, k = h·Wk, v = h·Wv;   s = q ⊙ k ⊙ ¼;
    the 128 lanes are 16 groups of 8 consecutive lanes; within a group
      w = exp (s - max s) / Σ exp (s - max s)           (a softmax over the group's 8 lanes);
    a = w ⊙ v;   r₁ = a·Wo + h;   y = LN(r₁)·γ₁;
    f = max (y·W₁) 0;   r₂ = f·W₂ + y;   z = LN(r₂)·γ₂;   out = z·Wout,
  where LN(x) = (x - mean x) · rsqrt (mean ((x - mean x)²) + ε), the means being sums divided by
  the literal 128. Every operation is the exact one on the extended reals; literals stay as the
  words they are printed with, so no literal is evaluated here except where two sides differ.
-/
import Idealize.ShloMosaic.PureOps.Ideal
import Idealize.ShloMosaic.PureOps.Ideal.Laws
import Mathlib.Data.Finset.Fold

noncomputable section

open scoped BigOperators

namespace Cert.RowSpec

open Idealize.ShloMosaic

/-- A row vector times a matrix: `(h·W)[j] = Σ k, h[k] * W[k, j]`. -/
def vecMat {K J : Nat} (h : Fin K → EReal) (W : Fin K → Fin J → EReal) : Fin J → EReal :=
  fun j => ∑ k : Fin K, h k * W k j

/-- Lane `8g + u` of a 128-wide row: lane `u` of group `g`. -/
def lane (g : Fin 16) (u : Fin 8) : Fin 128 := ⟨8 * g.val + u.val, by omega⟩
/-- The group a lane lies in. -/
def grp (j : Fin 128) : Fin 16 := ⟨j.val / 8, by omega⟩
/-- A lane's place inside its group. -/
def sub (j : Fin 128) : Fin 8 := ⟨j.val % 8, by omega⟩

theorem lane_grp_sub (j : Fin 128) : lane (grp j) (sub j) = j := by
  apply Fin.ext; simp only [lane, grp, sub]; omega
theorem grp_lane (g : Fin 16) (u : Fin 8) : grp (lane g u) = g := by
  apply Fin.ext; simp only [lane, grp]; omega
theorem sub_lane (g : Fin 16) (u : Fin 8) : sub (lane g u) = u := by
  apply Fin.ext; simp only [lane, sub]; omega

/-- The word both programs start a running maximum from (the pattern of minus infinity). -/
abbrev negInfW : EReal := Ideal.ofBits .f32 0xFF800000#32
/-- The word of the scale one quarter. -/
abbrev quarterW : EReal := Ideal.ofBits .f32 0x3E800000#32
/-- The word of the row length 128. -/
abbrev c128W : EReal := Ideal.ofBits .f32 0x43000000#32
/-- The word of the variance offset ε. -/
abbrev epsW : EReal := Ideal.ofBits .f32 0x358637BD#32
/-- The word of zero. -/
abbrev zeroW : EReal := Ideal.ofBits .f32 0x00000000#32

/-- The scaled elementwise product of queries and keys. -/
def scores (q k : Fin 128 → EReal) : Fin 128 → EReal := fun j => q j * k j * quarterW

/-- The maximum of a group's eight scores, folded from the minus-infinity word. -/
def grpMax (s : Fin 128 → EReal) (g : Fin 16) : EReal :=
  (Finset.univ : Finset (Fin 8)).fold max negInfW (fun u => s (lane g u))
/-- A lane's exponential, shifted by its group's maximum. -/
def grpExp (s : Fin 128 → EReal) (g : Fin 16) (u : Fin 8) : EReal :=
  Ideal.exp (s (lane g u) - grpMax s g)
/-- A lane's softmax weight within its group. -/
def grpW (s : Fin 128 → EReal) (g : Fin 16) (u : Fin 8) : EReal :=
  Ideal.div (grpExp s g u) (∑ u' : Fin 8, grpExp s g u')
/-- The softmax weights of a whole row, lane by lane. -/
def attnW (s : Fin 128 → EReal) : Fin 128 → EReal := fun j => grpW s (grp j) (sub j)

/-- The row's mean: its sum divided by the literal 128. -/
def mean128 (x : Fin 128 → EReal) : EReal := Ideal.div (∑ k : Fin 128, x k) c128W
/-- Layer normalisation of a row with a per-lane scale. -/
def lnRow (x γ : Fin 128 → EReal) : Fin 128 → EReal := fun j =>
  (x j - mean128 x)
    * Ideal.rsqrt (mean128 (fun k => (x k - mean128 x) * (x k - mean128 x)) + epsW)
    * γ j

/-- Attention output plus the residual, before the first normalisation. -/
def res1 (h : Fin 128 → EReal) (Wq Wk Wv Wo : Fin 128 → Fin 128 → EReal) : Fin 128 → EReal := fun j =>
  vecMat (fun l => attnW (scores (vecMat h Wq) (vecMat h Wk)) l * vecMat h Wv l) Wo j + h j

/-- The row after the first normalisation. -/
def rowY (h : Fin 128 → EReal) (Wq Wk Wv Wo : Fin 128 → Fin 128 → EReal) (γ₁ : Fin 128 → EReal) :
    Fin 128 → EReal := lnRow (res1 h Wq Wk Wv Wo) γ₁

/-- The feed-forward block applied to a normalised row, plus its residual. -/
def res2 (y : Fin 128 → EReal) (W₁ : Fin 128 → Fin 256 → EReal) (W₂ : Fin 256 → Fin 128 → EReal) :
    Fin 128 → EReal := fun j =>
  vecMat (fun l => max (vecMat y W₁ l) zeroW) W₂ j + y j

/-- From the first normalised row to the output row: feed-forward, normalisation, projection. -/
def tailOut (y : Fin 128 → EReal) (W₁ : Fin 128 → Fin 256 → EReal) (W₂ : Fin 256 → Fin 128 → EReal)
    (γ₂ : Fin 128 → EReal) (Wout : Fin 128 → Fin 40 → EReal) : Fin 40 → EReal :=
  vecMat (lnRow (res2 y W₁ W₂) γ₂) Wout

/-- One output row as a function of the aggregated row and the weights. -/
def rowOut (h : Fin 128 → EReal) (Wq Wk Wv Wo : Fin 128 → Fin 128 → EReal) (γ₁ : Fin 128 → EReal)
    (W₁ : Fin 128 → Fin 256 → EReal) (W₂ : Fin 256 → Fin 128 → EReal) (γ₂ : Fin 128 → EReal)
    (Wout : Fin 128 → Fin 40 → EReal) : Fin 40 → EReal :=
  tailOut (rowY h Wq Wk Wv Wo γ₁) W₁ W₂ γ₂ Wout

/-- The aggregated row `r`: `(adj · x)[r, ·]`. -/
def aggRow (adj : Fin 16384 → Fin 16384 → EReal) (x : Fin 16384 → Fin 128 → EReal) (r : Fin 16384) :
    Fin 128 → EReal := fun j => ∑ n : Fin 16384, adj r n * x n j

/-! ## The two facts where the programs' texts differ -/

/-- Folding `max` from a starting value never goes below it, so taking the maximum with that
    starting value once more changes nothing. -/
theorem max_start_fold {ι : Type} (s : Finset ι) (b : EReal) (f : ι → EReal) :
    max b (s.fold max b f) = s.fold max b f :=
  max_eq_right ((Finset.le_fold_max b).mpr (Or.inl le_rfl))

end Cert.RowSpec

end
-- ==== Proof.LibDot2.lean ====
/-
  A rank-2 matrix product read at an index, at the ideal instance (floats are the extended reals).

  The product of an `[M, K]` array by a `[K, N]` array is written either as the accelerator's
  multiply-accumulate into an accumulator that is zero everywhere, or as the host's general dot
  product; at the ideal instance both are, at `(p, q)`, the sum over the contraction index of the
  products of the operands' entries, with no rounding and no order of summation left in it. The
  contraction index set of a product with ONE contracted axis is a rank-1 index set; re-indexed by
  its coordinate the sum runs over `Fin K`:
      (l · r)[p, q] = ∑ k : Fin K, l[p, k] * r[k, q].
  The second family is the product with the left operand read transposed, `[K, M]` by `[K, N]`,
  contracting axis 0 of both:
      (lᵀ · r)[p, q] = ∑ k : Fin K, l[k, p] * r[k, q].
  For any dimension numbers the two spellings of one product (accumulating into zero, and the
  host's) are one and the same array.
-/
import Idealize.ShloMosaic.PureOps.Ideal
import Idealize.ShloMosaic.PureOps.Ideal.Laws
import Idealize.ShloMosaic.Lib.ValueIdx

noncomputable section

open scoped BigOperators

namespace Idealize.ShloMosaic.Dot2

open Idealize.ShloMosaic Idealize.ShloMosaic.ValueIdx

/-! ## `[M, K] × [K, N] → [M, N]` -/

/-- [M,K] x [K,N] -> [M,N], contracting lhs axis 1 with rhs axis 0: the dimension numbers of the
    plain matrix product, no batch axis; the result's axis 0 is the left operand's axis 0 and its
    axis 1 the right operand's axis 1. -/
abbrev mmDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

section MM
variable {M K N : Nat}
  (wf : DotDims.WF ⟨2, ![M, K]⟩ ⟨2, ![K, N]⟩ ⟨2, ![M, N]⟩ [1] [0] [0] [1] [] [])

/-- The left operand's axis 0 is its free axis: its coordinate is the result's row, whatever the
    contraction index. -/
private theorem mm_lhs0 (j : (⟨2, ![M, N]⟩ : Shape).Idx) (k : (mmDims M K N wf).contr.Idx) :
    ((mmDims M K N wf).lhsIdx j k 0).val = (j 0).val := by
  unfold DotDims.lhsIdx
  rw [dif_neg (show (0 : Fin 2) ∉ ([] : List (Fin 2)) by decide),
    dif_pos (show (0 : Fin 2) ∈ [(0 : Fin 2)] by decide)]
  rfl

/-- The left operand's axis 1 is the contracted one: at the contraction index with coordinate `c`
    its coordinate is `c`. -/
private theorem mm_lhs1 (j : (⟨2, ![M, N]⟩ : Shape).Idx) (c : Fin K) :
    ((mmDims M K N wf).lhsIdx j ((contrEquiv1 (mmDims M K N wf) K rfl rfl).symm c) 1).val = c.val := by
  rw [(mmDims M K N wf).lhsIdx_val_of_single rfl]
  exact contrEquiv1_symm_val (mmDims M K N wf) K rfl rfl c

/-- The right operand's axis 0 is the contracted one: at the contraction index with coordinate `c`
    its coordinate is `c`. -/
private theorem mm_rhs0 (j : (⟨2, ![M, N]⟩ : Shape).Idx) (c : Fin K) :
    ((mmDims M K N wf).rhsIdx j ((contrEquiv1 (mmDims M K N wf) K rfl rfl).symm c) 0).val = c.val := by
  rw [(mmDims M K N wf).rhsIdx_val_of_single rfl]
  exact contrEquiv1_symm_val (mmDims M K N wf) K rfl rfl c

/-- The right operand's axis 1 is its free axis: its coordinate is the result's column, whatever
    the contraction index. -/
private theorem mm_rhs1 (j : (⟨2, ![M, N]⟩ : Shape).Idx) (k : (mmDims M K N wf).contr.Idx) :
    ((mmDims M K N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The contraction's sum at `(p, q)`, over the contraction index set and through the operand
    index maps, is the sum over the contracted coordinate `k : Fin K` of `l[p, k] * r[k, q]`. -/
theorem mm_sum (l : (⟨2, ![M, K]⟩ : Shape).Idx → EReal) (r : (⟨2, ![K, N]⟩ : Shape).Idx → EReal)
    (p : Fin M) (q : Fin N) :
    ∑ k : (mmDims M K N wf).contr.Idx,
        l ((mmDims M K N wf).lhsIdx (ix2 p q) k) * r ((mmDims M K N wf).rhsIdx (ix2 p q) k)
      = ∑ k : Fin K, l (ix2 p k) * r (ix2 k q) := by
  rw [← Equiv.sum_comp (contrEquiv1 (mmDims M K N wf) K rfl rfl).symm]
  refine Finset.sum_congr rfl fun c _ => ?_
  have hl : (mmDims M K N wf).lhsIdx (ix2 p q) ((contrEquiv1 (mmDims M K N wf) K rfl rfl).symm c)
      = ix2 p c := by
    funext a; apply Fin.ext
    match a with
    | ⟨0, _⟩ => exact mm_lhs0 wf (ix2 p q) _
    | ⟨1, _⟩ => exact mm_lhs1 wf (ix2 p q) c
  have hr : (mmDims M K N wf).rhsIdx (ix2 p q) ((contrEquiv1 (mmDims M K N wf) K rfl rfl).symm c)
      = ix2 c q := by
    funext a; apply Fin.ext
    match a with
    | ⟨0, _⟩ => exact mm_rhs0 wf (ix2 p q) c
    | ⟨1, _⟩ => exact mm_rhs1 wf (ix2 p q) _
  rw [hl, hr]

end MM

/-- The accelerator's product of `[M, K]` by `[K, N]` accumulated into the all-zero array, at
    `(p, q)`: `∑ k, l[p, k] * r[k, q]` in the extended reals. -/
theorem matmul_zero_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (mmDims M K N wf) prec l r (constant ⟨2, ![M, N]⟩ .f32 0x00000000#32) (ix2 p q)
      = ∑ k : Fin K, l (ix2 p k) * r (ix2 k q) := by
  rw [Ideal.matmul_constant_zero_apply]
  exact mm_sum wf l r p q

/-- The host's general dot product of `[M, K]` by `[K, N]`, at `(p, q)`, whatever its schedule:
    `∑ k, l[p, k] * r[k, q]` in the extended reals. -/
theorem dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule)
    (l : FVec Ideal ⟨2, ![M, K]⟩ φ₁) (r : FVec Ideal ⟨2, ![K, N]⟩ φ₂) (p : Fin M) (q : Fin N) :
    FloatOps.dotGeneral (mmDims M K N wf) prec sched l r (ix2 p q)
      = ∑ k : Fin K, l (ix2 p k) * r (ix2 k q) := by
  rw [Ideal.dotGeneral_apply]
  exact mm_sum wf l r p q

/-- The same for the host's product as a one-device program states it (the single-device
    schedule): at `(p, q)` it is `∑ k, l[p, k] * r[k, q]`. -/
theorem host_dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision)
    (l : FVec Ideal ⟨2, ![M, K]⟩ φ₁) (r : FVec Ideal ⟨2, ![K, N]⟩ φ₂) (p : Fin M) (q : Fin N) :
    Host.dotGeneral (mmDims M K N wf) prec l r (ix2 p q)
      = ∑ k : Fin K, l (ix2 p k) * r (ix2 k q) :=
  dotGeneral_mm_apply wf prec .single l r p q

/-! ## The two spellings of one product -/

/-- the two spellings of one product are one array: for any dimension numbers, the accelerator's
    product accumulated into the all-zero array is the host's product (which has no accumulator),
    whatever the host's schedule; both are the contraction's sum at every index. -/
theorem matmul_zero_eq_dotGeneral {sl sr so : Shape} {φ₁ φ₂ : FTy} (d : DotDims sl sr so)
    (prec : Option ContractPrecision) (sched : HostSchedule) (l : FVec Ideal sl φ₁) (r : FVec Ideal sr φ₂) :
    FloatOps.matmul d prec l r (constant so .f32 0x00000000#32) = FloatOps.dotGeneral d prec sched l r := by
  funext j
  rw [Ideal.matmul_constant_zero_apply, Ideal.dotGeneral_apply]

/-- The same against the host's product as a one-device program states it (the single-device
    schedule). -/
theorem matmul_zero_eq_host_dotGeneral {sl sr so : Shape} {φ₁ φ₂ : FTy} (d : DotDims sl sr so)
    (prec : Option ContractPrecision) (l : FVec Ideal sl φ₁) (r : FVec Ideal sr φ₂) :
    FloatOps.matmul d prec l r (constant so .f32 0x00000000#32) = Host.dotGeneral d prec l r :=
  matmul_zero_eq_dotGeneral d prec .single l r

/-! ## `[K, M] × [K, N] → [M, N]`, the left operand read transposed -/

/-- [K,M] x [K,N] -> [M,N], contracting axis 0 of both (the left operand read transposed): the
    result's axis 0 is the left operand's axis 1 and its axis 1 the right operand's axis 1. -/
abbrev tmDims (K M N : Nat)
    (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

section TM
variable {K M N : Nat}
  (wf : DotDims.WF ⟨2, ![K, M]⟩ ⟨2, ![K, N]⟩ ⟨2, ![M, N]⟩ [0] [0] [1] [1] [] [])

/-- The left operand's axis 0 is the contracted one: at the contraction index with coordinate `c`
    its coordinate is `c`. -/
private theorem tm_lhs0 (j : (⟨2, ![M, N]⟩ : Shape).Idx) (c : Fin K) :
    ((tmDims K M N wf).lhsIdx j ((contrEquiv1 (tmDims K M N wf) K rfl rfl).symm c) 0).val = c.val := by
  rw [(tmDims K M N wf).lhsIdx_val_of_single rfl]
  exact contrEquiv1_symm_val (tmDims K M N wf) K rfl rfl c

/-- The left operand's axis 1 is its free axis: its coordinate is the result's row, whatever the
    contraction index. -/
private theorem tm_lhs1 (j : (⟨2, ![M, N]⟩ : Shape).Idx) (k : (tmDims K M N wf).contr.Idx) :
    ((tmDims K M N wf).lhsIdx j k 1).val = (j 0).val := by
  unfold DotDims.lhsIdx
  rw [dif_neg (show (1 : Fin 2) ∉ ([] : List (Fin 2)) by decide),
    dif_pos (show (1 : Fin 2) ∈ [(1 : Fin 2)] by decide)]
  rfl

/-- The right operand's axis 0 is the contracted one: at the contraction index with coordinate `c`
    its coordinate is `c`. -/
private theorem tm_rhs0 (j : (⟨2, ![M, N]⟩ : Shape).Idx) (c : Fin K) :
    ((tmDims K M N wf).rhsIdx j ((contrEquiv1 (tmDims K M N wf) K rfl rfl).symm c) 0).val = c.val := by
  rw [(tmDims K M N wf).rhsIdx_val_of_single rfl]
  exact contrEquiv1_symm_val (tmDims K M N wf) K rfl rfl c

/-- The right operand's axis 1 is its free axis: its coordinate is the result's column, whatever
    the contraction index. -/
private theorem tm_rhs1 (j : (⟨2, ![M, N]⟩ : Shape).Idx) (k : (tmDims K M N wf).contr.Idx) :
    ((tmDims K M N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The transposed-left contraction's sum at `(p, q)`, over the contraction index set and through
    the operand index maps, is the sum over the contracted coordinate `k : Fin K` of
    `l[k, p] * r[k, q]`. -/
theorem tm_sum (l : (⟨2, ![K, M]⟩ : Shape).Idx → EReal) (r : (⟨2, ![K, N]⟩ : Shape).Idx → EReal)
    (p : Fin M) (q : Fin N) :
    ∑ k : (tmDims K M N wf).contr.Idx,
        l ((tmDims K M N wf).lhsIdx (ix2 p q) k) * r ((tmDims K M N wf).rhsIdx (ix2 p q) k)
      = ∑ k : Fin K, l (ix2 k p) * r (ix2 k q) := by
  rw [← Equiv.sum_comp (contrEquiv1 (tmDims K M N wf) K rfl rfl).symm]
  refine Finset.sum_congr rfl fun c _ => ?_
  have hl : (tmDims K M N wf).lhsIdx (ix2 p q) ((contrEquiv1 (tmDims K M N wf) K rfl rfl).symm c)
      = ix2 c p := by
    funext a; apply Fin.ext
    match a with
    | ⟨0, _⟩ => exact tm_lhs0 wf (ix2 p q) c
    | ⟨1, _⟩ => exact tm_lhs1 wf (ix2 p q) _
  have hr : (tmDims K M N wf).rhsIdx (ix2 p q) ((contrEquiv1 (tmDims K M N wf) K rfl rfl).symm c)
      = ix2 c q := by
    funext a; apply Fin.ext
    match a with
    | ⟨0, _⟩ => exact tm_rhs0 wf (ix2 p q) c
    | ⟨1, _⟩ => exact tm_rhs1 wf (ix2 p q) _
  rw [hl, hr]

end TM

/-- The accelerator's product of `[K, M]` (read transposed) by `[K, N]` accumulated into the
    all-zero array, at `(p, q)`: `∑ k, l[k, p] * r[k, q]` in the extended reals. -/
theorem matmul_zero_tm_apply {K M N : Nat} {φ₁ φ₂ : FTy}
    (wf : DotDims.WF ⟨2, ![K, M]⟩ ⟨2, ![K, N]⟩ ⟨2, ![M, N]⟩ [0] [0] [1] [1] [] [])
    (prec : Option ContractPrecision) (l : FVec Ideal ⟨2, ![K, M]⟩ φ₁) (r : FVec Ideal ⟨2, ![K, N]⟩ φ₂)
    (p : Fin M) (q : Fin N) :
    FloatOps.matmul (tmDims K M N wf) prec l r (constant ⟨2, ![M, N]⟩ .f32 0x00000000#32) (ix2 p q)
      = ∑ k : Fin K, l (ix2 k p) * r (ix2 k q) := by
  rw [Ideal.matmul_constant_zero_apply]
  exact tm_sum wf l r p q

end Idealize.ShloMosaic.Dot2

end
-- ==== Proof.KAttn.lean ====
/-
  The first half of the block computation read at an index, over the extended reals: the value
  projection, the scaled scores, and the attention output with its residual and normalisation.
-/
import proofs.«165487_j24223615549762_1_alg».proof.Proof.KBlock
import proofs.«165487_j24223615549762_1_alg».proof.Proof.RowSpec
import proofs.«165487_j24223615549762_1_alg».proof.Proof.LibDot2
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.BlockAttn

open Cert.KernelIdeal Cert.KernelIdeal.Gen Cert.KernelIdeal.Block Cert.RowSpec
open Idealize.ShloMosaic Idealize.ShloMosaic.TcCoe Idealize.ShloMosaic.ValueIdx

/-! ## The matrix product of a block by a square weight matrix -/

/-- The dimension numbers of the block's products are those of the plain matrix product. -/
theorem dot_eq_mm :
    dot_S1024x128_S128x128_S1024x128_1_0_0_1_n_n
      = Dot2.mmDims 1024 128 128 dot_S1024x128_S128x128_S1024x128_1_0_0_1_n_n.wf := rfl

/-- A block times a weight matrix, accumulated into zero, at `(y, j)`: the row `y` of the block
    against column `j` of the matrix. -/
theorem mm_apply {φ₁ φ₂ : FTy} (l : FVec Ideal S1024x128 φ₁) (r : FVec Ideal S128x128 φ₂)
    (y : Fin 1024) (j : Fin 128) :
    matmul dot_S1024x128_S128x128_S1024x128_1_0_0_1_n_n none l r
        (constant (F := Ideal) S1024x128 .f32 0x00000000#32) (ix2 y j)
      = ∑ k : Fin 128, l (ix2 y k) * r (ix2 k j) := by
  rw [dot_eq_mm]
  exact Dot2.matmul_zero_mm_apply _ none l r y j

/-- The reshaped copy of the loaded block is the block. -/
theorem pay2_apply (x0 : Vec Ideal S1024x128 .f32) (y : Fin 1024) (j : Fin 128) :
    k1_pay2 (F := Ideal) x0 (ix2 y j) = x0 (ix2 y j) := by
  unfold k1_pay2
  exact congrFun (shapeCast_self x0 _) (ix2 y j)

/-- The block handed to the products in the narrower format is still the block. -/
theorem pay3_apply (x0 : Vec Ideal S1024x128 .f32) (y : Fin 1024) (k : Fin 128) :
    (k1_pay3 (F := Ideal) x0 (ix2 y k) : EReal) = x0 (ix2 y k) := by
  unfold k1_pay3
  exact pay2_apply x0 y k

/-- A weight matrix reshaped to its own shape is itself. -/
theorem wcast_apply (w : Vec Ideal S128x128 .bf16) (k l : Fin 128) :
    (shapeCast S128x128 w shapeCasts_S128x128_S128x128 (ix2 k l) : EReal) = w (ix2 k l) :=
  congrFun (shapeCast_self w _) (ix2 k l)

/-- The block's product with a weight matrix at `(y, j)` is the row's product with the matrix. -/
theorem proj_apply (x0 : Vec Ideal S1024x128 .f32) (w : Vec Ideal S128x128 .bf16) (y : Fin 1024) (j : Fin 128) :
    matmul dot_S1024x128_S128x128_S1024x128_1_0_0_1_n_n none (k1_pay3 (F := Ideal) x0)
        (shapeCast S128x128 w shapeCasts_S128x128_S128x128 : FVec Ideal S128x128 .bf16)
        (constant (F := Ideal) S1024x128 .f32 0x00000000#32) (ix2 y j)
      = vecMat (fun k => x0 (ix2 y k)) (fun k l => w (ix2 k l)) j := by
  refine (mm_apply _ _ y j).trans ?_
  unfold vecMat
  refine Finset.sum_congr rfl fun k _ => ?_
  rw [pay3_apply x0 y k, wcast_apply w k j]

/-- The value projection of row `y`. -/
theorem pay4_apply (x0 : Vec Ideal S1024x128 .f32) (x3 : Vec Ideal S128x128 .bf16) (y : Fin 1024) (j : Fin 128) :
    k1_pay4 (F := Ideal) x0 x3 (ix2 y j)
      = vecMat (fun k => x0 (ix2 y k)) (fun k l => x3 (ix2 k l)) j := by
  unfold k1_pay4
  exact proj_apply x0 x3 y j

/-- The scaled scores of row `y`. -/
theorem pay5_apply (x0 : Vec Ideal S1024x128 .f32) (x1 x2 : Vec Ideal S128x128 .bf16) (y : Fin 1024) (j : Fin 128) :
    k1_pay5 (F := Ideal) x0 x1 x2 (ix2 y j)
      = scores (vecMat (fun k => x0 (ix2 y k)) (fun k l => x1 (ix2 k l)))
               (vecMat (fun k => x0 (ix2 y k)) (fun k l => x2 (ix2 k l))) j := by
  unfold k1_pay5 scores
  refine (mulf_apply _ _ _).trans ?_
  refine congrArg₂ (· * ·) ((mulf_apply _ _ _).trans (congrArg₂ (· * ·) (proj_apply x0 x1 y j) (proj_apply x0 x2 y j))) ?_
  rfl

/-! ## Sums along a row, and the column and row layouts -/

/-- The sum over the 128 lanes of row `y`. -/
theorem rowSum_apply (v : FVec Ideal S1024x128 .f32) (y : Fin 1024) :
    multiReduction (F := Ideal) .add [1] S1024 v 0x00000000#32 reduces_S1024x128_S1024 (.inl rfl) rfl (ix1 y)
      = ∑ k : Fin 128, v (ix2 y k) := by
  refine (Ideal.multiReduction_add_single v 0x00000000#32 reduces_S1024x128_S1024 (.inl rfl) rfl (ix1 y)).trans ?_
  refine Finset.sum_congr rfl fun k _ => congrArg v ?_
  funext a
  match a with
  | ⟨0, _⟩ => exact Fin.ext rfl
  | ⟨1, _⟩ => exact Fin.ext rfl

/-- A vector of one value per row, laid out as a one-lane column, reads the row's value. -/
theorem col_apply (v : FVec Ideal S1024 .f32) (y : Fin 1024) (u : Fin 1) :
    (shapeCast S1024x1 v shapeCasts_S1024_S1024x1 : FVec Ideal S1024x1 .f32) (ix2 y u) = v (ix1 y) :=
  shapeCast_apply v _ (ix2 y u) (ix1 y) (by
    have hu : u.val = 0 := by omega
    rw [Shape.rowMajor_val_one, Shape.rowMajor_val_two]
    show y.val = y.val * 1 + u.val
    rw [hu, Nat.mul_one, Nat.add_zero])

/-- A one-lane column spread over the 128 lanes reads, in every lane, the row's one value. -/
theorem spread_apply (c : FVec Ideal S1024x1 .f32) (y : Fin 1024) (j : Fin 128) :
    (broadcastTo S1024x128 c broadcasts_S1024x1_S1024x128 : FVec Ideal S1024x128 .f32) (ix2 y j)
      = c (ix2 y (0 : Fin 1)) := by
  refine broadcastTo_apply c _ (ix2 y j) (ix2 y (0 : Fin 1)) fun ax => ?_
  match ax with
  | ⟨0, _⟩ => rfl
  | ⟨1, _⟩ => rfl

/-- The per-lane scale, laid out as one row and spread over the 1024 rows, reads the lane's scale. -/
theorem scale_apply (g : Vec Ideal S128 .f32) (y : Fin 1024) (j : Fin 128) :
    (broadcastTo S1024x128 (shapeCast S1x128 g shapeCasts_S128_S1x128 : FVec Ideal S1x128 .f32)
        broadcasts_S1x128_S1024x128 : FVec Ideal S1024x128 .f32) (ix2 y j) = g (ix1 j) :=
  (broadcastTo_1b_ab_apply _ _ y j).trans (shapeCast_a_1a_apply g _ 0 j)

/-! ## The normalisation of a block, row by row -/

/-- The column of row means: each row's lane sum divided by the literal 128. -/
def meanCol (v : FVec Ideal S1024x128 .f32) : FVec Ideal S1024x1 .f32 :=
  divf (shapeCast S1024x1
      (multiReduction .add [1] S1024 v 0x00000000#32 reduces_S1024x128_S1024 (.inl rfl) rfl)
      shapeCasts_S1024_S1024x1)
    (broadcast S1024x1 (Scalar.ofBits .f32 0x43000000#32))

/-- The column of means reads the mean of the row. -/
theorem meanCol_apply (v : FVec Ideal S1024x128 .f32) (y : Fin 1024) (u : Fin 1) :
    meanCol v (ix2 y u) = mean128 (fun k => v (ix2 y k)) := by
  unfold meanCol mean128
  refine (divf_apply _ _ _).trans ?_
  exact congrArg₂ Ideal.div ((col_apply _ y u).trans (rowSum_apply v y)) rfl

/-- The block with each row's mean taken off. -/
def centred (v : FVec Ideal S1024x128 .f32) : FVec Ideal S1024x128 .f32 :=
  subf v (broadcastTo S1024x128 (meanCol v) broadcasts_S1024x1_S1024x128)

theorem centred_apply (v : FVec Ideal S1024x128 .f32) (y : Fin 1024) (j : Fin 128) :
    centred v (ix2 y j) = v (ix2 y j) - mean128 (fun k => v (ix2 y k)) := by
  unfold centred
  refine (subf_apply _ _ _).trans ?_
  exact congrArg (v (ix2 y j) - ·) ((spread_apply _ y j).trans (meanCol_apply v y 0))

/-- The normalised block: centred rows times the reciprocal root of the mean square of the centred
    row plus the offset, times the per-lane scale. -/
def lnBlock (v : FVec Ideal S1024x128 .f32) (g : Vec Ideal S128 .f32) : FVec Ideal S1024x128 .f32 :=
  mulf
    (mulf (centred v)
      (broadcastTo S1024x128
        (rsqrt (addf (meanCol (mulf (centred v) (centred v)))
          (broadcast S1024x1 (Scalar.ofBits .f32 0x358637BD#32))))
        broadcasts_S1024x1_S1024x128))
    (broadcastTo S1024x128 (shapeCast S1x128 g shapeCasts_S128_S1x128) broadcasts_S1x128_S1024x128)

/-- The normalised block at `(y, j)` is the normalisation of row `y` at lane `j`. -/
theorem lnBlock_apply (v : FVec Ideal S1024x128 .f32) (g : Vec Ideal S128 .f32) (y : Fin 1024) (j : Fin 128) :
    lnBlock v g (ix2 y j) = lnRow (fun l => v (ix2 y l)) (fun l => g (ix1 l)) j := by
  unfold lnBlock lnRow
  refine (mulf_apply _ _ _).trans ?_
  refine congrArg₂ (· * ·) ?_ (scale_apply g y j)
  refine (mulf_apply _ _ _).trans ?_
  refine congrArg₂ (· * ·) (centred_apply v y j) ?_
  refine (spread_apply _ y j).trans ?_
  show Ideal.rsqrt (meanCol (mulf (centred v) (centred v)) (ix2 y (0 : Fin 1)) + epsW) = _
  refine congrArg (fun t => Ideal.rsqrt (t + epsW)) ?_
  refine (meanCol_apply _ y 0).trans ?_
  refine congrArg mean128 (funext fun k => ?_)
  refine (mulf_apply _ _ _).trans ?_
  rw [centred_apply v y k]

/-! ## The attention output, its residual and its normalisation -/

/-- The weighted values times the output matrix, plus the residual. -/
def resBlock (v1 v11 : FVec Ideal S1024x128 .f32) (W : Vec Ideal S1024x128 .f32) (x4 : Vec Ideal S128x128 .bf16) :
    FVec Ideal S1024x128 .f32 :=
  addf (matmul dot_S1024x128_S128x128_S1024x128_1_0_0_1_n_n none
      (truncf .bf16 (mulf W v11) bitsLt_bf16_f32)
      (shapeCast S128x128 x4 shapeCasts_S128x128_S128x128 : FVec Ideal S128x128 .bf16)
      (constant S1024x128 .f32 0x00000000#32)) v1

theorem resBlock_apply (v1 v11 : FVec Ideal S1024x128 .f32) (W : Vec Ideal S1024x128 .f32) (x4 : Vec Ideal S128x128 .bf16)
    (y : Fin 1024) (l : Fin 128) :
    resBlock v1 v11 W x4 (ix2 y l)
      = vecMat (fun l' => W (ix2 y l') * v11 (ix2 y l')) (fun k l'' => x4 (ix2 k l'')) l + v1 (ix2 y l) := by
  unfold resBlock
  refine (addf_apply _ _ _).trans ?_
  refine congrArg (· + v1 (ix2 y l)) ?_
  refine (mm_apply _ _ y l).trans ?_
  unfold vecMat
  refine Finset.sum_congr rfl fun k _ => ?_
  rw [wcast_apply x4 k l]
  rfl

/-- The payload is the normalised block of the residual block. -/
theorem pay27_eq (v1 v11 : FVec Ideal S1024x128 .f32) (W : Vec Ideal S1024x128 .f32) (x4 : Vec Ideal S128x128 .bf16)
    (x5 : Vec Ideal S128 .f32) :
    k1_pay27 (F := Ideal) v1 v11 W x4 x5 = lnBlock (resBlock v1 v11 W x4) x5 := rfl

/-- Attention output times the output matrix, plus the residual, normalised, at `(y, j)`. -/
theorem pay27_apply (v1 v11 : FVec Ideal S1024x128 .f32) (W : Vec Ideal S1024x128 .f32) (x4 : Vec Ideal S128x128 .bf16)
    (x5 : Vec Ideal S128 .f32) (y : Fin 1024) (j : Fin 128) :
    k1_pay27 (F := Ideal) v1 v11 W x4 x5 (ix2 y j)
      = lnRow (fun l => vecMat (fun l' => W (ix2 y l') * v11 (ix2 y l')) (fun k l'' => x4 (ix2 k l'')) l + v1 (ix2 y l))
              (fun l => x5 (ix1 l)) j := by
  rw [pay27_eq, lnBlock_apply]
  exact congrArg (fun r => lnRow r (fun l => x5 (ix1 l)) j) (funext fun l => resBlock_apply v1 v11 W x4 y l)

/-- The same value handed on in the narrower format: a change of format is the identity here. -/
theorem pay28_apply (v1 v11 : FVec Ideal S1024x128 .f32) (W : Vec Ideal S1024x128 .f32) (x4 : Vec Ideal S128x128 .bf16)
    (x5 : Vec Ideal S128 .f32) (i : S1024x128.Idx) :
    (k1_pay28 (F := Ideal) v1 v11 W x4 x5 i : EReal) = k1_pay27 (F := Ideal) v1 v11 W x4 x5 i := by
  unfold k1_pay28
  rfl

end Cert.KernelIdeal.BlockAttn

end
-- ==== Proof.KSoftmax.lean ====
/-
  The scratch after the sixteen slice stores, read at an index: lane `j` of row `y` holds the
  softmax weight of lane `j` within its group of eight, computed from row `y` of the scores.
-/
import proofs.«165487_j24223615549762_1_alg».proof.Proof.KBlock
import proofs.«165487_j24223615549762_1_alg».proof.Proof.RowSpec
import proofs.«165487_j24223615549762_1_alg».proof.Proof.LibDot2
import Idealize.ShloMosaic.Lib.ValueIdx
import Idealize.ShloMosaic.Lib.ValueLayout
import Idealize.ShloMosaic.Lib.Pipeline.Value
import Idealize.ShloMosaic.PureOps.Ideal.Laws
import Idealize.ShloMosaic.Lib.Ring
import Idealize.ShloMosaic.Lib.Tactic

noncomputable section

open scoped BigOperators

namespace Cert.KernelIdeal.BlockSoftmax

open Cert.KernelIdeal Cert.KernelIdeal.Gen Cert.KernelIdeal.Block Cert.RowSpec
open Idealize.ShloMosaic Idealize.ShloMosaic.TcCoe Idealize.ShloMosaic.ValueIdx

/-- The source index over row `y` with lane `u` inserted is `(y, u)`. -/
theorem lift_ix (h : S1024x8.Reduces [1] S1024) (y : Fin 1024) (u : Fin 8) :
    h.lift (ix1 y) u = ix2 y u := by
  funext c
  match c with
  | ⟨0, _⟩ => exact Fin.ext rfl
  | ⟨1, _⟩ => exact Fin.ext rfl

/-- A column `[1024]` viewed `[1024, 1]` reads, at `(y, z)`, the column at `y`. -/
theorem cast_col_apply {α : Type} (v : S1024.Idx → α) (h : S1024.ShapeCasts S1024x1) (y : Fin 1024) (z : Fin 1) :
    shapeCast S1024x1 v h (ix2 y z) = v (ix1 y) :=
  shapeCast_apply v h _ _ (by
    have hz : z.val = 0 := by omega
    rw [Shape.rowMajor_val_one, Shape.rowMajor_val_two]
    show y.val = y.val * 1 + z.val
    omega)

/-- A `[1024, 1]` column broadcast along the lanes reads, at `(y, u)`, the column at `(y, 0)`. -/
theorem bcast_col_apply {α : Type} (v : S1024x1.Idx → α) (h : S1024x1.Broadcasts S1024x8) (y : Fin 1024) (u : Fin 8) :
    broadcastTo S1024x8 v h (ix2 y u) = v (ix2 y (0 : Fin 1)) :=
  broadcastTo_apply v h (ix2 y u) (ix2 y (0 : Fin 1)) fun ax =>
    match ax with
    | ⟨0, _⟩ => rfl
    | ⟨1, _⟩ => rfl

/-- The lane maximum of a chunk, read at row `y`: the fold of `max` over the eight lanes from the minus-infinity word. -/
theorem max8_apply (c : FVec Ideal S1024x8 .f32) (h : S1024x8.Reduces [1] S1024) (hφ : FKind.Formats .f32)
    (hacc : (0xFF800000#32 : BitVec 32) = FKind.maximumf.neutral .f32 hφ) (y : Fin 1024) :
    multiReduction .maximumf [1] S1024 c 0xFF800000#32 h hφ hacc (ix1 y)
      = (Finset.univ : Finset (Fin 8)).fold max negInfW (fun u => c (ix2 y u)) := by
  refine (Ideal.multiReduction_maximumf_single c 0xFF800000#32 h hφ hacc (ix1 y)).trans ?_
  refine congrArg (fun f => (Finset.univ : Finset (Fin 8)).fold max negInfW f) ?_
  funext u
  exact congrArg c (lift_ix h y u)

/-- The lane sum of a chunk, read at row `y`: the sum over the eight lanes. -/
theorem sum8_apply (c : FVec Ideal S1024x8 .f32) (h : S1024x8.Reduces [1] S1024) (hφ : FKind.Formats .f32)
    (hacc : (0x00000000#32 : BitVec 32) = FKind.add.neutral .f32 hφ) (y : Fin 1024) :
    multiReduction .add [1] S1024 c 0x00000000#32 h hφ hacc (ix1 y) = ∑ u : Fin 8, c (ix2 y u) := by
  refine (Ideal.multiReduction_add_single c 0x00000000#32 h hφ hacc (ix1 y)).trans ?_
  exact Finset.sum_congr rfl fun u _ => congrArg c (lift_ix h y u)

/-- The softmax of an eight-lane chunk as the body computes it: subtract the lane maximum, exponentiate, divide by
    the lane sum of the exponentials. -/
def smChunk (c : FVec Ideal S1024x8 .f32) : FVec Ideal S1024x8 .f32 :=
  divf
    (exp (subf c (broadcastTo S1024x8 (shapeCast S1024x1
      (multiReduction .maximumf [1] S1024 c 0xFF800000#32 reduces_S1024x8_S1024 (.inl rfl) rfl)
      shapeCasts_S1024_S1024x1) broadcasts_S1024x1_S1024x8)))
    (broadcastTo S1024x8 (shapeCast S1024x1
      (multiReduction .add [1] S1024
        (exp (subf c (broadcastTo S1024x8 (shapeCast S1024x1
          (multiReduction .maximumf [1] S1024 c 0xFF800000#32 reduces_S1024x8_S1024 (.inl rfl) rfl)
          shapeCasts_S1024_S1024x1) broadcasts_S1024x1_S1024x8)))
        0x00000000#32 reduces_S1024x8_S1024 (.inl rfl) rfl)
      shapeCasts_S1024_S1024x1) broadcasts_S1024x1_S1024x8)

/-- The chunk's shifted exponential at `(y, u)`. -/
theorem expShift_apply (c : FVec Ideal S1024x8 .f32) (y : Fin 1024) (u : Fin 8) :
    exp (subf c (broadcastTo S1024x8 (shapeCast S1024x1
      (multiReduction .maximumf [1] S1024 c 0xFF800000#32 reduces_S1024x8_S1024 (.inl rfl) rfl)
      shapeCasts_S1024_S1024x1) broadcasts_S1024x1_S1024x8)) (ix2 y u)
      = Ideal.exp (c (ix2 y u) - (Finset.univ : Finset (Fin 8)).fold max negInfW (fun u' => c (ix2 y u'))) := by
  show Ideal.exp (c (ix2 y u) - broadcastTo S1024x8 (shapeCast S1024x1
      (multiReduction .maximumf [1] S1024 c 0xFF800000#32 reduces_S1024x8_S1024 (.inl rfl) rfl)
      shapeCasts_S1024_S1024x1) broadcasts_S1024x1_S1024x8 (ix2 y u)) = _
  rw [bcast_col_apply, cast_col_apply]
  exact congrArg (fun m => Ideal.exp (c (ix2 y u) - m)) (max8_apply c _ _ _ y)

/-- The chunk's softmax at `(y, u)`. -/
theorem smChunk_apply (c : FVec Ideal S1024x8 .f32) (y : Fin 1024) (u : Fin 8) :
    smChunk c (ix2 y u)
      = Ideal.div (Ideal.exp (c (ix2 y u) - (Finset.univ : Finset (Fin 8)).fold max negInfW (fun u' => c (ix2 y u'))))
          (∑ w : Fin 8, Ideal.exp (c (ix2 y w) - (Finset.univ : Finset (Fin 8)).fold max negInfW (fun u' => c (ix2 y u')))) := by
  unfold smChunk
  rw [divf_apply, expShift_apply, bcast_col_apply, cast_col_apply]
  exact congrArg (Ideal.div _) ((sum8_apply _ _ _ _ y).trans (Finset.sum_congr rfl fun w _ => expShift_apply c y w))

/-- The slice at column offset `8g`, its chunk softmax, read at `(y, u)`: the softmax weight of lane `8g + u` of row `y`. -/
theorem piece_apply (v : FVec Ideal S1024x128 .f32) (o : Nat) (g : Fin 16) (ho : o = 8 * g.val)
    (hs : S1024x128.Slices ![0, o] S1024x8) (hc : S1024x8.ShapeCasts S1024x8) (y : Fin 1024) (u : Fin 8) :
    shapeCast S1024x8 (smChunk (extractStridedSlice S1024x8 ![0, o] v hs)) hc (ix2 y u)
      = attnW (fun l => v (ix2 y l)) (lane g u) := by
  have hsl : ∀ w : Fin 8, extractStridedSlice S1024x8 ![0, o] v hs (ix2 y w) = v (ix2 y (lane g w)) :=
    fun w => slice2_axis1_apply o v hs y w (lane g w) (by show 8 * g.val + w.val = o + w.val; omega)
  rw [shapeCast_self, smChunk_apply]
  simp only [hsl]
  unfold attnW
  rw [grp_lane, sub_lane]
  rfl

/-- The rectangle of slice `g` places its local `(y, u)` at `(y, 8g + u)`. -/
theorem emb_piece (o : Nat) (g : Fin 16) (ho : o = 8 * g.val)
    (inb : ∀ a, (![0, o] : Fin 2 → Nat) a + S1024x8.size a ≤ S1024x128.size a) (y : Fin 1024) (u : Fin 8) :
    (Rect.unit (s := S1024x128) ![0, o] S1024x8.size inb).emb (ix2 y u) = ix2 y (lane g u) := by
  funext a
  match a with
  | ⟨0, _⟩ => exact Fin.ext (by show 0 + 1 * y.val = y.val; omega)
  | ⟨1, _⟩ => exact Fin.ext (by show o + 1 * u.val = 8 * g.val + u.val; omega)

/-! Each stored slice is the chunk softmax of the scores' lanes at its column offset (the remaining operations
    are casts to the same shape). -/
theorem pay6_eq (x0 : Vec Ideal S1024x128 .f32) (x1 x2 : Vec Ideal S128x128 .bf16) :
    k1_pay6 (F := Ideal) x0 x1 x2 = shapeCast S1024x8 (smChunk (extractStridedSlice S1024x8 ![0, 0] (k1_pay5 (F := Ideal) x0 x1 x2) slices_S1024x128_o0_0_S1024x8)) shapeCasts_S1024x8_S1024x8 := rfl
theorem pay8_eq (x0 : Vec Ideal S1024x128 .f32) (x1 x2 : Vec Ideal S128x128 .bf16) :
    k1_pay8 (k1_pay7 (F := Ideal) x0 x1 x2) = shapeCast S1024x8 (smChunk (extractStridedSlice S1024x8 ![0, 8] (k1_pay5 (F := Ideal) x0 x1 x2) slices_S1024x128_o0_8_S1024x8)) shapeCasts_S1024x8_S1024x8 := rfl
theorem pay9_eq (v : FVec Ideal S1024x128 .f32) :
    k1_pay9 v = shapeCast S1024x8 (smChunk (extractStridedSlice S1024x8 ![0, 16] (v) slices_S1024x128_o0_16_S1024x8)) shapeCasts_S1024x8_S1024x8 := rfl
theorem pay10_eq (v : FVec Ideal S1024x128 .f32) :
    k1_pay10 v = shapeCast S1024x8 (smChunk (extractStridedSlice S1024x8 ![0, 24] (v) slices_S1024x128_o0_24_S1024x8)) shapeCasts_S1024x8_S1024x8 := rfl
theorem pay11_eq (v : FVec Ideal S1024x128 .f32) :
    k1_pay11 v = shapeCast S1024x8 (smChunk (extractStridedSlice S1024x8 ![0, 32] (v) slices_S1024x128_o0_32_S1024x8)) shapeCasts_S1024x8_S1024x8 := rfl
theorem pay13_eq (v : FVec Ideal S1024x128 .f32) :
    k1_pay13 (k1_pay12 v) = shapeCast S1024x8 (smChunk (extractStridedSlice S1024x8 ![0, 40] (v) slices_S1024x128_o0_40_S1024x8)) shapeCasts_S1024x8_S1024x8 := rfl
theorem pay14_eq (v : FVec Ideal S1024x128 .f32) :
    k1_pay14 v = shapeCast S1024x8 (smChunk (extractStridedSlice S1024x8 ![0, 48] (v) slices_S1024x128_o0_48_S1024x8)) shapeCasts_S1024x8_S1024x8 := rfl
theorem pay15_eq (v : FVec Ideal S1024x128 .f32) :
    k1_pay15 v = shapeCast S1024x8 (smChunk (extractStridedSlice S1024x8 ![0, 56] (v) slices_S1024x128_o0_56_S1024x8)) shapeCasts_S1024x8_S1024x8 := rfl
theorem pay17_eq (v : FVec Ideal S1024x128 .f32) :
    k1_pay17 (k1_pay16 v) = shapeCast S1024x8 (smChunk (extractStridedSlice S1024x8 ![0, 64] (v) slices_S1024x128_o0_64_S1024x8)) shapeCasts_S1024x8_S1024x8 := rfl
theorem pay18_eq (v : FVec Ideal S1024x128 .f32) :
    k1_pay18 v = shapeCast S1024x8 (smChunk (extractStridedSlice S1024x8 ![0, 72] (v) slices_S1024x128_o0_72_S1024x8)) shapeCasts_S1024x8_S1024x8 := rfl
theorem pay19_eq (v : FVec Ideal S1024x128 .f32) :
    k1_pay19 v = shapeCast S1024x8 (smChunk (extractStridedSlice S1024x8 ![0, 80] (v) slices_S1024x128_o0_80_S1024x8)) shapeCasts_S1024x8_S1024x8 := rfl
theorem pay21_eq (v : FVec Ideal S1024x128 .f32) :
    k1_pay21 (k1_pay20 v) = shapeCast S1024x8 (smChunk (extractStridedSlice S1024x8 ![0, 88] (v) slices_S1024x128_o0_88_S1024x8)) shapeCasts_S1024x8_S1024x8 := rfl
theorem pay22_eq (v : FVec Ideal S1024x128 .f32) :
    k1_pay22 v = shapeCast S1024x8 (smChunk (extractStridedSlice S1024x8 ![0, 96] (v) slices_S1024x128_o0_96_S1024x8)) shapeCasts_S1024x8_S1024x8 := rfl
theorem pay23_eq (v : FVec Ideal S1024x128 .f32) :
    k1_pay23 v = shapeCast S1024x8 (smChunk (extractStridedSlice S1024x8 ![0, 104] (v) slices_S1024x128_o0_104_S1024x8)) shapeCasts_S1024x8_S1024x8 := rfl
theorem pay24_eq (v : FVec Ideal S1024x128 .f32) :
    k1_pay24 v = shapeCast S1024x8 (smChunk (extractStridedSlice S1024x8 ![0, 112] (v) slices_S1024x128_o0_112_S1024x8)) shapeCasts_S1024x8_S1024x8 := rfl
theorem pay26_eq (v : FVec Ideal S1024x128 .f32) :
    k1_pay26 (k1_pay25 v) = shapeCast S1024x8 (smChunk (extractStridedSlice S1024x8 ![0, 120] (v) slices_S1024x128_o0_120_S1024x8)) shapeCasts_S1024x8_S1024x8 := rfl

/-- What a lane of the scratch holds, as one function of the scratch index: the softmax weight of lane `i 1`
    within its group, from row `i 0` of the scores. -/
def laneW (v : FVec Ideal S1024x128 .f32) (i : S1024x128.Idx) : EReal :=
  attnW (fun l => v (ix2 (n0 := 1024) (n1 := 128) (i 0) l)) (i 1)

/-- A stored slice whose payload is the chunk softmax at its offset is a block of `laneW`. -/
theorem piece_ok (v : FVec Ideal S1024x128 .f32) (o : Nat) (g : Fin 16) (ho : o = 8 * g.val)
    (inb : ∀ a, (![0, o] : Fin 2 → Nat) a + S1024x8.size a ≤ S1024x128.size a)
    (hs : S1024x128.Slices ![0, o] S1024x8) (hc : S1024x8.ShapeCasts S1024x8) (w : FVec Ideal S1024x8 .f32)
    (hw : w = shapeCast S1024x8 (smChunk (extractStridedSlice S1024x8 ![0, o] v hs)) hc) :
    ∀ x : (Rect.unit (s := S1024x128) ![0, o] S1024x8.size inb).shape.Idx,
      w x = laneW v ((Rect.unit (s := S1024x128) ![0, o] S1024x8.size inb).emb x) := by
  intro x
  obtain ⟨y, u, rfl⟩ : ∃ (y : Fin 1024) (u : Fin 8), x = ix2 y u := ⟨x 0, x 1, eq_ix2 x⟩
  rw [emb_piece o g ho, hw]
  exact piece_apply v o g ho hs hc y u

/-- Every stored slice is a block of `laneW` of the scores. -/
theorem pieces_ok (x0 : Vec Ideal S1024x128 .f32) (x1 x2 : Vec Ideal S128x128 .bf16) :
    ∀ p ∈ smPieces (F := Ideal) x0 x1 x2, ∀ x : p.1.shape.Idx,
      p.2 x = laneW (k1_pay5 (F := Ideal) x0 x1 x2) (p.1.emb x) := by
  intro p hp
  simp only [smPieces, List.mem_cons, List.not_mem_nil, or_false] at hp
  rcases hp with rfl | rfl | rfl | rfl | rfl | rfl | rfl | rfl | rfl | rfl | rfl | rfl | rfl | rfl | rfl | rfl
  · exact piece_ok _ 120 15 rfl inb_S1024x128_S1024x8_0_120 slices_S1024x128_o0_120_S1024x8 shapeCasts_S1024x8_S1024x8 _ (pay26_eq _)
  · exact piece_ok _ 112 14 rfl inb_S1024x128_S1024x8_0_112 slices_S1024x128_o0_112_S1024x8 shapeCasts_S1024x8_S1024x8 _ (pay24_eq _)
  · exact piece_ok _ 104 13 rfl inb_S1024x128_S1024x8_0_104 slices_S1024x128_o0_104_S1024x8 shapeCasts_S1024x8_S1024x8 _ (pay23_eq _)
  · exact piece_ok _ 96 12 rfl inb_S1024x128_S1024x8_0_96 slices_S1024x128_o0_96_S1024x8 shapeCasts_S1024x8_S1024x8 _ (pay22_eq _)
  · exact piece_ok _ 88 11 rfl inb_S1024x128_S1024x8_0_88 slices_S1024x128_o0_88_S1024x8 shapeCasts_S1024x8_S1024x8 _ (pay21_eq _)
  · exact piece_ok _ 80 10 rfl inb_S1024x128_S1024x8_0_80 slices_S1024x128_o0_80_S1024x8 shapeCasts_S1024x8_S1024x8 _ (pay19_eq _)
  · exact piece_ok _ 72 9 rfl inb_S1024x128_S1024x8_0_72 slices_S1024x128_o0_72_S1024x8 shapeCasts_S1024x8_S1024x8 _ (pay18_eq _)
  · exact piece_ok _ 64 8 rfl inb_S1024x128_S1024x8_0_64 slices_S1024x128_o0_64_S1024x8 shapeCasts_S1024x8_S1024x8 _ (pay17_eq _)
  · exact piece_ok _ 56 7 rfl inb_S1024x128_S1024x8_0_56 slices_S1024x128_o0_56_S1024x8 shapeCasts_S1024x8_S1024x8 _ (pay15_eq _)
  · exact piece_ok _ 48 6 rfl inb_S1024x128_S1024x8_0_48 slices_S1024x128_o0_48_S1024x8 shapeCasts_S1024x8_S1024x8 _ (pay14_eq _)
  · exact piece_ok _ 40 5 rfl inb_S1024x128_S1024x8_0_40 slices_S1024x128_o0_40_S1024x8 shapeCasts_S1024x8_S1024x8 _ (pay13_eq _)
  · exact piece_ok _ 32 4 rfl inb_S1024x128_S1024x8_0_32 slices_S1024x128_o0_32_S1024x8 shapeCasts_S1024x8_S1024x8 _ (pay11_eq _)
  · exact piece_ok _ 24 3 rfl inb_S1024x128_S1024x8_0_24 slices_S1024x128_o0_24_S1024x8 shapeCasts_S1024x8_S1024x8 _ (pay10_eq _)
  · exact piece_ok _ 16 2 rfl inb_S1024x128_S1024x8_0_16 slices_S1024x128_o0_16_S1024x8 shapeCasts_S1024x8_S1024x8 _ (pay9_eq _)
  · exact piece_ok _ 8 1 rfl inb_S1024x128_S1024x8_0_8 slices_S1024x128_o0_8_S1024x8 shapeCasts_S1024x8_S1024x8 _ (pay8_eq x0 x1 x2)
  · exact piece_ok _ 0 0 rfl inb_S1024x128_S1024x8_0_0 slices_S1024x128_o0_0_S1024x8 shapeCasts_S1024x8_S1024x8 _ (pay6_eq x0 x1 x2)

/-- The sixteen slices tile the scratch, so every index lies in one of them. -/
theorem cover_smPieces (x0 : Vec Ideal S1024x128 .f32) (x1 x2 : Vec Ideal S128x128 .bf16) (i : S1024x128.Idx) :
    ∃ p ∈ smPieces (F := Ideal) x0 x1 x2, i ∈ p.1.set :=
  View.cover_of_tiledL (smPieces (F := Ideal) x0 x1 x2) S1024x8.size (by sl_kernel_rfl) i

/-- What the sixteen stores leave at `(y, j)`: the group softmax of row `y` of the scores at lane `j`. -/
theorem canon_smPieces (x0 : Vec Ideal S1024x128 .f32) (x1 x2 : Vec Ideal S128x128 .bf16) (y : Fin 1024) (j : Fin 128) :
    View.canon (smPieces (F := Ideal) x0 x1 x2) (ix2 y j)
      = attnW (fun l => k1_pay5 (F := Ideal) x0 x1 x2 (ix2 y l)) j :=
  View.canon_apply_of_pieces (laneW (k1_pay5 (F := Ideal) x0 x1 x2)) (smPieces (F := Ideal) x0 x1 x2)
    (pieces_ok x0 x1 x2) (ix2 y j) (cover_smPieces x0 x1 x2 (ix2 y j))

end Cert.KernelIdeal.BlockSoftmax

end
-- ==== Proof.KTail.lean ====
/-
  The second half of the block computation read at an index, over the extended reals: the
  feed-forward block with its residual, the second normalisation and the projection to 40 logits.
-/
import proofs.«165487_j24223615549762_1_alg».proof.Proof.KBlock
import proofs.«165487_j24223615549762_1_alg».proof.Proof.RowSpec
import proofs.«165487_j24223615549762_1_alg».proof.Proof.LibDot2
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.BlockTail

open Cert.KernelIdeal Cert.KernelIdeal.Gen Cert.KernelIdeal.Block Cert.RowSpec
open Idealize.ShloMosaic Idealize.ShloMosaic.TcCoe Idealize.ShloMosaic.ValueIdx

/-! ## Layout steps of a row statistic -/

/-- The reduced index `y` with lane `k` put back is `(y, k)`. -/
theorem lift_row (h : S1024x128.Reduces [1] S1024) (y : Fin 1024) (k : Fin (S1024x128.size 1)) :
    h.lift (ix1 y) k = ix2 y (⟨k.val, k.isLt⟩ : Fin 128) := by
  funext c; apply Fin.ext
  match c with
  | ⟨0, _⟩ => rfl
  | ⟨1, _⟩ => rfl

/-- The sum over the 128 lanes of row `y`. -/
theorem rowSum_apply (src : FVec Ideal S1024x128 .f32) (y : Fin 1024) :
    multiReduction (F := Ideal) .add [1] S1024 src 0x00000000#32 reduces_S1024x128_S1024 (.inl rfl) rfl (ix1 y)
      = ∑ k : Fin 128, src (ix2 y k) := by
  refine (Ideal.multiReduction_add_single src 0x00000000#32 reduces_S1024x128_S1024 (.inl rfl) rfl (ix1 y)).trans ?_
  exact Finset.sum_congr rfl fun k _ => congrArg src (lift_row reduces_S1024x128_S1024 y k)

/-- A column of 1024 row statistics written as a `[1024, 1]` array: at `(y, u)` it is the statistic of row `y`. -/
theorem col_cast_apply {α : Type} (x : S1024.Idx → α) (y : Fin 1024) (u : Fin 1) :
    shapeCast S1024x1 x shapeCasts_S1024_S1024x1 (ix2 y u) = x (ix1 y) :=
  shapeCast_apply x shapeCasts_S1024_S1024x1 _ _ (by
    have hu : u.val = 0 := by omega
    rw [Shape.rowMajor_val_two, Shape.rowMajor_val_one]
    show y.val = y.val * 1 + u.val
    rw [hu, Nat.mul_one, Nat.add_zero])

/-- The `[1024, 1]` column broadcast along the lanes: at `(y, j)` it is the column's entry of row `y`. -/
theorem col_bcast_apply {α : Type} (x : S1024x1.Idx → α) (y : Fin 1024) (j : Fin 128) :
    broadcastTo S1024x128 x broadcasts_S1024x1_S1024x128 (ix2 y j) = x (ix2 y (0 : Fin 1)) := by
  refine broadcastTo_apply x broadcasts_S1024x1_S1024x128 (ix2 y j) (ix2 y (0 : Fin 1)) fun ax => ?_
  match ax with
  | ⟨0, _⟩ =>
    show y.val = if (1024 : Nat) = 1 then 0 else y.val
    rw [if_neg (by decide)]
  | ⟨1, _⟩ => rfl

/-! ## The three matrix products of the tail -/

theorem dotA_eq : dot_S1024x128_S128x256_S1024x256_1_0_0_1_n_n
    = Dot2.mmDims 1024 128 256 dot_S1024x128_S128x256_S1024x256_1_0_0_1_n_n.wf := rfl
theorem dotB_eq : dot_S1024x256_S256x128_S1024x128_1_0_0_1_n_n
    = Dot2.mmDims 1024 256 128 dot_S1024x256_S256x128_S1024x128_1_0_0_1_n_n.wf := rfl
theorem dotC_eq : dot_S1024x128_S128x40_S1024x40_1_0_0_1_n_n
    = Dot2.mmDims 1024 128 40 dot_S1024x128_S128x40_S1024x40_1_0_0_1_n_n.wf := rfl

/-- The product of a 1024 × 128 block by a 128 × 256 matrix at `(p, q)`. -/
theorem mmA_apply (l : FVec Ideal S1024x128 .bf16) (r : FVec Ideal S128x256 .bf16) (p : Fin 1024) (q : Fin 256) :
    matmul dot_S1024x128_S128x256_S1024x256_1_0_0_1_n_n none l r (constant S1024x256 .f32 0x00000000#32) (ix2 p q)
      = ∑ k : Fin 128, l (ix2 p k) * r (ix2 k q) := by
  rw [dotA_eq]; exact Dot2.matmul_zero_mm_apply _ none l r p q

/-- The product of a 1024 × 256 block by a 256 × 128 matrix at `(p, q)`. -/
theorem mmB_apply (l : FVec Ideal S1024x256 .bf16) (r : FVec Ideal S256x128 .bf16) (p : Fin 1024) (q : Fin 128) :
    matmul dot_S1024x256_S256x128_S1024x128_1_0_0_1_n_n none l r (constant S1024x128 .f32 0x00000000#32) (ix2 p q)
      = ∑ k : Fin 256, l (ix2 p k) * r (ix2 k q) := by
  rw [dotB_eq]; exact Dot2.matmul_zero_mm_apply _ none l r p q

/-- The product of a 1024 × 128 block by a 128 × 40 matrix at `(p, q)`. -/
theorem mmC_apply (l : FVec Ideal S1024x128 .bf16) (r : FVec Ideal S128x40 .bf16) (p : Fin 1024) (q : Fin 40) :
    matmul dot_S1024x128_S128x40_S1024x40_1_0_0_1_n_n none l r (constant S1024x40 .f32 0x00000000#32) (ix2 p q)
      = ∑ k : Fin 128, l (ix2 p k) * r (ix2 k q) := by
  rw [dotC_eq]; exact Dot2.matmul_zero_mm_apply _ none l r p q

/-! ## The normalisation of a 1024 × 128 block, row by row -/

/-- The column of row means of a block: each row's lane sum divided by the word of 128. -/
def meanCol (r : FVec Ideal S1024x128 .f32) : FVec Ideal S1024x1 .f32 :=
  divf (shapeCast S1024x1
      (multiReduction .add [1] S1024 r 0x00000000#32 reduces_S1024x128_S1024 (.inl rfl) rfl) shapeCasts_S1024_S1024x1)
    (broadcast S1024x1 (Scalar.ofBits .f32 0x43000000#32))

/-- A block with each row's mean taken off every lane of that row. -/
def centred (r : FVec Ideal S1024x128 .f32) : FVec Ideal S1024x128 .f32 :=
  subf r (broadcastTo S1024x128 (meanCol r) broadcasts_S1024x1_S1024x128)

/-- The block normalised row by row and scaled lane by lane. -/
def lnBlock (r : FVec Ideal S1024x128 .f32) (g : Vec Ideal S128 .f32) : FVec Ideal S1024x128 .f32 :=
  mulf
    (mulf (centred r)
      (broadcastTo S1024x128
        (rsqrt (addf (meanCol (mulf (centred r) (centred r)))
          (broadcast S1024x1 (Scalar.ofBits .f32 0x358637BD#32))))
        broadcasts_S1024x1_S1024x128))
    (broadcastTo S1024x128 (shapeCast S1x128 g shapeCasts_S128_S1x128) broadcasts_S1x128_S1024x128)

/-- The mean column at row `y` is the mean of row `y`. -/
theorem meanCol_apply (r : FVec Ideal S1024x128 .f32) (y : Fin 1024) (u : Fin 1) :
    meanCol r (ix2 y u) = mean128 (fun k => r (ix2 y k)) := by
  unfold meanCol mean128
  rw [divf_apply, col_cast_apply, rowSum_apply]
  rfl

/-- The centred block at `(y, j)`. -/
theorem centred_apply (r : FVec Ideal S1024x128 .f32) (y : Fin 1024) (j : Fin 128) :
    centred r (ix2 y j) = r (ix2 y j) - mean128 (fun k => r (ix2 y k)) := by
  unfold centred
  rw [subf_apply, col_bcast_apply, meanCol_apply]

/-- The normalised block at `(y, j)` is the normalisation of row `y` at lane `j`. -/
theorem lnBlock_apply (r : FVec Ideal S1024x128 .f32) (g : Vec Ideal S128 .f32) (y : Fin 1024) (j : Fin 128) :
    lnBlock r g (ix2 y j) = lnRow (fun k => r (ix2 y k)) (fun l => g (ix1 l)) j := by
  unfold lnBlock lnRow
  rw [mulf_apply, mulf_apply, centred_apply, col_bcast_apply, broadcastTo_1b_ab_apply, shapeCast_a_1a_apply]
  have hsq : (fun k : Fin 128 => (mulf (centred r) (centred r)) (ix2 y k))
      = fun k : Fin 128 => (r (ix2 y k) - mean128 (fun k => r (ix2 y k))) * (r (ix2 y k) - mean128 (fun k => r (ix2 y k))) :=
    funext fun k => by rw [mulf_apply, centred_apply]
  have hr : rsqrt (addf (meanCol (mulf (centred r) (centred r)))
        (broadcast S1024x1 (Scalar.ofBits .f32 0x358637BD#32))) (ix2 y (0 : Fin 1))
      = Ideal.rsqrt (mean128 (fun k => (r (ix2 y k) - mean128 (fun k => r (ix2 y k))) * (r (ix2 y k) - mean128 (fun k => r (ix2 y k)))) + epsW) := by
    show Ideal.rsqrt (addf (meanCol (mulf (centred r) (centred r))) (broadcast S1024x1 (Scalar.ofBits .f32 0x358637BD#32)) (ix2 y (0 : Fin 1))) = _
    rw [addf_apply, meanCol_apply, hsq]
    rfl
  rw [hr]

/-! ## The feed-forward block with its residual -/

/-- The feed-forward block of a 1024 × 128 block `v252` (first product, maximum with the zero word,
    second product) plus the residual `v251`. -/
def ffBlock (v251 : FVec Ideal S1024x128 .f32) (v252 : FVec Ideal S1024x128 .bf16)
    (x6 : Vec Ideal S128x256 .bf16) (x7 : Vec Ideal S256x128 .bf16) : FVec Ideal S1024x128 .f32 :=
  addf
    (matmul dot_S1024x256_S256x128_S1024x128_1_0_0_1_n_n none
      (truncf .bf16
        (maximumf
          (matmul dot_S1024x128_S128x256_S1024x256_1_0_0_1_n_n none v252
            (shapeCast S128x256 x6 shapeCasts_S128x256_S128x256 : FVec Ideal S128x256 .bf16) (constant S1024x256 .f32 0x00000000#32))
          (broadcast S1024x256 (Scalar.ofBits .f32 0x00000000#32)))
        bitsLt_bf16_f32)
      (shapeCast S256x128 x7 shapeCasts_S256x128_S256x128 : FVec Ideal S256x128 .bf16) (constant S1024x128 .f32 0x00000000#32))
    v251

/-- The feed-forward block with its residual at `(y, j)` is `res2` of row `y` at lane `j`. -/
theorem ffBlock_apply (v251 : FVec Ideal S1024x128 .f32) (v252 : FVec Ideal S1024x128 .bf16)
    (hv : ∀ i : S1024x128.Idx, (v252 i : EReal) = v251 i)
    (x6 : Vec Ideal S128x256 .bf16) (x7 : Vec Ideal S256x128 .bf16) (y : Fin 1024) (j : Fin 128) :
    ffBlock v251 v252 x6 x7 (ix2 y j)
      = res2 (fun j => v251 (ix2 y j)) (fun k l => x6 (ix2 k l)) (fun k l => x7 (ix2 k l)) j := by
  unfold ffBlock res2 vecMat
  rw [addf_apply, mmB_apply]
  refine congrArg (· + v251 (ix2 y j)) (Finset.sum_congr rfl fun l _ => ?_)
  rw [truncf_apply, maximumf_apply, mmA_apply, shapeCast_self, shapeCast_self]
  refine congrArg (fun t => max t zeroW * x7 (ix2 l j)) (Finset.sum_congr rfl fun k _ => ?_)
  rw [hv]

/-! ## The payload -/

/-- The payload is the last product applied to the normalised feed-forward block. -/
theorem pay1_eq (v251 : FVec Ideal S1024x128 .f32) (v252 : FVec Ideal S1024x128 .bf16)
    (x6 : Vec Ideal S128x256 .bf16) (x7 : Vec Ideal S256x128 .bf16) (x8 : Vec Ideal S128 .f32)
    (x9 : Vec Ideal S128x40 .bf16) :
    k1_pay1 (F := Ideal) v251 v252 x6 x7 x8 x9
      = matmul dot_S1024x128_S128x40_S1024x40_1_0_0_1_n_n none
          (truncf .bf16 (lnBlock (ffBlock v251 v252 x6 x7) x8) bitsLt_bf16_f32)
          (shapeCast S128x40 x9 shapeCasts_S128x40_S128x40 : FVec Ideal S128x40 .bf16) (constant S1024x40 .f32 0x00000000#32) := rfl

/-- From the normalised block `v251` (and its copy `v252` in the narrower format, the same values)
    to the logits at `(y, c)`. -/
theorem pay1_apply (v251 : FVec Ideal S1024x128 .f32) (v252 : FVec Ideal S1024x128 .bf16)
    (hv : ∀ i : S1024x128.Idx, (v252 i : EReal) = v251 i)
    (x6 : Vec Ideal S128x256 .bf16) (x7 : Vec Ideal S256x128 .bf16) (x8 : Vec Ideal S128 .f32)
    (x9 : Vec Ideal S128x40 .bf16) (y : Fin 1024) (c : Fin 40) :
    k1_pay1 (F := Ideal) v251 v252 x6 x7 x8 x9 (ix2 y c)
      = tailOut (fun j => v251 (ix2 y j)) (fun k l => x6 (ix2 k l)) (fun k l => x7 (ix2 k l))
          (fun l => x8 (ix1 l)) (fun k l => x9 (ix2 k l)) c := by
  rw [pay1_eq, mmC_apply]
  unfold tailOut vecMat
  refine Finset.sum_congr rfl fun k _ => ?_
  rw [truncf_apply, lnBlock_apply, shapeCast_self]
  have hrow : (fun k : Fin 128 => ffBlock v251 v252 x6 x7 (ix2 y k))
      = res2 (fun j => v251 (ix2 y j)) (fun k l => x6 (ix2 k l)) (fun k l => x7 (ix2 k l)) :=
    funext fun k => ffBlock_apply v251 v252 hv x6 x7 y k
  rw [hrow]

end Cert.KernelIdeal.BlockTail

end
-- ==== Proof.BlockValue.lean ====
/-
  The block the second kernel stores, read at an index: entry `(y, c)` is the row function of row
  `y` of the loaded block of aggregated features and of the resident weights. The scratch the body
  reads back holds the group softmax of the scores; the rest is the chain of the block's stages.
-/
import proofs.«165487_j24223615549762_1_alg».proof.Proof.Piece
import proofs.«165487_j24223615549762_1_alg».proof.Proof.KAttn
import proofs.«165487_j24223615549762_1_alg».proof.Proof.KSoftmax
import proofs.«165487_j24223615549762_1_alg».proof.Proof.KTail
import proofs.«165487_j24223615549762_1_alg».proof.Proof.RowSpec
import Idealize.ShloMosaic.Lib.ValueIdx
import Idealize.ShloMosaic.Lib.Pipeline.Value

noncomputable section

open scoped BigOperators

namespace Cert.KernelIdeal.BlockValue

open Cert.KernelIdeal Cert.KernelIdeal.Gen Cert.KernelIdeal.Block Cert.KernelIdeal.BlockPiece
open Cert.KernelIdeal.BlockAttn Cert.KernelIdeal.BlockSoftmax Cert.KernelIdeal.BlockTail Cert.RowSpec
open Idealize.ShloMosaic Idealize.ShloMosaic.TcCoe Idealize.ShloMosaic.ValueIdx

/-- The whole-buffer rectangle reads every index where it is. -/
theorem whole_idx (j : S1024x128.Idx) :
    (Rect.unit ![0, 0] S1024x128.size inb_S1024x128_S1024x128_0_0).toLoadRect.idx j = j :=
  congrFun (View.ld_unit_zero (Val := fun _ => S1024x128.Idx) (e := .f32) (S := S1024x128) hz2
    inb_S1024x128_S1024x128_0_0 (fun i => i)) j

/-- The scratch read back at `(y, j)`: the softmax weight of lane `j` in its group, from row `y`'s scores. -/
theorem scratchAfter_apply (x0 : Vec Ideal S1024x128 .f32) (x1 x2 : Vec Ideal S128x128 .bf16) (y : Fin 1024) (j : Fin 128) :
    scratchAfter (F := Ideal) x0 x1 x2 (ix2 y j)
      = attnW (scores (vecMat (fun k => x0 (ix2 y k)) (fun k l => x1 (ix2 k l)))
                      (vecMat (fun k => x0 (ix2 y k)) (fun k l => x2 (ix2 k l)))) j := by
  unfold scratchAfter
  rw [whole_idx, canon_smPieces]
  exact congrArg (fun s => attnW s j) (funext fun l => pay5_apply x0 x1 x2 y l)

/-- Entry `(y, c)` of the stored block is the row function of row `y`. -/
theorem blockOut_apply (x0 : Vec Ideal S1024x128 .f32) (x1 x2 x3 x4 : Vec Ideal S128x128 .bf16) (x5 : Vec Ideal S128 .f32)
    (x6 : Vec Ideal S128x256 .bf16) (x7 : Vec Ideal S256x128 .bf16) (x8 : Vec Ideal S128 .f32) (x9 : Vec Ideal S128x40 .bf16) (y : Fin 1024) (c : Fin 40) :
    blockOut (F := Ideal) (scratchAfter x0 x1 x2) x0 x3 x4 x5 x6 x7 x8 x9 (ix2 y c)
      = rowOut (fun k => x0 (ix2 y k)) (fun k l => x1 (ix2 k l)) (fun k l => x2 (ix2 k l)) (fun k l => x3 (ix2 k l)) (fun k l => x4 (ix2 k l)) (fun l => x5 (ix1 l))
          (fun k l => x6 (ix2 k l)) (fun k l => x7 (ix2 k l)) (fun l => x8 (ix1 l)) (fun k l => x9 (ix2 k l)) c := by
  unfold blockOut
  rw [pay1_apply _ _ (fun i => pay28_apply _ _ _ _ _ i)]
  unfold rowOut rowY
  refine congrArg (fun z => tailOut z _ _ _ _ c) (funext fun j => ?_)
  rw [pay27_apply]
  unfold res1
  refine congrArg (fun z => lnRow z _ j) (funext fun l => ?_)
  refine congrArg₂ (· + ·) ?_ (pay2_apply x0 y l)
  refine congrArg (fun z => vecMat z _ l) (funext fun l' => ?_)
  rw [scratchAfter_apply, pay4_apply]

end Cert.KernelIdeal.BlockValue

end
-- ==== Proof.BlockArray.lean ====
/-
  The second kernel's output array after its run: row `r` is the row function of row `r` of the
  aggregated-features array and of the weight arrays, all as the region finds them. Grid point `t`
  stages rows `1024 t … 1024 t + 1023` of the features and every weight array whole, and writes
  back the same rows of the output; the sixteen blocks tile the output array.
-/
import proofs.«165487_j24223615549762_1_alg».proof.Proof.Gen.KernelIdeal.Frame
import proofs.«165487_j24223615549762_1_alg».proof.Proof.BlockValue
import proofs.«165487_j24223615549762_1_alg».proof.Proof.RowSpec
import Idealize.ShloMosaic.Lib.ValueIdx
import Idealize.ShloMosaic.Lib.Pipeline.Value

set_option maxRecDepth 16384

noncomputable section

open scoped BigOperators

namespace Cert.KernelIdeal.BlockArray

open Cert.KernelIdeal Cert.KernelIdeal.Gen Cert.KernelIdeal.Block Cert.KernelIdeal.BlockPiece Cert.KernelIdeal.BlockValue Cert.RowSpec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

/-! ## The arrays the region reads, under their literal types -/

abbrev hArr (c : Dev nD) : Vec Ideal S16384x128 .f32 := V c main_v1
abbrev wqArr (c : Dev nD) : Vec Ideal S128x128 .bf16 := V c main_v2
abbrev wkArr (c : Dev nD) : Vec Ideal S128x128 .bf16 := V c main_v3
abbrev wvArr (c : Dev nD) : Vec Ideal S128x128 .bf16 := V c main_v4
abbrev woArr (c : Dev nD) : Vec Ideal S128x128 .bf16 := V c main_v5
abbrev g1Arr (c : Dev nD) : Vec Ideal S128 .f32 := V c main_arg6
abbrev w1Arr (c : Dev nD) : Vec Ideal S128x256 .bf16 := V c main_v6
abbrev w2Arr (c : Dev nD) : Vec Ideal S256x128 .bf16 := V c main_v7
abbrev g2Arr (c : Dev nD) : Vec Ideal S128 .f32 := V c main_arg9
abbrev woutArr (c : Dev nD) : Vec Ideal S128x40 .bf16 := V c main_v8

/-- The printed index maps, decided once over the grid: the features' and the output's blocks move together
    along the rows, and every other window stays at block zero. -/
theorem idx_facts : ∀ t : Fin cfg1.N,
      win1_0.index t (0 : Fin 2) = win1_10.index t (0 : Fin 2)
    ∧ win1_0.index t (1 : Fin 2) = 0
    ∧ win1_10.index t (1 : Fin 2) = 0
    ∧ win1_10.index t (0 : Fin 2) ≤ 15
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 1) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 1) = 0
    ∧ win1_9.index t (0 : Fin 2) = 0
    ∧ win1_9.index t (1 : Fin 2) = 0 :=
  (by decide +kernel : ∀ t : Fin grid1.N, _)

/-- Every row block of the output is some point's. -/
theorem idx_onto : ∀ q0 : Fin 16, ∃ t : Fin cfg1.N, win1_10.index t = ![q0.val, 0] :=
  (by decide +kernel : ∀ q0 : Fin 16, ∃ t : Fin grid1.N, win1_10.index t = ![q0.val, 0])

/-! ## Each input block, read where the output's rows say -/

/-- Row `p` of the features' block at point `t` is row `1024 · (block index) + p` of the array. -/
theorem read_hArr (c : Dev nD) (t : Fin cfg1.N) (p : Fin 1024) (k : Fin 128)
    (hb : win1_10.index t (0 : Fin 2) * 1024 + p.val < 16384) :
    iblk1 V c 0 t (ix2 p k) = hArr V c (ix2 ⟨win1_10.index t (0 : Fin 2) * 1024 + p.val, hb⟩ k) := by
  obtain ⟨e0, e1, e2, e3, e4, e5, e6, e7, e8, e9, e10, e11, e12, e13, e14, e15, e16, e17, e18, e19⟩ := idx_facts t
  show V c main_v1 (((cfg1.win 0).blk t).view.emb (ix2 p k)) = V c main_v1 (ix2 ⟨win1_10.index t (0 : Fin 2) * 1024 + p.val, hb⟩ k)
  refine congrArg (V c main_v1) (funext fun a => Fin.ext ?_)
  match a with
  | ⟨0, _⟩ => show win1_0.index t (0 : Fin 2) * 1024 + 1 * p.val = win1_10.index t (0 : Fin 2) * 1024 + p.val; omega
  | ⟨1, _⟩ => show win1_0.index t (1 : Fin 2) * 128 + 1 * k.val = k.val; omega

theorem read_wqArr (c : Dev nD) (t : Fin cfg1.N) (k : Fin 128) (l : Fin 128) :
    iblk1 V c 1 t (ix2 k l) = wqArr V c (ix2 k l) := by
  obtain ⟨e0, e1, e2, e3, e4, e5, e6, e7, e8, e9, e10, e11, e12, e13, e14, e15, e16, e17, e18, e19⟩ := idx_facts t
  show V c main_v2 (((cfg1.win 1).blk t).view.emb (ix2 k l)) = V c main_v2 (ix2 k l)
  refine congrArg (V c main_v2) (funext fun a => Fin.ext ?_)
  match a with
  | ⟨0, _⟩ => show win1_1.index t (0 : Fin 2) * 128 + 1 * k.val = k.val; omega
  | ⟨1, _⟩ => show win1_1.index t (1 : Fin 2) * 128 + 1 * l.val = l.val; omega

theorem read_wkArr (c : Dev nD) (t : Fin cfg1.N) (k : Fin 128) (l : Fin 128) :
    iblk1 V c 2 t (ix2 k l) = wkArr V c (ix2 k l) := by
  obtain ⟨e0, e1, e2, e3, e4, e5, e6, e7, e8, e9, e10, e11, e12, e13, e14, e15, e16, e17, e18, e19⟩ := idx_facts t
  show V c main_v3 (((cfg1.win 2).blk t).view.emb (ix2 k l)) = V c main_v3 (ix2 k l)
  refine congrArg (V c main_v3) (funext fun a => Fin.ext ?_)
  match a with
  | ⟨0, _⟩ => show win1_2.index t (0 : Fin 2) * 128 + 1 * k.val = k.val; omega
  | ⟨1, _⟩ => show win1_2.index t (1 : Fin 2) * 128 + 1 * l.val = l.val; omega

theorem read_wvArr (c : Dev nD) (t : Fin cfg1.N) (k : Fin 128) (l : Fin 128) :
    iblk1 V c 3 t (ix2 k l) = wvArr V c (ix2 k l) := by
  obtain ⟨e0, e1, e2, e3, e4, e5, e6, e7, e8, e9, e10, e11, e12, e13, e14, e15, e16, e17, e18, e19⟩ := idx_facts t
  show V c main_v4 (((cfg1.win 3).blk t).view.emb (ix2 k l)) = V c main_v4 (ix2 k l)
  refine congrArg (V c main_v4) (funext fun a => Fin.ext ?_)
  match a with
  | ⟨0, _⟩ => show win1_3.index t (0 : Fin 2) * 128 + 1 * k.val = k.val; omega
  | ⟨1, _⟩ => show win1_3.index t (1 : Fin 2) * 128 + 1 * l.val = l.val; omega

theorem read_woArr (c : Dev nD) (t : Fin cfg1.N) (k : Fin 128) (l : Fin 128) :
    iblk1 V c 4 t (ix2 k l) = woArr V c (ix2 k l) := by
  obtain ⟨e0, e1, e2, e3, e4, e5, e6, e7, e8, e9, e10, e11, e12, e13, e14, e15, e16, e17, e18, e19⟩ := idx_facts t
  show V c main_v5 (((cfg1.win 4).blk t).view.emb (ix2 k l)) = V c main_v5 (ix2 k l)
  refine congrArg (V c main_v5) (funext fun a => Fin.ext ?_)
  match a with
  | ⟨0, _⟩ => show win1_4.index t (0 : Fin 2) * 128 + 1 * k.val = k.val; omega
  | ⟨1, _⟩ => show win1_4.index t (1 : Fin 2) * 128 + 1 * l.val = l.val; omega

theorem read_g1Arr (c : Dev nD) (t : Fin cfg1.N) (l : Fin 128) :
    iblk1 V c 5 t (ix1 l) = g1Arr V c (ix1 l) := by
  obtain ⟨e0, e1, e2, e3, e4, e5, e6, e7, e8, e9, e10, e11, e12, e13, e14, e15, e16, e17, e18, e19⟩ := idx_facts t
  show V c main_arg6 (((cfg1.win 5).blk t).view.emb (ix1 l)) = V c main_arg6 (ix1 l)
  refine congrArg (V c main_arg6) (funext fun a => Fin.ext ?_)
  match a with
  | ⟨0, _⟩ => show win1_5.index t (0 : Fin 1) * 128 + 1 * l.val = l.val; omega

theorem read_w1Arr (c : Dev nD) (t : Fin cfg1.N) (k : Fin 128) (l : Fin 256) :
    iblk1 V c 6 t (ix2 k l) = w1Arr V c (ix2 k l) := by
  obtain ⟨e0, e1, e2, e3, e4, e5, e6, e7, e8, e9, e10, e11, e12, e13, e14, e15, e16, e17, e18, e19⟩ := idx_facts t
  show V c main_v6 (((cfg1.win 6).blk t).view.emb (ix2 k l)) = V c main_v6 (ix2 k l)
  refine congrArg (V c main_v6) (funext fun a => Fin.ext ?_)
  match a with
  | ⟨0, _⟩ => show win1_6.index t (0 : Fin 2) * 128 + 1 * k.val = k.val; omega
  | ⟨1, _⟩ => show win1_6.index t (1 : Fin 2) * 256 + 1 * l.val = l.val; omega

theorem read_w2Arr (c : Dev nD) (t : Fin cfg1.N) (k : Fin 256) (l : Fin 128) :
    iblk1 V c 7 t (ix2 k l) = w2Arr V c (ix2 k l) := by
  obtain ⟨e0, e1, e2, e3, e4, e5, e6, e7, e8, e9, e10, e11, e12, e13, e14, e15, e16, e17, e18, e19⟩ := idx_facts t
  show V c main_v7 (((cfg1.win 7).blk t).view.emb (ix2 k l)) = V c main_v7 (ix2 k l)
  refine congrArg (V c main_v7) (funext fun a => Fin.ext ?_)
  match a with
  | ⟨0, _⟩ => show win1_7.index t (0 : Fin 2) * 256 + 1 * k.val = k.val; omega
  | ⟨1, _⟩ => show win1_7.index t (1 : Fin 2) * 128 + 1 * l.val = l.val; omega

theorem read_g2Arr (c : Dev nD) (t : Fin cfg1.N) (l : Fin 128) :
    iblk1 V c 8 t (ix1 l) = g2Arr V c (ix1 l) := by
  obtain ⟨e0, e1, e2, e3, e4, e5, e6, e7, e8, e9, e10, e11, e12, e13, e14, e15, e16, e17, e18, e19⟩ := idx_facts t
  show V c main_arg9 (((cfg1.win 8).blk t).view.emb (ix1 l)) = V c main_arg9 (ix1 l)
  refine congrArg (V c main_arg9) (funext fun a => Fin.ext ?_)
  match a with
  | ⟨0, _⟩ => show win1_8.index t (0 : Fin 1) * 128 + 1 * l.val = l.val; omega

theorem read_woutArr (c : Dev nD) (t : Fin cfg1.N) (k : Fin 128) (l : Fin 40) :
    iblk1 V c 9 t (ix2 k l) = woutArr V c (ix2 k l) := by
  obtain ⟨e0, e1, e2, e3, e4, e5, e6, e7, e8, e9, e10, e11, e12, e13, e14, e15, e16, e17, e18, e19⟩ := idx_facts t
  show V c main_v8 (((cfg1.win 9).blk t).view.emb (ix2 k l)) = V c main_v8 (ix2 k l)
  refine congrArg (V c main_v8) (funext fun a => Fin.ext ?_)
  match a with
  | ⟨0, _⟩ => show win1_9.index t (0 : Fin 2) * 128 + 1 * k.val = k.val; omega
  | ⟨1, _⟩ => show win1_9.index t (1 : Fin 2) * 40 + 1 * l.val = l.val; omega

/-! ## The output array -/

/-- The output array's contents: row by row the row function. -/
def outG (c : Dev nD) : Vec Ideal S16384x40 .f32 := fun i =>
  rowOut (fun k => hArr V c (ix2 ⟨(i 0).val, idx2_lt0 i⟩ k)) (fun k l => wqArr V c (ix2 k l)) (fun k l => wkArr V c (ix2 k l)) (fun k l => wvArr V c (ix2 k l)) (fun k l => woArr V c (ix2 k l))
    (fun l => g1Arr V c (ix1 l)) (fun k l => w1Arr V c (ix2 k l)) (fun k l => w2Arr V c (ix2 k l)) (fun l => g2Arr V c (ix1 l))
    (fun k l => woutArr V c (ix2 k l)) ⟨(i 1).val, idx2_lt1 i⟩

/-- What point `t` writes back is its block of `outG`. -/
theorem flushed_eq (c : Dev nD) (t : Fin cfg1.N) :
    (dat1 (F := Ideal) V c).flushed 10 t = ((cfg1.win 10).blk t).view.read (Elt Ideal) (outG V c) := by
  show (cfg1.win 10).cut (grid1.coords t) ((dat1 (F := Ideal) V c).after 10 t) = _
  rw [after1_10]
  unfold outsAt1
  rw [out_eq]
  funext y
  obtain ⟨p, q, rfl⟩ : ∃ (p : Fin 1024) (q : Fin 40), y = ix2 p q := ⟨y 0, y 1, eq_ix2 y⟩
  obtain ⟨e0, e1, e2, e3, e4, e5, e6, e7, e8, e9, e10, e11, e12, e13, e14, e15, e16, e17, e18, e19⟩ := idx_facts t
  have hb : win1_10.index t (0 : Fin 2) * 1024 + p.val < 16384 := by have := p.isLt; omega
  show blockOut (F := Ideal) (scratchAfter (iblk1 V c 0 t) (iblk1 V c 1 t) (iblk1 V c 2 t)) (iblk1 V c 0 t) (iblk1 V c 3 t) (iblk1 V c 4 t) (iblk1 V c 5 t) (iblk1 V c 6 t) (iblk1 V c 7 t) (iblk1 V c 8 t) (iblk1 V c 9 t) (ix2 p q)
      = outG V c (((cfg1.win 10).blk t).view.emb (ix2 p q))
  rw [blockOut_apply]
  unfold outG
  have hr : (⟨((((cfg1.win 10).blk t).view.emb (ix2 p q)) 0).val, idx2_lt0 _⟩ : Fin 16384)
      = ⟨win1_10.index t (0 : Fin 2) * 1024 + p.val, hb⟩ :=
    Fin.ext (by show win1_10.index t (0 : Fin 2) * 1024 + 1 * p.val = win1_10.index t (0 : Fin 2) * 1024 + p.val; omega)
  have hc : (⟨((((cfg1.win 10).blk t).view.emb (ix2 p q)) 1).val, idx2_lt1 _⟩ : Fin 40) = q :=
    Fin.ext (by show win1_10.index t (1 : Fin 2) * 40 + 1 * q.val = q.val; omega)
  rw [hr, hc]
  simp only [read_hArr V c t p _ hb, read_wqArr V c t, read_wkArr V c t, read_wvArr V c t, read_woArr V c t, read_g1Arr V c t, read_w1Arr V c t, read_w2Arr V c t, read_g2Arr V c t, read_woutArr V c t]

/-- An index of the array is in point `t`'s block iff each coordinate is in the block's range on its axis. -/
theorem mem_blk (t : Fin cfg1.N) (i : S16384x40.Idx) :
    i ∈ ((cfg1.win 10).blk t).view.set ↔ ∀ a : Fin 2, win1_10.index t a * S1024x40.size a ≤ (i a).val ∧ (i a).val < win1_10.index t a * S1024x40.size a + S1024x40.size a := by
  show i ∈ ((View.whole main_v9).slice (win1_10.rect t)).set ↔ _
  rw [View.set_slice_whole, Rect.mem_set_unit]
  exact Iff.rfl

/-- Every index of the output array lies in the block of the point that holds its row. -/
theorem cover (i : S16384x40.Idx) :
    ∃ t : Fin cfg1.N, (cfg1.win 10).flush t = true ∧ i ∈ ((cfg1.win 10).blk t).view.set := by
  have hi0 : (i 0).val < 16384 := (i 0).isLt
  have hi1 : (i 1).val < 40 := (i 1).isLt
  obtain ⟨t, ht⟩ := idx_onto ⟨(i 0).val / 1024, by omega⟩
  have q0 : win1_10.index t (0 : Fin 2) = (i 0).val / 1024 := congrFun ht 0
  have q1 : win1_10.index t (1 : Fin 2) = 0 := congrFun ht 1
  refine ⟨t, flush1_10 t, ?_⟩
  rw [mem_blk]
  intro a
  match a with
  | ⟨0, _⟩ => show win1_10.index t (0 : Fin 2) * 1024 ≤ (i 0).val ∧ (i 0).val < win1_10.index t (0 : Fin 2) * 1024 + 1024; omega
  | ⟨1, _⟩ => show win1_10.index t (1 : Fin 2) * 40 ≤ (i 1).val ∧ (i 1).val < win1_10.index t (1 : Fin 2) * 40 + 40; omega

/-- After the run the output array holds `outG`. -/
theorem out_array (c : Dev nD) : (dat1 (F := Ideal) V c).arrAt 10 cfg1.N = outG V c :=
  (dat1 (F := Ideal) V c).arrAt_eq_of_cover 10 (outG V c) (fun t _ => flushed_eq V c t) (cover)

end Cert.KernelIdeal.BlockArray

end
-- ==== Proof.AggArray.lean ====
/-
  The first kernel's output array after its run: the matrix product of the adjacency array and
  the feature array as the region finds them, index by index over the extended reals. Each grid
  point writes back the 128 rows of the product that its block of the adjacency array gives, and
  the blocks tile the array.
-/
import proofs.«165487_j24223615549762_1_alg».proof.Proof.Gen.KernelIdeal.Frame
import proofs.«165487_j24223615549762_1_alg».proof.Proof.RowSpec
import proofs.«165487_j24223615549762_1_alg».proof.Proof.LibDot2
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.AggArray

open Cert.KernelIdeal Cert.KernelIdeal.Gen Cert.RowSpec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

/-- The adjacency array as the region finds it. -/
abbrev adjArr (c : Dev nD) : Vec Ideal S16384x16384 .f32 := V c main_arg1
/-- The feature array (in the narrower format: the same values) as the region finds it. -/
abbrev xArr (c : Dev nD) : Vec Ideal S16384x128 .bf16 := V c main_v0

/-- The product `adj · x`, index by index. -/
def aggG (c : Dev nD) : Vec Ideal S16384x128 .f32 := fun i =>
  aggRow (fun r n => adjArr V c (ix2 r n)) (fun n j => xArr V c (ix2 n j)) (i 0) (i 1)

/-- The body's one store and both its loads are through whole-buffer rectangles at zero offsets. -/
theorem zero_offsets : (![0, 0] : Fin 2 → Nat) = fun _ => 0 := funext fun a => by fin_cases a <;> rfl

/-- The block indices at grid point `t`: the adjacency window and the output window sit at row
    block `t`, column block 0; the feature window is the whole array at every point. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The product's dimension numbers are those of the plain `[128, 16384] × [16384, 128]` product. -/
theorem dims_eq : dot_S128x16384_S16384x128_S128x128_1_0_0_1_n_n
    = Dot2.mmDims 128 16384 128 dot_S128x16384_S16384x128_S128x128_1_0_0_1_n_n.wf := rfl

/-- What the body stores, at `(p, q)`: `Σ k, a[p, k] * x[k, q]` of the two blocks it loads (the
    change of format and the same-shape cast are identities). -/
theorem stored_at (x0 : Vec Ideal S128x16384 .f32) (x1 : Vec Ideal S16384x128 .bf16) (p q : Fin 128) :
    k0_pay1 (F := Ideal) x0 x1 (ix2 p q) = ∑ k : Fin 16384, x0 (ix2 p k) * x1 (ix2 k q) := by
  unfold k0_pay1
  rw [dims_eq]
  refine (Dot2.matmul_zero_mm_apply _ none _ _ p q).trans ?_
  refine Finset.sum_congr rfl fun k _ => ?_
  rw [truncf_apply, shapeCast_self]

/-- The adjacency block at point `t` is rows `128 t … 128 t + 127` of the array: its entry
    `(p, k)` is the array's entry at any index with those coordinates. -/
theorem adj_block (c : Dev nD) (t : Fin cfg0.N) (p : Fin 128) (k : Fin 16384) (i : S16384x16384.Idx)
    (h0 : (i 0).val = 128 * t.val + p.val) (h1 : (i 1).val = k.val) :
    iblk0 V c 0 t (ix2 p k) = adjArr V c i := by
  obtain ⟨e0, e1, -⟩ := block_indices t
  unfold iblk0
  rw [View.read_apply]
  show V c main_arg1 _ = V c main_arg1 i
  congr 1
  funext a; apply Fin.ext
  match a with
  | ⟨0, _⟩ => show win0_0.index t (0 : Fin 2) * 128 + 1 * p.val = (i 0).val; rw [e0, h0]; omega
  | ⟨1, _⟩ => show win0_0.index t (1 : Fin 2) * 16384 + 1 * k.val = (i 1).val; rw [e1, h1]; omega

/-- The feature block at every point is the whole feature array. -/
theorem x_block (c : Dev nD) (t : Fin cfg0.N) (k : Fin 16384) (q : Fin 128) :
    iblk0 V c 1 t (ix2 k q) = xArr V c (ix2 k q) := by
  obtain ⟨-, -, e0, e1, -⟩ := block_indices t
  unfold iblk0
  rw [View.read_apply]
  show V c main_v0 _ = V c main_v0 (ix2 k q)
  congr 1
  funext a; apply Fin.ext
  match a with
  | ⟨0, _⟩ => show win0_1.index t (0 : Fin 2) * 16384 + 1 * k.val = k.val; rw [e0]; omega
  | ⟨1, _⟩ => show win0_1.index t (1 : Fin 2) * 128 + 1 * q.val = q.val; rw [e1]; omega

/-- The sum of products of the two blocks at point `t`, at `(p, q)`, is the product array's entry
    at row `128 t + p`, column `q`. -/
theorem block_sum (c : Dev nD) (t : Fin cfg0.N) (x0 : Vec Ideal S128x16384 .f32) (x1 : Vec Ideal S16384x128 .bf16)
    (hx0 : x0 = iblk0 V c 0 t) (hx1 : x1 = iblk0 V c 1 t) (p q : Fin 128) (i : S16384x128.Idx)
    (h0 : (i 0).val = 128 * t.val + p.val) (h1 : (i 1).val = q.val) :
    ∑ k : Fin 16384, x0 (ix2 p k) * x1 (ix2 k q) = aggG V c i := by
  obtain ⟨r, s, rfl⟩ : ∃ (r : Fin 16384) (s : Fin 128), i = ix2 r s := ⟨i 0, i 1, eq_ix2 i⟩
  obtain rfl : s = q := Fin.ext h1
  show _ = ∑ n : Fin 16384, adjArr V c (ix2 r n) * xArr V c (ix2 n s)
  refine Finset.sum_congr rfl fun k _ => ?_
  rw [hx0, hx1, adj_block V c t p k (ix2 r k) h0 rfl, x_block V c t k s]

/-- What point `t` writes back is block `t` of the product array. -/
theorem written_block (c : Dev nD) (t : Fin cfg0.N) :
    (dat0 (F := Ideal) V c).flushed 2 t = ((cfg0.win 2).blk t).view.read (Elt Ideal) (aggG V c) := by
  show (cfg0.win 2).cut (grid0.coords t) ((dat0 (F := Ideal) V c).after 2 t) = _
  rw [after0_2]
  unfold out0_2
  rw [View.canon_unit_zero zero_offsets]
  simp only [View.ld_unit_zero (S := S128x16384) zero_offsets, View.ld_unit_zero (S := S16384x128) zero_offsets]
  funext j
  rw [View.read_apply, cast_eq]
  show k0_pay1 (F := Ideal) (iblk0 V c 0 t) (iblk0 V c 1 t) j = _
  obtain ⟨p, q, rfl⟩ : ∃ (p : Fin 128) (q : Fin 128), j = ix2 p q := ⟨j 0, j 1, eq_ix2 j⟩
  obtain ⟨-, -, -, -, e0, e1⟩ := block_indices t
  rw [stored_at]
  refine block_sum V c t _ _ rfl rfl p q _ ?_ ?_
  · show win0_2.index t (0 : Fin 2) * 128 + 1 * p.val = _
    rw [e0]; omega
  · show win0_2.index t (1 : Fin 2) * 128 + 1 * q.val = _
    rw [e1]; omega

/-- An index of the output array is in point `t`'s block iff each coordinate is in the block's
    range on its axis. -/
theorem mem_block (t : Fin cfg0.N) (i : S16384x128.Idx) :
    i ∈ ((cfg0.win 2).blk t).view.set ↔ ∀ a : Fin 2, win0_2.index t a * S128x128.size a ≤ (i a).val
      ∧ (i a).val < win0_2.index t a * S128x128.size a + S128x128.size a := by
  show i ∈ ((View.whole main_v1).slice (win0_2.rect t)).set ↔ _
  rw [View.set_slice_whole, Rect.mem_set_unit]
  exact Iff.rfl

/-- Row `r` lies in the block of point `r / 128`: the 128 blocks of 128 rows tile the array. -/
theorem rows_cover (i : S16384x128.Idx) :
    ∃ t : Fin cfg0.N, (cfg0.win 2).flush t = true ∧ i ∈ ((cfg0.win 2).blk t).view.set := by
  have hi0 : (i 0).val < 16384 := (i 0).isLt
  have hi1 : (i 1).val < 128 := (i 1).isLt
  have hN : grid0.N = 128 := N_0
  have ht : (i 0).val / 128 < cfg0.N := by show _ < grid0.N; rw [hN]; omega
  obtain ⟨-, -, -, -, e0, e1⟩ := block_indices ⟨(i 0).val / 128, ht⟩
  refine ⟨⟨(i 0).val / 128, ht⟩, flush0_2 _, ?_⟩
  rw [mem_block]
  intro a
  match a with
  | ⟨0, _⟩ =>
    show win0_2.index ⟨(i 0).val / 128, ht⟩ (0 : Fin 2) * 128 ≤ (i 0).val
      ∧ (i 0).val < win0_2.index ⟨(i 0).val / 128, ht⟩ (0 : Fin 2) * 128 + 128
    rw [e0]; show (i 0).val / 128 * 128 ≤ (i 0).val ∧ (i 0).val < (i 0).val / 128 * 128 + 128; omega
  | ⟨1, _⟩ =>
    show win0_2.index ⟨(i 0).val / 128, ht⟩ (1 : Fin 2) * 128 ≤ (i 1).val
      ∧ (i 1).val < win0_2.index ⟨(i 0).val / 128, ht⟩ (1 : Fin 2) * 128 + 128
    rw [e1]; omega

/-- After the run the output array holds the product. -/
theorem agg_array (c : Dev nD) : (dat0 (F := Ideal) V c).arrAt 2 cfg0.N = aggG V c :=
  (dat0 (F := Ideal) V c).arrAt_eq_of_cover 2 (aggG V c) (fun t _ => written_block V c t) rows_cover

end Cert.KernelIdeal.AggArray

end
-- ==== Proof.NetSpec.lean ====
/-
  The whole network as one function of the argument arrays: entry `(r, c)` of the 16384 × 40 result
  is the row function of row `r` of `adj · x` and of the weights, at `c`. Both programs' results
  are shown to be this function of their arguments.
-/
import proofs.«165487_j24223615549762_1_alg».proof.Proof.RowSpec
import Idealize.ShloMosaic.Lib.ValueIdx

noncomputable section

open scoped BigOperators

namespace Cert.RowSpec

open Idealize.ShloMosaic Idealize.ShloMosaic.ValueIdx

/-- The result array as a function of the eleven argument arrays. -/
def netG (x : (⟨2, ![16384, 128]⟩ : Shape).Idx → EReal) (adj : (⟨2, ![16384, 16384]⟩ : Shape).Idx → EReal)
    (wq wk wv wo : (⟨2, ![128, 128]⟩ : Shape).Idx → EReal) (g1 : (⟨1, ![128]⟩ : Shape).Idx → EReal)
    (w1 : (⟨2, ![128, 256]⟩ : Shape).Idx → EReal) (w2 : (⟨2, ![256, 128]⟩ : Shape).Idx → EReal) (g2 : (⟨1, ![128]⟩ : Shape).Idx → EReal)
    (wout : (⟨2, ![128, 40]⟩ : Shape).Idx → EReal) : (⟨2, ![16384, 40]⟩ : Shape).Idx → EReal := fun i =>
  rowOut (aggRow (fun r n => adj (ix2 r n)) (fun n j => x (ix2 n j)) ⟨(i 0).val, idx2_lt0 i⟩)
    (fun k l => wq (ix2 k l)) (fun k l => wk (ix2 k l)) (fun k l => wv (ix2 k l)) (fun k l => wo (ix2 k l)) (fun l => g1 (ix1 l))
    (fun k l => w1 (ix2 k l)) (fun k l => w2 (ix2 k l)) (fun l => g2 (ix1 l)) (fun k l => wout (ix2 k l)) ⟨(i 1).val, idx2_lt1 i⟩

/-- At explicit coordinates. -/
theorem netG_apply (x : (⟨2, ![16384, 128]⟩ : Shape).Idx → EReal) (adj : (⟨2, ![16384, 16384]⟩ : Shape).Idx → EReal)
    (wq wk wv wo : (⟨2, ![128, 128]⟩ : Shape).Idx → EReal) (g1 : (⟨1, ![128]⟩ : Shape).Idx → EReal)
    (w1 : (⟨2, ![128, 256]⟩ : Shape).Idx → EReal) (w2 : (⟨2, ![256, 128]⟩ : Shape).Idx → EReal) (g2 : (⟨1, ![128]⟩ : Shape).Idx → EReal)
    (wout : (⟨2, ![128, 40]⟩ : Shape).Idx → EReal) (r : Fin 16384) (c : Fin 40) :
    netG x adj wq wk wv wo g1 w1 w2 g2 wout (ix2 r c)
      = rowOut (aggRow (fun r n => adj (ix2 r n)) (fun n j => x (ix2 n j)) r)
          (fun k l => wq (ix2 k l)) (fun k l => wk (ix2 k l)) (fun k l => wv (ix2 k l)) (fun k l => wo (ix2 k l)) (fun l => g1 (ix1 l))
    (fun k l => w1 (ix2 k l)) (fun k l => w2 (ix2 k l)) (fun l => g2 (ix1 l)) (fun k l => wout (ix2 k l)) c := rfl

end Cert.RowSpec

end
-- ==== Proof.KernelValue.lean ====
/-
  The kernel program's result after its run, as the network function of the launch memory's
  argument arrays. The run leaves the result buffer at the last boundary's contents; those are
  the second region's output array after its run, which is the row function of the arrays that
  region found; and those arrays are the first region's product `adj · x` and the weights, each
  the launched argument up to a change of float format, which is the identity here.
-/
import proofs.«165487_j24223615549762_1_alg».proof.Proof.RunValue
import proofs.«165487_j24223615549762_1_alg».proof.Proof.Glue
import proofs.«165487_j24223615549762_1_alg».proof.Proof.BlockArray
import proofs.«165487_j24223615549762_1_alg».proof.Proof.AggArray
import proofs.«165487_j24223615549762_1_alg».proof.Proof.NetSpec
import Idealize.ShloMosaic.Lib.ValueIdx

set_option maxRecDepth 16384

noncomputable section

open scoped BigOperators

namespace Cert.KernelIdeal.KernelValue

open Cert.KernelIdeal Cert.KernelIdeal.Gen Cert.KernelIdeal.Glue Cert.KernelIdeal.BlockArray Cert.KernelIdeal.AggArray
open Cert.KernelIdeal.GenRun Cert.RowSpec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (m : (ℓ : Loc nD τ sig) → Buf (Elt Ideal) ℓ) (ρ : Dev nD → PrngReg)

/-- The result array the kernel program ends with, on core `c`. -/
def kernelG (c : Dev nD) : Vec Ideal S16384x40 .f32 :=
  netG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) (m ((c : Thread nD τ).loc main_arg9)) (m ((c : Thread nD τ).loc main_arg10))

/-- The second region's output array, at the arrays that region finds, is the network function of the arguments. -/
theorem outG_eq (c : Dev nD) : outG (V3 m ρ) c = kernelG m c := by
  funext i
  have hh : ∀ (r : Fin 16384) (k : Fin 128), hArr (V3 m ρ) c (ix2 r k)
      = aggRow (fun r n => (m ((c : Thread nD τ).loc main_arg1) : Vec Ideal S16384x16384 .f32) (ix2 r n)) (fun n j => (m ((c : Thread nD τ).loc main_arg0) : Vec Ideal S16384x128 .f32) (ix2 n j)) r k := by
    intro r k
    show V3 m ρ c main_v1 (ix2 r k) = _
    rw [V3_main_v1 m ρ c, agg_array (V1 m ρ) c]
    show aggRow (fun r n => V1 m ρ c main_arg1 (ix2 r n)) (fun n j => V1 m ρ c main_v0 (ix2 n j)) r k = _
    rw [V1_main_arg1 m ρ c, V1_main_v0 m ρ c]
    rfl
  have hq : ∀ k l, wqArr (V3 m ρ) c (ix2 k l) = (m ((c : Thread nD τ).loc main_arg2) : Vec Ideal S128x128 .f32) (ix2 k l) := fun k l => by
    show V3 m ρ c main_v2 (ix2 k l) = _; rw [V3_main_v2 m ρ c]; rfl
  have hk : ∀ k l, wkArr (V3 m ρ) c (ix2 k l) = (m ((c : Thread nD τ).loc main_arg3) : Vec Ideal S128x128 .f32) (ix2 k l) := fun k l => by
    show V3 m ρ c main_v3 (ix2 k l) = _; rw [V3_main_v3 m ρ c]; rfl
  have hv : ∀ k l, wvArr (V3 m ρ) c (ix2 k l) = (m ((c : Thread nD τ).loc main_arg4) : Vec Ideal S128x128 .f32) (ix2 k l) := fun k l => by
    show V3 m ρ c main_v4 (ix2 k l) = _; rw [V3_main_v4 m ρ c]; rfl
  have ho : ∀ k l, woArr (V3 m ρ) c (ix2 k l) = (m ((c : Thread nD τ).loc main_arg5) : Vec Ideal S128x128 .f32) (ix2 k l) := fun k l => by
    show V3 m ρ c main_v5 (ix2 k l) = _; rw [V3_main_v5 m ρ c]; rfl
  have hg1 : ∀ l, g1Arr (V3 m ρ) c (ix1 l) = (m ((c : Thread nD τ).loc main_arg6) : Vec Ideal S128 .f32) (ix1 l) := fun l => by
    show V3 m ρ c main_arg6 (ix1 l) = _; rw [V3_main_arg6 m ρ c]
  have hw1 : ∀ k l, w1Arr (V3 m ρ) c (ix2 k l) = (m ((c : Thread nD τ).loc main_arg7) : Vec Ideal S128x256 .f32) (ix2 k l) := fun k l => by
    show V3 m ρ c main_v6 (ix2 k l) = _; rw [V3_main_v6 m ρ c]; rfl
  have hw2 : ∀ k l, w2Arr (V3 m ρ) c (ix2 k l) = (m ((c : Thread nD τ).loc main_arg8) : Vec Ideal S256x128 .f32) (ix2 k l) := fun k l => by
    show V3 m ρ c main_v7 (ix2 k l) = _; rw [V3_main_v7 m ρ c]; rfl
  have hg2 : ∀ l, g2Arr (V3 m ρ) c (ix1 l) = (m ((c : Thread nD τ).loc main_arg9) : Vec Ideal S128 .f32) (ix1 l) := fun l => by
    show V3 m ρ c main_arg9 (ix1 l) = _; rw [V3_main_arg9 m ρ c]
  have hwo : ∀ k l, woutArr (V3 m ρ) c (ix2 k l) = (m ((c : Thread nD τ).loc main_arg10) : Vec Ideal S128x40 .f32) (ix2 k l) := fun k l => by
    show V3 m ρ c main_v8 (ix2 k l) = _; rw [V3_main_v8 m ρ c]; rfl
  unfold outG kernelG netG
  simp only [hh, hq, hk, hv, ho, hg1, hw1, hw2, hg2, hwo]

/-- Every weakly fair execution of the kernel program terminates with the result buffer at the network function of
    the arguments and the arguments unchanged. -/
theorem kernel_run : θ_run defs (onTc (τ := τ) (main (F := Ideal))) ⟨m, fun _ => 0, ρ⟩ (fun r => ∀ c : Dev nD,
      r.2.mem ((c.tc : Thread nD τ).loc main_v9) = kernelG m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
      ⟨(h c).1.trans (((W4_arr m ρ c 10).trans (out_array (V3 m ρ) c)).trans (outG_eq m ρ c)), (h c).2⟩)
    (run_value m ρ)

end Cert.KernelIdeal.KernelValue

end
-- ==== Proof.RScores.lean ====
/-
  The reference's first stages read at an index: the aggregation `adj · x`, and the scaled scores
  in the (row, group, lane) layout. The reference divides the product of queries and keys by the
  square root of the literal 16, which is 4, where the row function multiplies by the literal one
  quarter: on the extended reals these are one value.
-/
import proofs.«165487_j24223615549762_1_alg».proof.Proof.RefRead
import proofs.«165487_j24223615549762_1_alg».proof.Proof.RowSpec
import proofs.«165487_j24223615549762_1_alg».proof.Proof.LibDot2
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.RefScores

open Cert.ReferenceIdeal Cert.ReferenceIdeal.Gen Cert.ReferenceIdeal.ReadP Cert.RowSpec
open Idealize.ShloMosaic Idealize.ShloMosaic.TcCoe Idealize.ShloMosaic.ValueIdx Idealize.ShloMosaic.StableHlo

/-! ## The two literals that are evaluated -/

/-- The word 0x41800000 has sign 0, exponent field 131 and fraction 0: it is 2^23 * 2^(131 - 127 - 23) = 16. -/
theorem word16 : Ideal.ofBits .f32 0x41800000#32 = ((16 : ℝ) : EReal) := by
  simp [Ideal.ofBits, Ideal.ieee, -EReal.coe_mul]; norm_num

/-- The word 0x3E800000 has sign 0, exponent field 125 and fraction 0: it is 2^23 * 2^(125 - 127 - 23) = 1/4. -/
theorem wordQuarter : Ideal.ofBits .f32 0x3E800000#32 = ((1 / 4 : ℝ) : EReal) := by
  simp [Ideal.ofBits, Ideal.ieee, -EReal.coe_mul]; norm_num

/-- 16 is the square of 4, and 4 is not negative, so the real square root of 16 is 4. -/
theorem sqrt16 : Real.sqrt 16 = 4 := by
  rw [show (16 : ℝ) = 4 ^ 2 by norm_num]; exact Real.sqrt_sq (by norm_num)

/-- Dividing by the square root of the word of 16 is multiplying by the word of one quarter. -/
theorem div_sqrt16 (a : EReal) :
    Ideal.div a (Ideal.sqrt (Ideal.ofBits .f32 0x41800000#32)) = a * quarterW := by
  -- The square root of 16 is the nonzero real 4, so a / 4 = a * (1/4), and 1/4 is what the second word denotes.
  rw [word16, Ideal.sqrt_coe, if_neg (by norm_num), sqrt16, Ideal.div_coe (by norm_num), quarterW, wordQuarter]

/-! ## Where each stage reads its operands

  A product [M, K] x [K, N] at (p, q) reads the left operand at (p, k) and the right at (k, q).
  The reshape [16384, 128] -> [16384, 16, 8] keeps the row-major position: entry (r, g, u) sits at
  position (16 r + g) * 8 + u = 128 r + (8 g + u), which is row r, lane 8 g + u. -/

theorem lidx_v0 (r : Fin 16384) (j : Fin 128) (k : Fin 16384) : lidx_main_v0 (ix2 r j) k = ix2 r k :=
  funext fun a => Fin.ext (by match a with | ⟨0, _⟩ => rfl | ⟨1, _⟩ => rfl)
theorem ridx_v0 (r : Fin 16384) (j : Fin 128) (k : Fin 16384) : ridx_main_v0 (ix2 r j) k = ix2 k j :=
  funext fun a => Fin.ext (by match a with | ⟨0, _⟩ => rfl | ⟨1, _⟩ => rfl)
theorem lidx_v1 (r : Fin 16384) (l k : Fin 128) : lidx_main_v1 (ix2 r l) k = ix2 r k :=
  funext fun a => Fin.ext (by match a with | ⟨0, _⟩ => rfl | ⟨1, _⟩ => rfl)
theorem ridx_v1 (r : Fin 16384) (l k : Fin 128) : ridx_main_v1 (ix2 r l) k = ix2 k l :=
  funext fun a => Fin.ext (by match a with | ⟨0, _⟩ => rfl | ⟨1, _⟩ => rfl)
theorem lidx_v3 (r : Fin 16384) (l k : Fin 128) : lidx_main_v3 (ix2 r l) k = ix2 r k :=
  funext fun a => Fin.ext (by match a with | ⟨0, _⟩ => rfl | ⟨1, _⟩ => rfl)
theorem ridx_v3 (r : Fin 16384) (l k : Fin 128) : ridx_main_v3 (ix2 r l) k = ix2 k l :=
  funext fun a => Fin.ext (by match a with | ⟨0, _⟩ => rfl | ⟨1, _⟩ => rfl)
theorem lidx_v5 (r : Fin 16384) (l k : Fin 128) : lidx_main_v5 (ix2 r l) k = ix2 r k :=
  funext fun a => Fin.ext (by match a with | ⟨0, _⟩ => rfl | ⟨1, _⟩ => rfl)
theorem ridx_v5 (r : Fin 16384) (l k : Fin 128) : ridx_main_v5 (ix2 r l) k = ix2 k l :=
  funext fun a => Fin.ext (by match a with | ⟨0, _⟩ => rfl | ⟨1, _⟩ => rfl)
theorem idx_v2 (r : Fin 16384) (g : Fin 16) (u : Fin 8) : idx_main_v2 (ix3 r g u) = ix2 r (lane g u) :=
  funext fun a => Fin.ext (by
    have hr := r.isLt; have hg := g.isLt; have hu := u.isLt
    match a with
    | ⟨0, _⟩ => show ((r.val * 16 + g.val) * 8 + u.val) / 128 = r.val; omega
    | ⟨1, _⟩ => show ((r.val * 16 + g.val) * 8 + u.val) % 128 = 8 * g.val + u.val; omega)
theorem idx_v4 (r : Fin 16384) (g : Fin 16) (u : Fin 8) : idx_main_v4 (ix3 r g u) = ix2 r (lane g u) :=
  funext fun a => Fin.ext (by
    have hr := r.isLt; have hg := g.isLt; have hu := u.isLt
    match a with
    | ⟨0, _⟩ => show ((r.val * 16 + g.val) * 8 + u.val) / 128 = r.val; omega
    | ⟨1, _⟩ => show ((r.val * 16 + g.val) * 8 + u.val) % 128 = 8 * g.val + u.val; omega)
theorem idx_v6 (r : Fin 16384) (g : Fin 16) (u : Fin 8) : idx_main_v6 (ix3 r g u) = ix2 r (lane g u) :=
  funext fun a => Fin.ext (by
    have hr := r.isLt; have hg := g.isLt; have hu := u.isLt
    match a with
    | ⟨0, _⟩ => show ((r.val * 16 + g.val) * 8 + u.val) / 128 = r.val; omega
    | ⟨1, _⟩ => show ((r.val * 16 + g.val) * 8 + u.val) % 128 = 8 * g.val + u.val; omega)

/-! ## The stages at explicit coordinates -/

/-- The aggregated features at `(r, j)`. -/
theorem ref_agg (x0 : (⟨S16384x128, .f32⟩ : BufTy).Contents (Elt Ideal)) (x1 : (⟨S16384x16384, .f32⟩ : BufTy).Contents (Elt Ideal)) (r : Fin 16384) (j : Fin 128) :
    val_main_v0 (F := Ideal) x0 x1 (ix2 r j)
      = aggRow (fun r' n => x1 (ix2 r' n)) (fun n j' => x0 (ix2 n j')) r j := by
  rw [val_main_v0_apply]
  simp only [lidx_v0, ridx_v0]
  rfl

/-- The query projection at (r, l): the aggregated row r times the query weights, at lane l. -/
theorem v1_at (x0 : (⟨S16384x128, .f32⟩ : BufTy).Contents (Elt Ideal)) (x1 : (⟨S16384x16384, .f32⟩ : BufTy).Contents (Elt Ideal)) (x2 : (⟨S128x128, .f32⟩ : BufTy).Contents (Elt Ideal)) (r : Fin 16384) (l : Fin 128) :
    val_main_v1 (F := Ideal) x0 x1 x2 (ix2 r l)
      = vecMat (fun k => val_main_v0 (F := Ideal) x0 x1 (ix2 r k)) (fun k l' => x2 (ix2 k l')) l := by
  rw [val_main_v1_apply]
  simp only [lidx_v1, ridx_v1]
  rfl

/-- The key projection at (r, l): the aggregated row r times the key weights, at lane l. -/
theorem v3_at (x0 : (⟨S16384x128, .f32⟩ : BufTy).Contents (Elt Ideal)) (x1 : (⟨S16384x16384, .f32⟩ : BufTy).Contents (Elt Ideal)) (x3 : (⟨S128x128, .f32⟩ : BufTy).Contents (Elt Ideal)) (r : Fin 16384) (l : Fin 128) :
    val_main_v3 (F := Ideal) x0 x1 x3 (ix2 r l)
      = vecMat (fun k => val_main_v0 (F := Ideal) x0 x1 (ix2 r k)) (fun k l' => x3 (ix2 k l')) l := by
  rw [val_main_v3_apply]
  simp only [lidx_v3, ridx_v3]
  rfl

/-- The value projection at (r, l): the aggregated row r times the value weights, at lane l. -/
theorem v5_at (x0 : (⟨S16384x128, .f32⟩ : BufTy).Contents (Elt Ideal)) (x1 : (⟨S16384x16384, .f32⟩ : BufTy).Contents (Elt Ideal)) (x4 : (⟨S128x128, .f32⟩ : BufTy).Contents (Elt Ideal)) (r : Fin 16384) (l : Fin 128) :
    val_main_v5 (F := Ideal) x0 x1 x4 (ix2 r l)
      = vecMat (fun k => val_main_v0 (F := Ideal) x0 x1 (ix2 r k)) (fun k l' => x4 (ix2 k l')) l := by
  rw [val_main_v5_apply]
  simp only [lidx_v5, ridx_v5]
  rfl

/-- The query projection in the (row, group, lane) layout. -/
theorem v2_at (x0 : (⟨S16384x128, .f32⟩ : BufTy).Contents (Elt Ideal)) (x1 : (⟨S16384x16384, .f32⟩ : BufTy).Contents (Elt Ideal)) (x2 : (⟨S128x128, .f32⟩ : BufTy).Contents (Elt Ideal)) (r : Fin 16384) (g : Fin 16) (u : Fin 8) :
    val_main_v2 (F := Ideal) x0 x1 x2 (ix3 r g u)
      = vecMat (fun k => val_main_v0 (F := Ideal) x0 x1 (ix2 r k)) (fun k l' => x2 (ix2 k l')) (lane g u) := by
  rw [val_main_v2_apply, idx_v2, v1_at]

/-- The key projection in the (row, group, lane) layout. -/
theorem v4_at (x0 : (⟨S16384x128, .f32⟩ : BufTy).Contents (Elt Ideal)) (x1 : (⟨S16384x16384, .f32⟩ : BufTy).Contents (Elt Ideal)) (x3 : (⟨S128x128, .f32⟩ : BufTy).Contents (Elt Ideal)) (r : Fin 16384) (g : Fin 16) (u : Fin 8) :
    val_main_v4 (F := Ideal) x0 x1 x3 (ix3 r g u)
      = vecMat (fun k => val_main_v0 (F := Ideal) x0 x1 (ix2 r k)) (fun k l' => x3 (ix2 k l')) (lane g u) := by
  rw [val_main_v4_apply, idx_v4, v3_at]

/-- The broadcast divisor at any index: the square root of the word of 16. -/
theorem v9_at (r : Fin 16384) (g : Fin 16) (u : Fin 8) :
    val_main_v9 (F := Ideal) (ix3 r g u) = Ideal.sqrt (Ideal.ofBits .f32 0x41800000#32) := by
  rw [val_main_v9_apply, val_main_v8_apply, val_main_cst_apply]
  rfl

/-- The scaled scores at (row `r`, group `g`, lane `u`): the row function's scores at lane `8g + u`. -/
theorem ref_scores (x0 : (⟨S16384x128, .f32⟩ : BufTy).Contents (Elt Ideal)) (x1 : (⟨S16384x16384, .f32⟩ : BufTy).Contents (Elt Ideal)) (x2 x3 : (⟨S128x128, .f32⟩ : BufTy).Contents (Elt Ideal)) (r : Fin 16384) (g : Fin 16) (u : Fin 8) :
    val_main_v10 (F := Ideal) x0 x1 x2 x3 (ix3 r g u)
      = scores (vecMat (fun k => val_main_v0 (F := Ideal) x0 x1 (ix2 r k)) (fun k l => x2 (ix2 k l)))
               (vecMat (fun k => val_main_v0 (F := Ideal) x0 x1 (ix2 r k)) (fun k l => x3 (ix2 k l))) (lane g u) := by
  rw [val_main_v10_apply, val_main_v7_apply, v2_at, v4_at, v9_at]
  simp only [Ideal.hostDivf_def, Ideal.mulf_def]
  rw [div_sqrt16]
  rfl

/-- The value projection in the (row, group, lane) layout. -/
theorem ref_vproj (x0 : (⟨S16384x128, .f32⟩ : BufTy).Contents (Elt Ideal)) (x1 : (⟨S16384x16384, .f32⟩ : BufTy).Contents (Elt Ideal)) (x4 : (⟨S128x128, .f32⟩ : BufTy).Contents (Elt Ideal)) (r : Fin 16384) (g : Fin 16) (u : Fin 8) :
    val_main_v6 (F := Ideal) x0 x1 x4 (ix3 r g u)
      = vecMat (fun k => val_main_v0 (F := Ideal) x0 x1 (ix2 r k)) (fun k l => x4 (ix2 k l)) (lane g u) := by
  rw [val_main_v6_apply, idx_v6, v5_at]

end Cert.ReferenceIdeal.RefScores

end
-- ==== Proof.RSoftmax.lean ====
/-
  The reference's softmax over each group of eight lanes, and the weighted values laid back out
  as a 128-wide row, read at an index.
-/
import proofs.«165487_j24223615549762_1_alg».proof.Proof.RefRead
import proofs.«165487_j24223615549762_1_alg».proof.Proof.RowSpec
import proofs.«165487_j24223615549762_1_alg».proof.Proof.LibDot2
import proofs.«165487_j24223615549762_1_alg».proof.Proof.RScores
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.RefSoftmax

open Cert.ReferenceIdeal Cert.ReferenceIdeal.Gen Cert.ReferenceIdeal.ReadP Cert.RowSpec
open Idealize.ShloMosaic Idealize.ShloMosaic.TcCoe Idealize.ShloMosaic.ValueIdx Idealize.ShloMosaic.StableHlo
open Cert.ReferenceIdeal.RefScores

/-! ## The maximum over a group's eight lanes -/

/-- Over the result index `(r, g)`, putting lane `k` back on the reduced last axis gives `(r, g, k)`. -/
theorem lift_lane (h : S16384x16x8.Reduces [2] S16384x16) (r : Fin 16384) (g : Fin 16)
    (k : Fin (S16384x16x8.size 2)) :
    h.lift (ix2 r g) k = ix3 r g (⟨k.val, k.isLt⟩ : Fin 8) := by
  funext c; apply Fin.ext
  match c with
  | ⟨0, _⟩ => rfl
  | ⟨1, _⟩ => rfl
  | ⟨2, _⟩ => rfl

/-- A reduction by `max` over the last axis, read at `(r, g)`, is the fold of `max` over the eight
    lanes of group `g`, started from the initial element. -/
theorem hostMax_lanes (y : (⟨S16384x16x8, .f32⟩ : BufTy).Contents (Elt Ideal)) (init : (⟨S_, .f32⟩ : BufTy).Contents (Elt Ideal))
    (h' : S16384x16x8.ReducesTo [2] S16384x16) (hu : 0 < S_.numel) (r : Fin 16384) (g : Fin 16) :
    (Host.reduce (FloatOps.maximumf (F := Ideal) (φ := .f32)) y init h' hu : (⟨S16384x16, .f32⟩ : BufTy).Contents (Elt Ideal)) (ix2 r g)
      = (Finset.univ : Finset (Fin 8)).fold max (init (Shape.Idx.first hu)) (fun u => y (ix3 r g u)) := by
  have h : S16384x16x8.Reduces [2] S16384x16 := by decide
  refine (Host.reduce_eq_fold_single (FloatOps.maximumf (F := Ideal) (φ := .f32)) y init h' h hu (ix2 r g)).trans ?_
  have hf : (y ∘ h.lift (ix2 r g)) = fun u : Fin 8 => y (ix3 r g u) :=
    funext fun k => congrArg y (lift_lane h r g k)
  exact congrArg (fun f => Finset.fold max (init (Shape.Idx.first hu)) f (Finset.univ : Finset (Fin 8))) hf

section Stages

variable (x0 : (⟨S16384x128, .f32⟩ : BufTy).Contents (Elt Ideal)) (x1 : (⟨S16384x16384, .f32⟩ : BufTy).Contents (Elt Ideal))
  (x2 x3 x4 : (⟨S128x128, .f32⟩ : BufTy).Contents (Elt Ideal)) (r : Fin 16384)

/-- The first maximum at `(r, g)`: the fold of `max` over the group's scores from the minus-infinity word. -/
theorem max0_at (g : Fin 16) :
    val_main_v11 (F := Ideal) x0 x1 x2 x3 (ix2 r g)
      = (Finset.univ : Finset (Fin 8)).fold max negInfW (fun u => val_main_v10 (F := Ideal) x0 x1 x2 x3 (ix3 r g u)) := by
  unfold val_main_v11
  generalize val_main_v10 (F := Ideal) x0 x1 x2 x3 = y
  exact hostMax_lanes y _ _ _ r g

/-- The maximum with the same starting word once more changes nothing: at `(r, g)` it is the group's maximum. -/
theorem max_at (s : Fin 128 → EReal)
    (hs : ∀ (g : Fin 16) (u : Fin 8), val_main_v10 (F := Ideal) x0 x1 x2 x3 (ix3 r g u) = s (lane g u)) (g : Fin 16) :
    val_main_v13 (F := Ideal) x0 x1 x2 x3 (ix2 r g) = grpMax s g := by
  rw [val_main_v13_apply, val_main_v12_apply, val_main_cst_1_apply, max0_at]
  simp only [Ideal.maximumf_def, Ideal.ofBits_def, hs]
  exact max_start_fold _ _ _

/-- The group's maximum broadcast back over its lanes. -/
theorem maxB_at (s : Fin 128 → EReal)
    (hs : ∀ (g : Fin 16) (u : Fin 8), val_main_v10 (F := Ideal) x0 x1 x2 x3 (ix3 r g u) = s (lane g u)) (g : Fin 16) (u : Fin 8) :
    val_main_v15 (F := Ideal) x0 x1 x2 x3 (ix3 r g u) = grpMax s g := by
  have e : idx_main_v14 (idx_main_v15 (ix3 r g u)) = ix2 r g :=
    funext fun a => Fin.ext (by match a with | ⟨0, _⟩ => rfl | ⟨1, _⟩ => rfl)
  rw [val_main_v15_apply, val_main_v14_apply, e]
  exact max_at x0 x1 x2 x3 r s hs g

/-- The shifted exponential at `(r, g, u)`. -/
theorem exp_at (s : Fin 128 → EReal)
    (hs : ∀ (g : Fin 16) (u : Fin 8), val_main_v10 (F := Ideal) x0 x1 x2 x3 (ix3 r g u) = s (lane g u)) (g : Fin 16) (u : Fin 8) :
    val_main_v17 (F := Ideal) x0 x1 x2 x3 (ix3 r g u) = grpExp s g u := by
  rw [val_main_v17_apply, val_main_v16_apply, maxB_at x0 x1 x2 x3 r s hs g u, hs]
  rfl

/-- The sum of a group's exponentials, started from the zero word. -/
theorem sum_at (s : Fin 128 → EReal)
    (hs : ∀ (g : Fin 16) (u : Fin 8), val_main_v10 (F := Ideal) x0 x1 x2 x3 (ix3 r g u) = s (lane g u)) (g : Fin 16) :
    val_main_v18 (F := Ideal) x0 x1 x2 x3 (ix2 r g) = ∑ u' : Fin 8, grpExp s g u' := by
  rw [val_main_v18_apply, val_main_cst_2_apply, Ideal.ofBits_def, Ideal.ofBits_zero_f32, zero_add]
  refine Finset.sum_congr rfl fun k _ => ?_
  have e : idx_main_v18 (ix2 r g) k = ix3 r g k :=
    funext fun a => Fin.ext (by match a with | ⟨0, _⟩ => rfl | ⟨1, _⟩ => rfl | ⟨2, _⟩ => rfl)
  rw [e]
  exact exp_at x0 x1 x2 x3 r s hs g k

/-- The group's sum broadcast back over its lanes. -/
theorem sumB_at (s : Fin 128 → EReal)
    (hs : ∀ (g : Fin 16) (u : Fin 8), val_main_v10 (F := Ideal) x0 x1 x2 x3 (ix3 r g u) = s (lane g u)) (g : Fin 16) (u : Fin 8) :
    val_main_v20 (F := Ideal) x0 x1 x2 x3 (ix3 r g u) = ∑ u' : Fin 8, grpExp s g u' := by
  have e : idx_main_v19 (idx_main_v20 (ix3 r g u)) = ix2 r g :=
    funext fun a => Fin.ext (by match a with | ⟨0, _⟩ => rfl | ⟨1, _⟩ => rfl)
  rw [val_main_v20_apply, val_main_v19_apply, e]
  exact sum_at x0 x1 x2 x3 r s hs g

/-- The softmax weight times the value at `(r, g, u)`. -/
theorem wv_at (s v : Fin 128 → EReal)
    (hs : ∀ (g : Fin 16) (u : Fin 8), val_main_v10 (F := Ideal) x0 x1 x2 x3 (ix3 r g u) = s (lane g u))
    (hv : ∀ (g : Fin 16) (u : Fin 8), val_main_v6 (F := Ideal) x0 x1 x4 (ix3 r g u) = v (lane g u)) (g : Fin 16) (u : Fin 8) :
    val_main_v22 (F := Ideal) x0 x1 x2 x3 x4 (ix3 r g u) = grpW s g u * v (lane g u) := by
  rw [val_main_v22_apply, val_main_v21_apply, exp_at x0 x1 x2 x3 r s hs g u, sumB_at x0 x1 x2 x3 r s hs g u, hv]
  rfl

end Stages

/-- The softmax weights times the values at `(r, j)`. -/
theorem ref_attn (x0 : (⟨S16384x128, .f32⟩ : BufTy).Contents (Elt Ideal)) (x1 : (⟨S16384x16384, .f32⟩ : BufTy).Contents (Elt Ideal)) (x2 x3 x4 : (⟨S128x128, .f32⟩ : BufTy).Contents (Elt Ideal)) (r : Fin 16384) (j : Fin 128) :
    val_main_v23 (F := Ideal) x0 x1 x2 x3 x4 (ix2 r j)
      = attnW (scores (vecMat (fun k => val_main_v0 (F := Ideal) x0 x1 (ix2 r k)) (fun k l => x2 (ix2 k l)))
                      (vecMat (fun k => val_main_v0 (F := Ideal) x0 x1 (ix2 r k)) (fun k l => x3 (ix2 k l)))) j
        * vecMat (fun k => val_main_v0 (F := Ideal) x0 x1 (ix2 r k)) (fun k l => x4 (ix2 k l)) j := by
  -- the flat position 128 r + j lies in row r, group j / 8, lane j % 8
  have e : idx_main_v23 (ix2 r j) = ix3 r (grp j) (sub j) :=
    funext fun a => Fin.ext (by
      have hr := r.isLt
      have hj := j.isLt
      match a with
      | ⟨0, _⟩ => show (r.val * 128 + j.val) / 128 = r.val; omega
      | ⟨1, _⟩ => show (r.val * 128 + j.val) / 8 % 16 = j.val / 8; omega
      | ⟨2, _⟩ => show (r.val * 128 + j.val) % 8 = j.val % 8; omega)
  rw [val_main_v23_apply, e,
    wv_at x0 x1 x2 x3 x4 r _ _ (fun g u => ref_scores x0 x1 x2 x3 r g u) (fun g u => ref_vproj x0 x1 x4 r g u) (grp j) (sub j),
    lane_grp_sub]
  rfl

end Cert.ReferenceIdeal.RefSoftmax

end
-- ==== Proof.RNorm.lean ====
/-
  The reference's output projection of the attention, its residual and the first layer
  normalisation, read at an index.
-/
import proofs.«165487_j24223615549762_1_alg».proof.Proof.RefRead
import proofs.«165487_j24223615549762_1_alg».proof.Proof.RowSpec
import proofs.«165487_j24223615549762_1_alg».proof.Proof.LibDot2
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.RefNorm

open Cert.ReferenceIdeal Cert.ReferenceIdeal.Gen Cert.ReferenceIdeal.ReadP Cert.RowSpec
open Idealize.ShloMosaic Idealize.ShloMosaic.TcCoe Idealize.ShloMosaic.ValueIdx Idealize.ShloMosaic.StableHlo

/-! ## The indices through which the stages read one another, at explicit coordinates -/

theorem lidx24_at (r : Fin 16384) (j k : Fin 128) : lidx_main_v24 (ix2 r j) k = ix2 r k :=
  funext fun a => Fin.ext (by match a with | ⟨0, _⟩ => rfl | ⟨1, _⟩ => rfl)
theorem ridx24_at (r : Fin 16384) (j k : Fin 128) : ridx_main_v24 (ix2 r j) k = ix2 k j :=
  funext fun a => Fin.ext (by match a with | ⟨0, _⟩ => rfl | ⟨1, _⟩ => rfl)
theorem idx26_at (r : Fin 16384) (z : Fin 1) (k : Fin 128) :
    idx_main_v26 (idx_main_v27 (ix2 r z)) k = ix2 r k :=
  funext fun a => Fin.ext (by match a with | ⟨0, _⟩ => rfl | ⟨1, _⟩ => rfl)
theorem idx33_at (r : Fin 16384) (z : Fin 1) (k : Fin 128) :
    idx_main_v33 (idx_main_v34 (ix2 r z)) k = ix2 r k :=
  funext fun a => Fin.ext (by match a with | ⟨0, _⟩ => rfl | ⟨1, _⟩ => rfl)
theorem idx30_at (r : Fin 16384) (j : Fin 128) : idx_main_v30 (ix2 r j) = ix2 r (0 : Fin 1) :=
  funext fun a => Fin.ext (by match a with | ⟨0, _⟩ => rfl | ⟨1, _⟩ => rfl)
theorem idx37_at (r : Fin 16384) (j : Fin 128) : idx_main_v37 (ix2 r j) = ix2 r (0 : Fin 1) :=
  funext fun a => Fin.ext (by match a with | ⟨0, _⟩ => rfl | ⟨1, _⟩ => rfl)
theorem idx42_at (r : Fin 16384) (j : Fin 128) : idx_main_v42 (ix2 r j) = ix2 r (0 : Fin 1) :=
  funext fun a => Fin.ext (by match a with | ⟨0, _⟩ => rfl | ⟨1, _⟩ => rfl)
theorem idx45_at (r : Fin 16384) (j : Fin 128) : idx_main_v44 (idx_main_v45 (ix2 r j)) = ix1 j :=
  funext fun a => Fin.ext (by match a with | ⟨0, _⟩ => rfl)

/-! ## The stages, one at a time -/

/-- The stage before the normalisation: the attention output times the output weights, plus the
    aggregated features. -/
theorem v25_at (x0 : (⟨S16384x128, .f32⟩ : BufTy).Contents (Elt Ideal)) (x1 : (⟨S16384x16384, .f32⟩ : BufTy).Contents (Elt Ideal)) (x2 x3 x4 x5 : (⟨S128x128, .f32⟩ : BufTy).Contents (Elt Ideal)) (r : Fin 16384) (l : Fin 128) :
    val_main_v25 (F := Ideal) x0 x1 x2 x3 x4 x5 (ix2 r l)
      = vecMat (fun l' => val_main_v23 (F := Ideal) x0 x1 x2 x3 x4 (ix2 r l')) (fun k l'' => x5 (ix2 k l'')) l
          + val_main_v0 (F := Ideal) x0 x1 (ix2 r l) := by
  rw [val_main_v25_apply, val_main_v24_apply]
  simp only [lidx24_at, ridx24_at, Ideal.addf_def]
  rfl

/-- The row's mean: the sum over its 128 lanes, from the zero word, divided by the word of 128. -/
theorem v29_at (x0 : (⟨S16384x128, .f32⟩ : BufTy).Contents (Elt Ideal)) (x1 : (⟨S16384x16384, .f32⟩ : BufTy).Contents (Elt Ideal)) (x2 x3 x4 x5 : (⟨S128x128, .f32⟩ : BufTy).Contents (Elt Ideal)) (r : Fin 16384) (z : Fin 1) :
    val_main_v29 (F := Ideal) x0 x1 x2 x3 x4 x5 (ix2 r z)
      = mean128 (fun l => val_main_v25 (F := Ideal) x0 x1 x2 x3 x4 x5 (ix2 r l)) := by
  rw [val_main_v29_apply, val_main_v27_apply, val_main_v26_apply, val_main_v28_apply,
    val_main_cst_3_apply, val_main_cst_4_apply]
  simp only [idx26_at, Ideal.hostDivf_def, Ideal.ofBits_def, Ideal.ofBits_zero_f32, zero_add]
  rfl

/-- The centred row. -/
theorem v31_at (x0 : (⟨S16384x128, .f32⟩ : BufTy).Contents (Elt Ideal)) (x1 : (⟨S16384x16384, .f32⟩ : BufTy).Contents (Elt Ideal)) (x2 x3 x4 x5 : (⟨S128x128, .f32⟩ : BufTy).Contents (Elt Ideal)) (r : Fin 16384) (l : Fin 128) :
    val_main_v31 (F := Ideal) x0 x1 x2 x3 x4 x5 (ix2 r l)
      = val_main_v25 (F := Ideal) x0 x1 x2 x3 x4 x5 (ix2 r l)
          - mean128 (fun l' => val_main_v25 (F := Ideal) x0 x1 x2 x3 x4 x5 (ix2 r l')) := by
  rw [val_main_v31_apply, val_main_v30_apply, idx30_at, v29_at, Ideal.subf_def]

/-- The centred row again (the same mean broadcast a second time). -/
theorem v38_at (x0 : (⟨S16384x128, .f32⟩ : BufTy).Contents (Elt Ideal)) (x1 : (⟨S16384x16384, .f32⟩ : BufTy).Contents (Elt Ideal)) (x2 x3 x4 x5 : (⟨S128x128, .f32⟩ : BufTy).Contents (Elt Ideal)) (r : Fin 16384) (l : Fin 128) :
    val_main_v38 (F := Ideal) x0 x1 x2 x3 x4 x5 (ix2 r l)
      = val_main_v25 (F := Ideal) x0 x1 x2 x3 x4 x5 (ix2 r l)
          - mean128 (fun l' => val_main_v25 (F := Ideal) x0 x1 x2 x3 x4 x5 (ix2 r l')) := by
  rw [val_main_v38_apply, val_main_v37_apply, idx37_at, v29_at, Ideal.subf_def]

/-- The squared centred row. -/
theorem v32_at (x0 : (⟨S16384x128, .f32⟩ : BufTy).Contents (Elt Ideal)) (x1 : (⟨S16384x16384, .f32⟩ : BufTy).Contents (Elt Ideal)) (x2 x3 x4 x5 : (⟨S128x128, .f32⟩ : BufTy).Contents (Elt Ideal)) (r : Fin 16384) (l : Fin 128) :
    val_main_v32 (F := Ideal) x0 x1 x2 x3 x4 x5 (ix2 r l)
      = (val_main_v25 (F := Ideal) x0 x1 x2 x3 x4 x5 (ix2 r l)
            - mean128 (fun l' => val_main_v25 (F := Ideal) x0 x1 x2 x3 x4 x5 (ix2 r l')))
          * (val_main_v25 (F := Ideal) x0 x1 x2 x3 x4 x5 (ix2 r l)
            - mean128 (fun l' => val_main_v25 (F := Ideal) x0 x1 x2 x3 x4 x5 (ix2 r l'))) := by
  rw [val_main_v32_apply, v31_at, Ideal.mulf_def]

/-- The row's variance: the mean of the squared centred row. -/
theorem v36_at (x0 : (⟨S16384x128, .f32⟩ : BufTy).Contents (Elt Ideal)) (x1 : (⟨S16384x16384, .f32⟩ : BufTy).Contents (Elt Ideal)) (x2 x3 x4 x5 : (⟨S128x128, .f32⟩ : BufTy).Contents (Elt Ideal)) (r : Fin 16384) (z : Fin 1) :
    val_main_v36 (F := Ideal) x0 x1 x2 x3 x4 x5 (ix2 r z)
      = mean128 (fun k =>
          (val_main_v25 (F := Ideal) x0 x1 x2 x3 x4 x5 (ix2 r k)
              - mean128 (fun l' => val_main_v25 (F := Ideal) x0 x1 x2 x3 x4 x5 (ix2 r l')))
            * (val_main_v25 (F := Ideal) x0 x1 x2 x3 x4 x5 (ix2 r k)
              - mean128 (fun l' => val_main_v25 (F := Ideal) x0 x1 x2 x3 x4 x5 (ix2 r l')))) := by
  rw [val_main_v36_apply, val_main_v34_apply, val_main_v33_apply, val_main_v35_apply,
    val_main_cst_5_apply, val_main_cst_6_apply]
  simp only [idx33_at, v32_at, Ideal.hostDivf_def, Ideal.ofBits_def, Ideal.ofBits_zero_f32, zero_add]
  rfl

/-- The reciprocal square root of the variance plus the offset word. -/
theorem v41_at (x0 : (⟨S16384x128, .f32⟩ : BufTy).Contents (Elt Ideal)) (x1 : (⟨S16384x16384, .f32⟩ : BufTy).Contents (Elt Ideal)) (x2 x3 x4 x5 : (⟨S128x128, .f32⟩ : BufTy).Contents (Elt Ideal)) (r : Fin 16384) (z : Fin 1) :
    val_main_v41 (F := Ideal) x0 x1 x2 x3 x4 x5 (ix2 r z)
      = Ideal.rsqrt (mean128 (fun k =>
          (val_main_v25 (F := Ideal) x0 x1 x2 x3 x4 x5 (ix2 r k)
              - mean128 (fun l' => val_main_v25 (F := Ideal) x0 x1 x2 x3 x4 x5 (ix2 r l')))
            * (val_main_v25 (F := Ideal) x0 x1 x2 x3 x4 x5 (ix2 r k)
              - mean128 (fun l' => val_main_v25 (F := Ideal) x0 x1 x2 x3 x4 x5 (ix2 r l')))) + epsW) := by
  rw [val_main_v41_apply, val_main_v40_apply, val_main_v39_apply, val_main_cst_7_apply, v36_at,
    Ideal.hostUnary_rsqrt_def, Ideal.addf_def, Ideal.ofBits_def]

/-- The scale, broadcast along the rows, read at `(r, j)`. -/
theorem v45_at (x6 : (⟨S128, .f32⟩ : BufTy).Contents (Elt Ideal)) (r : Fin 16384) (j : Fin 128) :
    val_main_v45 (F := Ideal) x6 (ix2 r j) = x6 (ix1 j) := by
  rw [val_main_v45_apply, val_main_v44_apply, idx45_at]

/-- The normalised row from the stage before it: the layer normalisation of that stage's row. -/
theorem v46_at (x0 : (⟨S16384x128, .f32⟩ : BufTy).Contents (Elt Ideal)) (x1 : (⟨S16384x16384, .f32⟩ : BufTy).Contents (Elt Ideal)) (x2 x3 x4 x5 : (⟨S128x128, .f32⟩ : BufTy).Contents (Elt Ideal)) (x6 : (⟨S128, .f32⟩ : BufTy).Contents (Elt Ideal)) (r : Fin 16384) (j : Fin 128) :
    val_main_v46 (F := Ideal) x0 x1 x2 x3 x4 x5 x6 (ix2 r j)
      = lnRow (fun l => val_main_v25 (F := Ideal) x0 x1 x2 x3 x4 x5 (ix2 r l)) (fun l => x6 (ix1 l)) j := by
  rw [val_main_v46_apply, val_main_v43_apply, val_main_v42_apply, idx42_at, v38_at, v41_at, v45_at,
    Ideal.mulf_def, Ideal.mulf_def]
  rfl

/-- The first normalised row at `(r, j)`, from the weighted values and the aggregated features. -/
theorem ref_norm1 (x0 : (⟨S16384x128, .f32⟩ : BufTy).Contents (Elt Ideal)) (x1 : (⟨S16384x16384, .f32⟩ : BufTy).Contents (Elt Ideal)) (x2 x3 x4 x5 : (⟨S128x128, .f32⟩ : BufTy).Contents (Elt Ideal)) (x6 : (⟨S128, .f32⟩ : BufTy).Contents (Elt Ideal)) (r : Fin 16384) (j : Fin 128) :
    val_main_v46 (F := Ideal) x0 x1 x2 x3 x4 x5 x6 (ix2 r j)
      = lnRow (fun l => vecMat (fun l' => val_main_v23 (F := Ideal) x0 x1 x2 x3 x4 (ix2 r l')) (fun k l'' => x5 (ix2 k l'')) l
                          + val_main_v0 (F := Ideal) x0 x1 (ix2 r l))
              (fun l => x6 (ix1 l)) j := by
  rw [v46_at]
  exact congrArg (fun x => lnRow x (fun l => x6 (ix1 l)) j) (funext fun l => v25_at x0 x1 x2 x3 x4 x5 r l)

end Cert.ReferenceIdeal.RefNorm

end
-- ==== Proof.RTail.lean ====
/-
  The reference's feed-forward block with its residual, the second layer normalisation and the
  projection to 40 logits, read at an index.
-/
import proofs.«165487_j24223615549762_1_alg».proof.Proof.RefRead
import proofs.«165487_j24223615549762_1_alg».proof.Proof.RowSpec
import proofs.«165487_j24223615549762_1_alg».proof.Proof.LibDot2
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.RefTail

open Cert.ReferenceIdeal Cert.ReferenceIdeal.Gen Cert.ReferenceIdeal.ReadP Cert.RowSpec
open Idealize.ShloMosaic Idealize.ShloMosaic.TcCoe Idealize.ShloMosaic.ValueIdx Idealize.ShloMosaic.StableHlo

section Stages

variable (x0 : (⟨S16384x128, .f32⟩ : BufTy).Contents (Elt Ideal)) (x1 : (⟨S16384x16384, .f32⟩ : BufTy).Contents (Elt Ideal)) (x2 x3 x4 x5 : (⟨S128x128, .f32⟩ : BufTy).Contents (Elt Ideal)) (x6 : (⟨S128, .f32⟩ : BufTy).Contents (Elt Ideal)) (x7 : (⟨S128x256, .f32⟩ : BufTy).Contents (Elt Ideal)) (x8 : (⟨S256x128, .f32⟩ : BufTy).Contents (Elt Ideal))
  (x9 : (⟨S128, .f32⟩ : BufTy).Contents (Elt Ideal)) (x10 : (⟨S128x40, .f32⟩ : BufTy).Contents (Elt Ideal))

/-- Row `r` after the first normalisation: `y[j]`. -/
def yRow (r : Fin 16384) : Fin 128 → EReal :=
  fun j => val_main_v46 (F := Ideal) x0 x1 x2 x3 x4 x5 x6 (ix2 r j)

/-- Row `r` after the feed-forward block and its residual: `r₂[j] = (max (y·W₁) 0 · W₂)[j] + y[j]`. -/
def r2Row (r : Fin 16384) : Fin 128 → EReal :=
  res2 (yRow x0 x1 x2 x3 x4 x5 x6 r) (fun k l => x7 (ix2 k l)) (fun k l => x8 (ix2 k l))

/-- The first feed-forward product at `(r, l)`: `Σ k, y[k] * W₁[k, l]`. -/
theorem v47_at (r : Fin 16384) (l : Fin 256) :
    val_main_v47 (F := Ideal) x0 x1 x2 x3 x4 x5 x6 x7 (ix2 r l)
      = vecMat (yRow x0 x1 x2 x3 x4 x5 x6 r) (fun k l => x7 (ix2 k l)) l := by
  have el : ∀ k : Fin 128, lidx_main_v47 (ix2 r l) k = ix2 r k := fun k =>
    funext fun a => Fin.ext (by match a with | ⟨0, _⟩ => rfl | ⟨1, _⟩ => rfl)
  have er : ∀ k : Fin 128, ridx_main_v47 (ix2 r l) k = ix2 k l := fun k =>
    funext fun a => Fin.ext (by match a with | ⟨0, _⟩ => rfl | ⟨1, _⟩ => rfl)
  rw [val_main_v47_apply]
  simp only [el, er]
  rfl

/-- The rectified product at `(r, l)`: the maximum of the product and the zero word, in this order. -/
theorem v48_at (r : Fin 16384) (l : Fin 256) :
    val_main_v48 (F := Ideal) x0 x1 x2 x3 x4 x5 x6 x7 (ix2 r l)
      = max (vecMat (yRow x0 x1 x2 x3 x4 x5 x6 r) (fun k l => x7 (ix2 k l)) l) zeroW := by
  rw [val_main_v48_apply, val_main_call0_v0_apply, val_main_call0_cst_apply, v47_at]
  rfl

/-- The second feed-forward product at `(r, j)`: `Σ l, max (y·W₁)[l] 0 * W₂[l, j]`. -/
theorem v49_at (r : Fin 16384) (j : Fin 128) :
    val_main_v49 (F := Ideal) x0 x1 x2 x3 x4 x5 x6 x7 x8 (ix2 r j)
      = vecMat (fun l => max (vecMat (yRow x0 x1 x2 x3 x4 x5 x6 r) (fun k l => x7 (ix2 k l)) l) zeroW)
          (fun k l => x8 (ix2 k l)) j := by
  have el : ∀ k : Fin 256, lidx_main_v49 (ix2 r j) k = ix2 r k := fun k =>
    funext fun a => Fin.ext (by match a with | ⟨0, _⟩ => rfl | ⟨1, _⟩ => rfl)
  have er : ∀ k : Fin 256, ridx_main_v49 (ix2 r j) k = ix2 k j := fun k =>
    funext fun a => Fin.ext (by match a with | ⟨0, _⟩ => rfl | ⟨1, _⟩ => rfl)
  rw [val_main_v49_apply]
  simp only [el, er, v48_at]
  rfl

/-- The feed-forward block plus its residual at `(r, j)`. -/
theorem v50_at (r : Fin 16384) (j : Fin 128) :
    val_main_v50 (F := Ideal) x0 x1 x2 x3 x4 x5 x6 x7 x8 (ix2 r j) = r2Row x0 x1 x2 x3 x4 x5 x6 x7 x8 r j := by
  rw [val_main_v50_apply, v49_at]
  rfl

/-- The row sum of `r₂`: the sum started from the zero word is the plain sum. -/
theorem v51_at (r : Fin 16384) :
    val_main_v51 (F := Ideal) x0 x1 x2 x3 x4 x5 x6 x7 x8 (ix1 r) = ∑ k : Fin 128, r2Row x0 x1 x2 x3 x4 x5 x6 x7 x8 r k := by
  have e : ∀ k : Fin 128, idx_main_v51 (ix1 r) k = ix2 r k := fun k =>
    funext fun a => Fin.ext (by match a with | ⟨0, _⟩ => rfl | ⟨1, _⟩ => rfl)
  rw [val_main_v51_apply, val_main_cst_8_apply]
  simp only [e, v50_at, Ideal.ofBits_def, Ideal.ofBits_zero_f32, zero_add]

/-- The row mean of `r₂`, kept as a one-column array. -/
theorem v54_at (r : Fin 16384) (z : Fin 1) :
    val_main_v54 (F := Ideal) x0 x1 x2 x3 x4 x5 x6 x7 x8 (ix2 r z) = mean128 (r2Row x0 x1 x2 x3 x4 x5 x6 x7 x8 r) := by
  have e : idx_main_v52 (ix2 r z) = ix1 r :=
    funext fun a => Fin.ext (by match a with | ⟨0, _⟩ => rfl)
  rw [val_main_v54_apply, val_main_v52_apply, val_main_v53_apply, val_main_cst_9_apply, e, v51_at]
  rfl

/-- The centred row at `(r, j)`: `r₂[j] - mean r₂`. -/
theorem v56_at (r : Fin 16384) (j : Fin 128) :
    val_main_v56 (F := Ideal) x0 x1 x2 x3 x4 x5 x6 x7 x8 (ix2 r j)
      = r2Row x0 x1 x2 x3 x4 x5 x6 x7 x8 r j - mean128 (r2Row x0 x1 x2 x3 x4 x5 x6 x7 x8 r) := by
  have e : idx_main_v55 (ix2 r j) = ix2 r (⟨0, Nat.one_pos⟩ : Fin 1) :=
    funext fun a => Fin.ext (by match a with | ⟨0, _⟩ => rfl | ⟨1, _⟩ => rfl)
  rw [val_main_v56_apply, val_main_v55_apply, e, v54_at, v50_at]
  rfl

/-- The squared centred row at `(r, j)`. -/
theorem v57_at (r : Fin 16384) (j : Fin 128) :
    val_main_v57 (F := Ideal) x0 x1 x2 x3 x4 x5 x6 x7 x8 (ix2 r j)
      = (r2Row x0 x1 x2 x3 x4 x5 x6 x7 x8 r j - mean128 (r2Row x0 x1 x2 x3 x4 x5 x6 x7 x8 r))
        * (r2Row x0 x1 x2 x3 x4 x5 x6 x7 x8 r j - mean128 (r2Row x0 x1 x2 x3 x4 x5 x6 x7 x8 r)) := by
  rw [val_main_v57_apply, v56_at]
  rfl

/-- The row sum of the squares, again started from the zero word. -/
theorem v58_at (r : Fin 16384) :
    val_main_v58 (F := Ideal) x0 x1 x2 x3 x4 x5 x6 x7 x8 (ix1 r)
      = ∑ k : Fin 128, (r2Row x0 x1 x2 x3 x4 x5 x6 x7 x8 r k - mean128 (r2Row x0 x1 x2 x3 x4 x5 x6 x7 x8 r))
          * (r2Row x0 x1 x2 x3 x4 x5 x6 x7 x8 r k - mean128 (r2Row x0 x1 x2 x3 x4 x5 x6 x7 x8 r)) := by
  have e : ∀ k : Fin 128, idx_main_v58 (ix1 r) k = ix2 r k := fun k =>
    funext fun a => Fin.ext (by match a with | ⟨0, _⟩ => rfl | ⟨1, _⟩ => rfl)
  rw [val_main_v58_apply, val_main_cst_10_apply]
  simp only [e, v57_at, Ideal.ofBits_def, Ideal.ofBits_zero_f32, zero_add]

/-- The row's variance, kept as a one-column array. -/
theorem v61_at (r : Fin 16384) (z : Fin 1) :
    val_main_v61 (F := Ideal) x0 x1 x2 x3 x4 x5 x6 x7 x8 (ix2 r z)
      = mean128 (fun k => (r2Row x0 x1 x2 x3 x4 x5 x6 x7 x8 r k - mean128 (r2Row x0 x1 x2 x3 x4 x5 x6 x7 x8 r))
          * (r2Row x0 x1 x2 x3 x4 x5 x6 x7 x8 r k - mean128 (r2Row x0 x1 x2 x3 x4 x5 x6 x7 x8 r))) := by
  have e : idx_main_v59 (ix2 r z) = ix1 r :=
    funext fun a => Fin.ext (by match a with | ⟨0, _⟩ => rfl)
  rw [val_main_v61_apply, val_main_v59_apply, val_main_v60_apply, val_main_cst_11_apply, e, v58_at]
  rfl

/-- The centred row once more (the program subtracts the mean a second time from `r₂`). -/
theorem v63_at (r : Fin 16384) (j : Fin 128) :
    val_main_v63 (F := Ideal) x0 x1 x2 x3 x4 x5 x6 x7 x8 (ix2 r j)
      = r2Row x0 x1 x2 x3 x4 x5 x6 x7 x8 r j - mean128 (r2Row x0 x1 x2 x3 x4 x5 x6 x7 x8 r) := by
  have e : idx_main_v62 (ix2 r j) = ix2 r (⟨0, Nat.one_pos⟩ : Fin 1) :=
    funext fun a => Fin.ext (by match a with | ⟨0, _⟩ => rfl | ⟨1, _⟩ => rfl)
  rw [val_main_v63_apply, val_main_v62_apply, e, v54_at, v50_at]
  rfl

/-- The reciprocal square root of the variance plus the offset word. -/
theorem v66_at (r : Fin 16384) (z : Fin 1) :
    val_main_v66 (F := Ideal) x0 x1 x2 x3 x4 x5 x6 x7 x8 (ix2 r z)
      = Ideal.rsqrt (mean128 (fun k => (r2Row x0 x1 x2 x3 x4 x5 x6 x7 x8 r k - mean128 (r2Row x0 x1 x2 x3 x4 x5 x6 x7 x8 r))
          * (r2Row x0 x1 x2 x3 x4 x5 x6 x7 x8 r k - mean128 (r2Row x0 x1 x2 x3 x4 x5 x6 x7 x8 r))) + epsW) := by
  rw [val_main_v66_apply, val_main_v65_apply, val_main_v64_apply, val_main_cst_12_apply, v61_at]
  rfl

/-- The scale `γ₂` broadcast along the rows. -/
theorem v70_at (r : Fin 16384) (j : Fin 128) :
    val_main_v70 (F := Ideal) x9 (ix2 r j) = x9 (ix1 j) := by
  have e1 : idx_main_v70 (ix2 r j) = ix2 (⟨0, Nat.one_pos⟩ : Fin 1) j :=
    funext fun a => Fin.ext (by match a with | ⟨0, _⟩ => rfl | ⟨1, _⟩ => rfl)
  have e2 : idx_main_v69 (ix2 (⟨0, Nat.one_pos⟩ : Fin 1) j) = ix1 j :=
    funext fun a => Fin.ext (by match a with | ⟨0, _⟩ => rfl)
  rw [val_main_v70_apply, e1, val_main_v69_apply, e2]

/-- The second normalised row at `(r, j)`. -/
theorem v71_at (r : Fin 16384) (j : Fin 128) :
    val_main_v71 (F := Ideal) x0 x1 x2 x3 x4 x5 x6 x7 x8 x9 (ix2 r j)
      = lnRow (r2Row x0 x1 x2 x3 x4 x5 x6 x7 x8 r) (fun l => x9 (ix1 l)) j := by
  have e : idx_main_v67 (ix2 r j) = ix2 r (⟨0, Nat.one_pos⟩ : Fin 1) :=
    funext fun a => Fin.ext (by match a with | ⟨0, _⟩ => rfl | ⟨1, _⟩ => rfl)
  rw [val_main_v71_apply, val_main_v68_apply, val_main_v67_apply, e, v66_at, v63_at, v70_at]
  rfl

end Stages

/-- The logits at `(r, c)`, from the first normalised row. -/
theorem ref_tail (x0 : (⟨S16384x128, .f32⟩ : BufTy).Contents (Elt Ideal)) (x1 : (⟨S16384x16384, .f32⟩ : BufTy).Contents (Elt Ideal)) (x2 x3 x4 x5 : (⟨S128x128, .f32⟩ : BufTy).Contents (Elt Ideal)) (x6 : (⟨S128, .f32⟩ : BufTy).Contents (Elt Ideal)) (x7 : (⟨S128x256, .f32⟩ : BufTy).Contents (Elt Ideal)) (x8 : (⟨S256x128, .f32⟩ : BufTy).Contents (Elt Ideal))
    (x9 : (⟨S128, .f32⟩ : BufTy).Contents (Elt Ideal)) (x10 : (⟨S128x40, .f32⟩ : BufTy).Contents (Elt Ideal)) (r : Fin 16384) (c : Fin 40) :
    val_main_v72 (F := Ideal) x0 x1 x2 x3 x4 x5 x6 x7 x8 x9 x10 (ix2 r c)
      = tailOut (fun j => val_main_v46 (F := Ideal) x0 x1 x2 x3 x4 x5 x6 (ix2 r j))
          (fun k l => x7 (ix2 k l)) (fun k l => x8 (ix2 k l)) (fun l => x9 (ix1 l)) (fun k l => x10 (ix2 k l)) c := by
  have el : ∀ k : Fin 128, lidx_main_v72 (ix2 r c) k = ix2 r k := fun k =>
    funext fun a => Fin.ext (by match a with | ⟨0, _⟩ => rfl | ⟨1, _⟩ => rfl)
  have er : ∀ k : Fin 128, ridx_main_v72 (ix2 r c) k = ix2 k c := fun k =>
    funext fun a => Fin.ext (by match a with | ⟨0, _⟩ => rfl | ⟨1, _⟩ => rfl)
  rw [val_main_v72_apply]
  simp only [el, er, v71_at]
  rfl

end Cert.ReferenceIdeal.RefTail

end
-- ==== Proof.RefAll.lean ====
/-
  The reference program's result as the network function of its arguments: its last stage, read
  at an index, unfolds through the projection, the second normalisation and the feed-forward block
  to the first normalised row, through that to the attention output and the aggregated features,
  and each of those is the row function's own term.
-/
import proofs.«165487_j24223615549762_1_alg».proof.Proof.RScores
import proofs.«165487_j24223615549762_1_alg».proof.Proof.RSoftmax
import proofs.«165487_j24223615549762_1_alg».proof.Proof.RNorm
import proofs.«165487_j24223615549762_1_alg».proof.Proof.RTail
import proofs.«165487_j24223615549762_1_alg».proof.Proof.NetSpec
import Idealize.ShloMosaic.Lib.ValueIdx

noncomputable section

open scoped BigOperators

namespace Cert.ReferenceIdeal.RefAll

open Cert.ReferenceIdeal Cert.ReferenceIdeal.Gen Cert.ReferenceIdeal.ReadP Cert.RowSpec
open Cert.ReferenceIdeal.RefScores Cert.ReferenceIdeal.RefSoftmax Cert.ReferenceIdeal.RefNorm Cert.ReferenceIdeal.RefTail
open Idealize.ShloMosaic Idealize.ShloMosaic.TcCoe Idealize.ShloMosaic.ValueIdx Idealize.ShloMosaic.StableHlo

/-- The last stage at `(r, c)` is the row function of row `r` of `adj · x`. -/
theorem ref_all (x0 : (⟨S16384x128, .f32⟩ : BufTy).Contents (Elt Ideal)) (x1 : (⟨S16384x16384, .f32⟩ : BufTy).Contents (Elt Ideal)) (x2 x3 x4 x5 : (⟨S128x128, .f32⟩ : BufTy).Contents (Elt Ideal)) (x6 : (⟨S128, .f32⟩ : BufTy).Contents (Elt Ideal))
    (x7 : (⟨S128x256, .f32⟩ : BufTy).Contents (Elt Ideal)) (x8 : (⟨S256x128, .f32⟩ : BufTy).Contents (Elt Ideal)) (x9 : (⟨S128, .f32⟩ : BufTy).Contents (Elt Ideal)) (x10 : (⟨S128x40, .f32⟩ : BufTy).Contents (Elt Ideal)) (r : Fin 16384) (c : Fin 40) :
    val_main_v72 (F := Ideal) x0 x1 x2 x3 x4 x5 x6 x7 x8 x9 x10 (ix2 r c)
      = rowOut (aggRow (fun r n => x1 (ix2 r n)) (fun n j => x0 (ix2 n j)) r)
          (fun k l => x2 (ix2 k l)) (fun k l => x3 (ix2 k l)) (fun k l => x4 (ix2 k l)) (fun k l => x5 (ix2 k l)) (fun l => x6 (ix1 l))
          (fun k l => x7 (ix2 k l)) (fun k l => x8 (ix2 k l)) (fun l => x9 (ix1 l)) (fun k l => x10 (ix2 k l)) c := by
  rw [ref_tail]
  unfold rowOut rowY
  refine congrArg (fun z => tailOut z _ _ _ _ c) (funext fun j => ?_)
  rw [ref_norm1]
  unfold res1
  refine congrArg (fun z => lnRow z _ j) (funext fun l => ?_)
  simp only [ref_attn, ref_agg]

/-- The reference's result array is the network function of its arguments. -/
theorem ref_net (x0 : (⟨S16384x128, .f32⟩ : BufTy).Contents (Elt Ideal)) (x1 : (⟨S16384x16384, .f32⟩ : BufTy).Contents (Elt Ideal)) (x2 x3 x4 x5 : (⟨S128x128, .f32⟩ : BufTy).Contents (Elt Ideal)) (x6 : (⟨S128, .f32⟩ : BufTy).Contents (Elt Ideal))
    (x7 : (⟨S128x256, .f32⟩ : BufTy).Contents (Elt Ideal)) (x8 : (⟨S256x128, .f32⟩ : BufTy).Contents (Elt Ideal)) (x9 : (⟨S128, .f32⟩ : BufTy).Contents (Elt Ideal)) (x10 : (⟨S128x40, .f32⟩ : BufTy).Contents (Elt Ideal)) :
    val_main_v72 (F := Ideal) x0 x1 x2 x3 x4 x5 x6 x7 x8 x9 x10 = netG x0 x1 x2 x3 x4 x5 x6 x7 x8 x9 x10 := by
  funext i
  obtain ⟨r, c, rfl⟩ : ∃ (r : Fin 16384) (c : Fin 40), i = ix2 r c := ⟨i 0, i 1, eq_ix2 i⟩
  rw [ref_all, netG_apply]

end Cert.ReferenceIdeal.RefAll

end
-- ==== Proof.lean ====
/-
  The graph-transformer block kernel against its reference, over the extended reals.

  The kernel program runs two pipelined regions. The first streams the adjacency array through in
  row blocks and leaves `h = adj · x`. The second takes `h` in blocks of 1024 rows with every
  weight matrix resident and computes, row by row: the projections `q, k, v`; the score
  `q ⊙ k ⊙ ¼`; a softmax over each group of eight consecutive lanes, written slice by slice into a
  scratch and read back whole; the output projection plus `h`; a layer normalisation; a
  feed-forward block with its residual; a second normalisation; and the projection to 40 logits.
  The reference computes the same network on whole arrays, with the lanes regrouped as a
  16 × 8 axis pair, and divides the score by the square root of 16 where the kernel multiplies by
  one quarter. On the extended reals every change of float format is the identity and each
  operation is exact, so both results are one function of the arguments, `Cert.RowSpec.netG`: row
  `r` of the result is the row function (`Cert.RowSpec.rowOut`) of row `r` of `adj · x`. The two
  places where the texts differ are `a / √16 = a · ¼` and a maximum taken once more with the value
  its fold started from.

  Frames: the two kernel programs' are the generated frame certificates; the reference's is its
  run with the result dropped. The idealization rewrote nothing, so `preserves` is `True`.
-/
import proofs.«165487_j24223615549762_1_alg».proof.Defs
import proofs.«165487_j24223615549762_1_alg».proof.Proof.Gen.Kernel
import proofs.«165487_j24223615549762_1_alg».proof.Proof.Gen.Kernel.Frame
import proofs.«165487_j24223615549762_1_alg».proof.Proof.Gen.KernelIdeal
import proofs.«165487_j24223615549762_1_alg».proof.Proof.Gen.KernelIdeal.Frame
import proofs.«165487_j24223615549762_1_alg».proof.Proof.Gen.ReferenceIdeal
import proofs.«165487_j24223615549762_1_alg».proof.Proof.Gen.Pre_finite_inputs
import proofs.«165487_j24223615549762_1_alg».proof.Proof.RefRun
import proofs.«165487_j24223615549762_1_alg».proof.Proof.RefRead
import proofs.«165487_j24223615549762_1_alg».proof.Proof.KernelValue
import proofs.«165487_j24223615549762_1_alg».proof.Proof.RefAll
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts, by
  refine ⟨fun m ρ _ => Cert.Kernel.Gen.frame m ρ, fun m ρ _ => Cert.KernelIdeal.Gen.frame m ρ, ?_, trivial, ?_⟩
  · -- the reference runs, and its arguments end as launched
    exact fun m ρ _ => (θ_run Cert.ReferenceIdeal.defs _ _).mono (fun _ h c => (h c).2)
      (Cert.ReferenceIdeal.ValueP.run (F := Ideal) m ρ)
  · -- both programs end with the network function of the arguments they agree on
    intro m ρ m' ρ' _ hagree
    refine ⟨fun c => Cert.KernelIdeal.KernelValue.kernelG m c, Cert.KernelIdeal.KernelValue.kernel_run m ρ, ?_⟩
    refine (θ_run Cert.ReferenceIdeal.defs _ _).mono (fun _ h c => ⟨(h c).1.trans ?_, (h c).2⟩)
      (Cert.ReferenceIdeal.ValueP.run (F := Ideal) m' ρ')
    obtain ⟨h0, h1, h2, h3, h4, h5, h6, h7, h8, h9, h10⟩ := hagree c
    rw [Cert.ReferenceIdeal.ReadP.val_main_v72_eq, Cert.ReferenceIdeal.RefAll.ref_net,
      h0, h1, h2, h3, h4, h5, h6, h7, h8, h9, h10]
    rfl⟩

end Cert.Proof

end
